-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg13 : FVec F S4 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4 .f32 := Host.absf main_arg13
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S128x128 .f32) (main_arg12 : FVec F S4x128 .f32) (main_arg13 : FVec F S4 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S4x128 .f32) (main_arg13 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S4x128 .f32) (main_arg13 : FVec F S4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S2000x128 : Shape := ⟨2, ![2000, 128]⟩
abbrev S1x4 : Shape := ⟨2, ![1, 4]⟩
abbrev S64x4 : Shape := ⟨2, ![64, 4]⟩
abbrev S2000x1 : Shape := ⟨2, ![2000, 1]⟩
abbrev S64x128 : Shape := ⟨2, ![64, 128]⟩
abbrev S64x1 : Shape := ⟨2, ![64, 1]⟩
abbrev S1x64 : Shape := ⟨2, ![1, 64]⟩
abbrev S2000x64 : Shape := ⟨2, ![2000, 64]⟩
abbrev S64 : Shape := ⟨1, ![64]⟩
abbrev S128x4 : Shape := ⟨2, ![128, 4]⟩

abbrev nBuf : Space → Nat
  | .hbm => 84
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S4x128, .f32⟩
  | .hbm, ⟨13, _⟩ => ⟨S4, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S_, .f32⟩
  | .hbm, ⟨19, _⟩ => ⟨S600000x1, .f32⟩
  | .hbm, ⟨20, _⟩ => ⟨S_, .f32⟩
  | .hbm, ⟨21, _⟩ => ⟨S50000x1, .f32⟩
  | .hbm, ⟨22, _⟩ => ⟨S600000x1, .i32⟩
  | .hbm, ⟨23, _⟩ => ⟨S50000x1, .f32⟩
  | .hbm, ⟨24, _⟩ => ⟨S_, .f32⟩
  | .hbm, ⟨25, _⟩ => ⟨S50000x1, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x128, .f32⟩
  | .hbm, ⟨73, _⟩ => ⟨S_, .f32⟩
  | .hbm, ⟨74, _⟩ => ⟨S50000x128, .f32⟩
  | .hbm, ⟨75, _⟩ => ⟨S600000x1, .i32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x1, .i32⟩
  | .hbm, ⟨82, _⟩ => ⟨S1x4, .f32⟩
  | .hbm, ⟨83, _⟩ => ⟨S64x4, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x1, .i32⟩
  | .local _ .vmem, ⟨30, _⟩ => ⟨S2000x1, .i32⟩
  | .local _ .vmem, ⟨31, _⟩ => ⟨S4x128, .f32⟩
  | .local _ .vmem, ⟨32, _⟩ => ⟨S1x4, .f32⟩
  | .local _ .vmem, ⟨33, _⟩ => ⟨S64x4, .f32⟩
  | .local _ .vmem, ⟨34, _⟩ => ⟨S64x128, .f32⟩
  | .local _ .vmem, ⟨35, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_scratch0 : Ref sig .tc := ⟨.vmem, 34, rfl⟩
abbrev cc3_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v29 : BitVec 1 := Scalar.cmpi .eq arg0 c24_i32
  let v30 : BitVec 32 := Scalar.extui v29
  let c0_i32_13 : BitVec 32 := 0#32
  let v31 : BitVec 1 := Scalar.cmpi .ne v30 c0_i32_13
  v31

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x4 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S_S50000x1 : S_.BroadcastsInDim S50000x1 (![] : Fin 0 → Fin S50000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S2000x128 : S1x128.Broadcasts S2000x128
  shapeCasts_S50000_S50000x1 : S50000.ShapeCasts S50000x1
  shapeCasts_S4_S1x4 : S4.ShapeCasts S1x4
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x64_d1_w32 : S1x64.Iotas .tc 32 [1]
  broadcasts_S2000x1_S2000x64 : S2000x1.Broadcasts S2000x64
  broadcasts_S1x64_S2000x64 : S1x64.Broadcasts S2000x64
  natLt_1_32 : 1 < 32
  reduces_S2000x64_S64 : S2000x64.Reduces [0] S64
  shapeCasts_S64_S1x64 : S64.ShapeCasts S1x64
  transposes_S1x64_p1_0_S64x1 : S1x64.Transposes [1, 0] S64x1
  broadcasts_S64x1_S64x128 : S64x1.Broadcasts S64x128
  inb_S4x128_S4x128_0_0 : ∀ a, (![0, 0] : Fin 2 → Nat) a + S4x128.size a ≤ S4x128.size a
  h_S4x128 : 0 < S4x128.numel
  transposes_S4x128_p1_0_S128x4 : S4x128.Transposes [1, 0] S128x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S64x4 : S1x4.Broadcasts S64x4
  inb_S64x4_S64x4_0_0 : ∀ a, (![0, 0] : Fin 2 → Nat) a + S64x4.size a ≤ S64x4.size a
  h_S64x4 : 0 < S64x4.numel
  scatter_S50000x1_S600000x1_S600000x1_1_0_0_1_wf : ScatterDims.WF S50000x1 S600000x1 S600000x1 [1] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x64_S2000x128_S64x128_0_0_1_1_n_n_wf : DotDims.WF S2000x64 S2000x128 S64x128 [0] [0] [1] [1] [] []
  dot_S64x128_S128x4_S64x4_1_0_0_1_n_n_wf : DotDims.WF S64x128 S128x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .i32 = 32 ∨ (Rect.block (s := S50000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4x128.size a ≤ S4x128.size a
  hwx3_2 : ∀ i : grid3.Coords, EltTy.bits .f32 = 32 ∨ (Rect.block (s := S4x128) S4x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x4.size a ≤ S1x4.size a
  hwx3_3 : ∀ i : grid3.Coords, EltTy.bits .f32 = 32 ∨ (Rect.block (s := S1x4) S1x4.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x4.size a ≤ S64x4.size a
  hwx3_4 : ∀ i : grid3.Coords, EltTy.bits .f32 = 32 ∨ (Rect.block (s := S64x4) S64x4.size (cc3_transform_4 i) (hinb3_4 i)).WholeWords (EltTy.packing .f32)

variable [Facts₀]

def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S4x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x4.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S64x4.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S64x128 : Shape := ⟨2, ![64, 128]⟩
abbrev S64x1 : Shape := ⟨2, ![64, 1]⟩
abbrev S128x4 : Shape := ⟨2, ![128, 4]⟩
abbrev S64x4 : Shape := ⟨2, ![64, 4]⟩
abbrev S1x4 : Shape := ⟨2, ![1, 4]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S4x128, .f32⟩
  | 13 => ⟨S4, .f32⟩
  | 14 => ⟨S1x600000, .i32⟩
  | 15 => ⟨S600000, .i32⟩
  | 16 => ⟨S1x600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S_, .f32⟩
  | 28 => ⟨S50000x128, .f32⟩
  | 29 => ⟨S600000x1, .i32⟩
  | 30 => ⟨S50000x128, .f32⟩
  | 31 => ⟨S_, .f32⟩
  | 32 => ⟨S600000x1, .f32⟩
  | 33 => ⟨S_, .f32⟩
  | 34 => ⟨S50000x1, .f32⟩
  | 35 => ⟨S600000x1, .i32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S128x128, .f32⟩
  | 43 => ⟨S50000x128, .f32⟩
  | 44 => ⟨S1x128, .f32⟩
  | 45 => ⟨S50000x128, .f32⟩
  | 46 => ⟨S50000x128, .f32⟩
  | 47 => ⟨S128x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S_, .f32⟩
  | 63 => ⟨S50000x128, .f32⟩
  | 64 => ⟨S600000x1, .i32⟩
  | 65 => ⟨S50000x128, .f32⟩
  | 66 => ⟨S_, .f32⟩
  | 67 => ⟨S600000x1, .f32⟩
  | 68 => ⟨S_, .f32⟩
  | 69 => ⟨S50000x1, .f32⟩
  | 70 => ⟨S600000x1, .i32⟩
  | 71 => ⟨S50000x1, .f32⟩
  | 72 => ⟨S_, .f32⟩
  | 73 => ⟨S50000x1, .f32⟩
  | 74 => ⟨S50000x1, .f32⟩
  | 75 => ⟨S50000x128, .f32⟩
  | 76 => ⟨S50000x128, .f32⟩
  | 77 => ⟨S128x128, .f32⟩
  | 78 => ⟨S50000x128, .f32⟩
  | 79 => ⟨S1x128, .f32⟩
  | 80 => ⟨S50000x128, .f32⟩
  | 81 => ⟨S50000x128, .f32⟩
  | 82 => ⟨S128x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S_, .f32⟩
  | 98 => ⟨S50000x128, .f32⟩
  | 99 => ⟨S600000x1, .i32⟩
  | 100 => ⟨S50000x128, .f32⟩
  | 101 => ⟨S_, .f32⟩
  | 102 => ⟨S600000x1, .f32⟩
  | 103 => ⟨S_, .f32⟩
  | 104 => ⟨S50000x1, .f32⟩
  | 105 => ⟨S600000x1, .i32⟩
  | 106 => ⟨S50000x1, .f32⟩
  | 107 => ⟨S_, .f32⟩
  | 108 => ⟨S50000x1, .f32⟩
  | 109 => ⟨S50000x1, .f32⟩
  | 110 => ⟨S50000x128, .f32⟩
  | 111 => ⟨S50000x128, .f32⟩
  | 112 => ⟨S128x128, .f32⟩
  | 113 => ⟨S50000x128, .f32⟩
  | 114 => ⟨S1x128, .f32⟩
  | 115 => ⟨S50000x128, .f32⟩
  | 116 => ⟨S50000x128, .f32⟩
  | 117 => ⟨S128x128, .f32⟩
  | 118 => ⟨S50000x128, .f32⟩
  | 119 => ⟨S50000x128, .f32⟩
  | 120 => ⟨S_, .f32⟩
  | 121 => ⟨S64x128, .f32⟩
  | 122 => ⟨S50000x1, .i32⟩
  | 123 => ⟨S64x128, .f32⟩
  | 124 => ⟨S_, .f32⟩
  | 125 => ⟨S50000x1, .f32⟩
  | 126 => ⟨S_, .f32⟩
  | 127 => ⟨S64x1, .f32⟩
  | _ => ⟨S50000x128, .f32⟩

abbrev hbmTy0_1 (i : Nat) : BufTy := match i % 128 with
  | 0 => ⟨S50000x1, .i32⟩
  | 1 => ⟨S64x1, .f32⟩
  | 2 => ⟨S_, .f32⟩
  | 3 => ⟨S64x1, .f32⟩
  | 4 => ⟨S64x1, .f32⟩
  | 5 => ⟨S64x128, .f32⟩
  | 6 => ⟨S64x128, .f32⟩
  | 7 => ⟨S128x4, .f32⟩
  | 8 => ⟨S64x4, .f32⟩
  | 9 => ⟨S1x4, .f32⟩
  | 10 => ⟨S64x4, .f32⟩
  | 11 => ⟨S64x4, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call0_cst : Ref sig .tc := ⟨.hbm, 50, rfl⟩
abbrev main_call0_v0 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call1_cst : Ref sig .tc := ⟨.hbm, 85, rfl⟩
abbrev main_call1_v0 : Ref sig .tc := ⟨.hbm, 86, rfl⟩
abbrev main_v57 : Ref sig .tc := ⟨.hbm, 87, rfl⟩
abbrev main_c_10 : Ref sig .tc := ⟨.hbm, 88, rfl⟩
abbrev main_v58 : Ref sig .tc := ⟨.hbm, 89, rfl⟩
abbrev main_v59 : Ref sig .tc := ⟨.hbm, 90, rfl⟩
abbrev main_c_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_16 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_cst_18 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  transposes_S4x128_S128x4_1_0 : S4x128.Transposes [1, 0] S128x4
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64x1_S50000x1_S50000x1_1_0_0_1_wf : ScatterDims.WF S64x1 S50000x1 S50000x1 [1] [0] [0] 1
  dot_S64x128_S128x4_S64x4_1_0_0_1_n_n_wf : DotDims.WF S64x128 S128x4 S64x4 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

class Facts : Prop extends Facts₀ where

variable [Facts]
-- ==== Proof.K.R0.lean ====
/- REGION 0 of @main (the first SAGE layer, pipeline 0) at a PARAMETER `V` — the TensorCore's buffer contents when the
   region is entered —: each window's block at a point (`iblk0`), what the body leaves in the output window's buffer
   (`out0_5`), the body's triple (`sound_kernel0`), the pipeline's proof data (`dat0`) and the body obligation at every
   point (`body_obligation0`). -/
import proofs.«428637_j38302518345827_1_alg».proof.Proof.Gen.Kernel.Launch
import proofs.«428637_j38302518345827_1_alg».proof.Proof.Gen.Kernel.Skeleton
import proofs.«428637_j38302518345827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! # REGION 0 of @main: custom_call 0, `cc0__sage_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data
    whose array is `V`'s (`hA`) and whose body leaves the block in place (`hafter`): unfetched, the block index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof data
    whose array is `V`'s (`hA`) and whose body leaves the block in place (`hafter`): unfetched, the block index has not
    moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof data
    whose array is `V`'s (`hA`) and whose body leaves the block in place (`hafter`): unfetched, the block index has not
    moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof data
    whose array is `V`'s (`hA`) and whose body leaves the block in place (`hafter`): unfetched, the block index has not
    moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof data
    whose array is `V`'s (`hA`) and whose body leaves the block in place (`hafter`): unfetched, the block index has not
    moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S2000x128 := Rect.unit (s := S2000x128) ![0, 0] S2000x128.size inb_S2000x128_S2000x128_0_0
abbrev r0_b : Rect S128x128 := Rect.unit (s := S128x128) ![0, 0] S128x128.size inb_S128x128_S128x128_0_0
abbrev r0_c : Rect S1x128 := Rect.unit (s := S1x128) ![0, 0] S1x128.size inb_S1x128_S1x128_0_0

/-! ## What the body leaves in the output window's buffer -/

/-- Window 5's staging buffer after the body, from the input windows' blocks: its one store as a piece, the payload
    the skeleton's (its arguments are the loads of windows 0, 1, 2, 4, 3 in that order). -/
def out0_5 (xa xb : Vec F S2000x128 .f32) (xc : Vec F S128x128 .f32) (xd : Vec F S1x128 .f32) (xe : Vec F S128x128 .f32) : Vec F S2000x128 .f32 :=
  View.canon [⟨r0_a, k0_pay1 (View.ld xa r0_a) (View.ld xb r0_a) (View.ld xc r0_b) (View.ld xe r0_b) (View.ld xd r0_c)⟩]

/-- Its store tiles the buffer, so it covers it. -/
theorem cover0_5 (pa : Vec F S2000x128 .f32) (y : S2000x128.Idx) :
    ∃ pc ∈ ([⟨r0_a, pa⟩] : List (View.Piece (Elt F) S2000x128 .f32)), y ∈ pc.1.set :=
  View.cover_of_tiled [⟨r0_a, pa⟩] S2000x128.size (by rfl) y

/-! ## The body's triple -/

set_option maxHeartbeats 4000000 in
/-- The kernel body on whole staging memrefs, the inputs' at read contents and the output's at anything, runs to the
    continuation holding the inputs' as they were and the output's at `out0_5` of the inputs'. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S2000x128 .f32) (harg6 : arg6.IsWhole)
    (xa xb : Vec F S2000x128 .f32) (xc : Vec F S128x128 .f32) (xd : Vec F S1x128 .f32) (xe : Vec F S128x128 .f32) (K : PUnit → sProp 𝕄) :
    iprop(owns (c : Thread nD τ) arg1 fullShare xa ∗ owns (c : Thread nD τ) arg2 fullShare xb ∗ owns (c : Thread nD τ) arg3 fullShare xc
        ∗ owns (c : Thread nD τ) arg4 fullShare xd ∗ owns (c : Thread nD τ) arg5 fullShare xe ∗ (∃ d, owns (c : Thread nD τ) arg6 fullShare d)
        ∗ (iprop(owns (c : Thread nD τ) arg1 fullShare xa ∗ owns (c : Thread nD τ) arg2 fullShare xb ∗ owns (c : Thread nD τ) arg3 fullShare xc
            ∗ owns (c : Thread nD τ) arg4 fullShare xd ∗ owns (c : Thread nD τ) arg5 fullShare xe
            ∗ owns (c : Thread nD τ) arg6 fullShare (out0_5 xa xb xc xd xe)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dd, %ff, -, Hf⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover0_5 _)

/-! ## The pipeline's proof data -/

/-- The proof data of pipeline 0 on core `c`: the arrays as the region finds them (`V`); after the body at point `t`
    each input's buffer at its block and the output's at `out0_5` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' memrefs hold their blocks (`before0_W`), so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%da, Ha⟩, ⟨%db, Hb⟩, ⟨%dc, Hc⟩, ⟨%dd, Hd⟩, ⟨%de, He⟩, ⟨%df, Hf⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.K.R1.lean ====
/- REGION 1 of @main (the second SAGE layer, pipeline 1) at a PARAMETER `V` — the TensorCore's buffer contents when the
   region is entered —: each window's block at a point (`iblk1`), what the body leaves in the output window's buffer
   (`out1_5`), the body's triple (`sound_kernel1`), the pipeline's proof data (`dat1`) and the body obligation at every
   point (`body_obligation1`). -/
import proofs.«428637_j38302518345827_1_alg».proof.Proof.Gen.Kernel.Launch
import proofs.«428637_j38302518345827_1_alg».proof.Proof.Gen.Kernel.Skeleton
import proofs.«428637_j38302518345827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! # REGION 1 of @main: custom_call 1, `cc1__sage_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data
    whose array is `V`'s (`hA`) and whose body leaves the block in place (`hafter`): unfetched, the block index has not
    moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof data
    whose array is `V`'s (`hA`) and whose body leaves the block in place (`hafter`): unfetched, the block index has not
    moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof data
    whose array is `V`'s (`hA`) and whose body leaves the block in place (`hafter`): unfetched, the block index has not
    moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof data
    whose array is `V`'s (`hA`) and whose body leaves the block in place (`hafter`): unfetched, the block index has not
    moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof data
    whose array is `V`'s (`hA`) and whose body leaves the block in place (`hafter`): unfetched, the block index has not
    moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_a : Rect S2000x128 := Rect.unit (s := S2000x128) ![0, 0] S2000x128.size inb_S2000x128_S2000x128_0_0
abbrev r1_b : Rect S128x128 := Rect.unit (s := S128x128) ![0, 0] S128x128.size inb_S128x128_S128x128_0_0
abbrev r1_c : Rect S1x128 := Rect.unit (s := S1x128) ![0, 0] S1x128.size inb_S1x128_S1x128_0_0

/-! ## What the body leaves in the output window's buffer -/

/-- Window 5's staging buffer after the body, from the input windows' blocks: its one store as a piece, the payload
    the skeleton's (its arguments are the loads of windows 0, 1, 2, 4, 3 in that order). -/
def out1_5 (xa xb : Vec F S2000x128 .f32) (xc : Vec F S128x128 .f32) (xd : Vec F S1x128 .f32) (xe : Vec F S128x128 .f32) : Vec F S2000x128 .f32 :=
  View.canon [⟨r1_a, k1_pay1 (View.ld xa r1_a) (View.ld xb r1_a) (View.ld xc r1_b) (View.ld xe r1_b) (View.ld xd r1_c)⟩]

/-- Its store tiles the buffer, so it covers it. -/
theorem cover1_5 (pa : Vec F S2000x128 .f32) (y : S2000x128.Idx) :
    ∃ pc ∈ ([⟨r1_a, pa⟩] : List (View.Piece (Elt F) S2000x128 .f32)), y ∈ pc.1.set :=
  View.cover_of_tiled [⟨r1_a, pa⟩] S2000x128.size (by rfl) y

/-! ## The body's triple -/

set_option maxHeartbeats 4000000 in
/-- The kernel body on whole staging memrefs, the inputs' at read contents and the output's at anything, runs to the
    continuation holding the inputs' as they were and the output's at `out1_5` of the inputs'. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S2000x128 .f32) (harg6 : arg6.IsWhole)
    (xa xb : Vec F S2000x128 .f32) (xc : Vec F S128x128 .f32) (xd : Vec F S1x128 .f32) (xe : Vec F S128x128 .f32) (K : PUnit → sProp 𝕄) :
    iprop(owns (c : Thread nD τ) arg1 fullShare xa ∗ owns (c : Thread nD τ) arg2 fullShare xb ∗ owns (c : Thread nD τ) arg3 fullShare xc
        ∗ owns (c : Thread nD τ) arg4 fullShare xd ∗ owns (c : Thread nD τ) arg5 fullShare xe ∗ (∃ d, owns (c : Thread nD τ) arg6 fullShare d)
        ∗ (iprop(owns (c : Thread nD τ) arg1 fullShare xa ∗ owns (c : Thread nD τ) arg2 fullShare xb ∗ owns (c : Thread nD τ) arg3 fullShare xc
            ∗ owns (c : Thread nD τ) arg4 fullShare xd ∗ owns (c : Thread nD τ) arg5 fullShare xe
            ∗ owns (c : Thread nD τ) arg6 fullShare (out1_5 xa xb xc xd xe)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dd, %ff, -, Hf⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover1_5 _)

/-! ## The pipeline's proof data -/

/-- The proof data of pipeline 1 on core `c`: the arrays as the region finds them (`V`); after the body at point `t`
    each input's buffer at its block and the output's at `out1_5` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%da, Ha⟩, ⟨%db, Hb⟩, ⟨%dc, Hc⟩, ⟨%dd, Hd⟩, ⟨%de, He⟩, ⟨%df, Hf⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.K.R2.lean ====
/- REGION 2 of @main (the third SAGE layer (no rectifier), pipeline 2) at a PARAMETER `V` — the TensorCore's buffer contents when the
   region is entered —: each window's block at a point (`iblk2`), what the body leaves in the output window's buffer
   (`out2_5`), the body's triple (`sound_kernel2`), the pipeline's proof data (`dat2`) and the body obligation at every
   point (`body_obligation2`). -/
import proofs.«428637_j38302518345827_1_alg».proof.Proof.Gen.Kernel.Launch
import proofs.«428637_j38302518345827_1_alg».proof.Proof.Gen.Kernel.Skeleton
import proofs.«428637_j38302518345827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered: the parameter the region's half is stated at
variable (V : (c : Dev nD) → (b : Ref sig .tc) → Buf (Elt F) ((c : Thread nD τ).loc b))

/-! # REGION 2 of @main: custom_call 2, `cc2__sage_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof data
    whose array is `V`'s (`hA`) and whose body leaves the block in place (`hafter`): unfetched, the block index has not
    moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof data
    whose array is `V`'s (`hA`) and whose body leaves the block in place (`hafter`): unfetched, the block index has not
    moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof data
    whose array is `V`'s (`hA`) and whose body leaves the block in place (`hafter`): unfetched, the block index has not
    moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof data
    whose array is `V`'s (`hA`) and whose body leaves the block in place (`hafter`): unfetched, the block index has not
    moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof data
    whose array is `V`'s (`hA`) and whose body leaves the block in place (`hafter`): unfetched, the block index has not
    moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S2000x128 := Rect.unit (s := S2000x128) ![0, 0] S2000x128.size inb_S2000x128_S2000x128_0_0
abbrev r2_b : Rect S128x128 := Rect.unit (s := S128x128) ![0, 0] S128x128.size inb_S128x128_S128x128_0_0
abbrev r2_c : Rect S1x128 := Rect.unit (s := S1x128) ![0, 0] S1x128.size inb_S1x128_S1x128_0_0

/-! ## What the body leaves in the output window's buffer -/

/-- Window 5's staging buffer after the body, from the input windows' blocks: its one store as a piece, the payload
    the skeleton's (its arguments are the loads of windows 0, 1, 2, 4, 3 in that order). -/
def out2_5 (xa xb : Vec F S2000x128 .f32) (xc : Vec F S128x128 .f32) (xd : Vec F S1x128 .f32) (xe : Vec F S128x128 .f32) : Vec F S2000x128 .f32 :=
  View.canon [⟨r2_a, k2_pay1 (View.ld xa r2_a) (View.ld xb r2_a) (View.ld xc r2_b) (View.ld xe r2_b) (View.ld xd r2_c)⟩]

/-- Its store tiles the buffer, so it covers it. -/
theorem cover2_5 (pa : Vec F S2000x128 .f32) (y : S2000x128.Idx) :
    ∃ pc ∈ ([⟨r2_a, pa⟩] : List (View.Piece (Elt F) S2000x128 .f32)), y ∈ pc.1.set :=
  View.cover_of_tiled [⟨r2_a, pa⟩] S2000x128.size (by rfl) y

/-! ## The body's triple -/

set_option maxHeartbeats 4000000 in
/-- The kernel body on whole staging memrefs, the inputs' at read contents and the output's at anything, runs to the
    continuation holding the inputs' as they were and the output's at `out2_5` of the inputs'. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S2000x128 .f32) (harg6 : arg6.IsWhole)
    (xa xb : Vec F S2000x128 .f32) (xc : Vec F S128x128 .f32) (xd : Vec F S1x128 .f32) (xe : Vec F S128x128 .f32) (K : PUnit → sProp 𝕄) :
    iprop(owns (c : Thread nD τ) arg1 fullShare xa ∗ owns (c : Thread nD τ) arg2 fullShare xb ∗ owns (c : Thread nD τ) arg3 fullShare xc
        ∗ owns (c : Thread nD τ) arg4 fullShare xd ∗ owns (c : Thread nD τ) arg5 fullShare xe ∗ (∃ d, owns (c : Thread nD τ) arg6 fullShare d)
        ∗ (iprop(owns (c : Thread nD τ) arg1 fullShare xa ∗ owns (c : Thread nD τ) arg2 fullShare xb ∗ owns (c : Thread nD τ) arg3 fullShare xc
            ∗ owns (c : Thread nD τ) arg4 fullShare xd ∗ owns (c : Thread nD τ) arg5 fullShare xe
            ∗ owns (c : Thread nD τ) arg6 fullShare (out2_5 xa xb xc xd xe)) -∗ K ⟨⟩))
      ⊢ wp frame (wpE (defs₀ (F := F)) Variants.none c none) E (cc2__sage_kernel i arg1 harg1 arg2 harg2 arg3 harg3 arg4 harg4 arg5 harg5 arg6 harg6) K := by
  simp only [cc2__sage_kernel_eq_skeleton]; unfold cc2__sage_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dd, %ff, -, Hf⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover2_5 _)

/-! ## The pipeline's proof data -/

/-- The proof data of pipeline 2 on core `c`: the arrays as the region finds them (`V`); after the body at point `t`
    each input's buffer at its block and the output's at `out2_5` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1000000 in
/-- The body at any point: the inputs' memrefs hold their blocks (`before2_W`), so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%da, Ha⟩, ⟨%db, Hb⟩, ⟨%dc, Hc⟩, ⟨%dd, Hd⟩, ⟨%de, He⟩, ⟨%df, Hf⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Gen

end
-- ==== Proof.K.R3Runs.lean ====
/- REGION 3 of @main (the mean-pool kernel): what its body does at a grid point, in the three cases its two
   conditionals on the grid coordinate make — the first point (the carried sums and counts are zero-filled, then
   accumulated), a point in between (accumulated), the last point (accumulated, then the pooled means projected into
   the output block) — each as a triple with the contents every buffer ends at written out over the kernel's
   payloads; and the facts the three are stated over: the conditions in closed form over the grid, where the windows
   are idle, the scratch memrefs, and the region invariant with the two scratch buffers opened. -/
import proofs.«428637_j38302518345827_1_alg».proof.Proof.Gen.Kernel.Launch
import proofs.«428637_j38302518345827_1_alg».proof.Proof.Gen.Kernel.Skeleton
import proofs.«428637_j38302518345827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents: the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the scratch is zero-filled under it), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 25 = 0 :=
  (by decide +kernel : ∀ t : Fin grid3.N, cond3_0 (grid3.coords t) ↔ t.val % 25 = 0)

/-- The condition of the body's second `scf.if` (the output is stored under it), from the grid coordinates. -/
abbrev cond3_1 (i : grid3.Coords) : Prop := k3_cond2 i = 1#1
/-- It holds at the last point only. -/
theorem hcond3_1 : ∀ t : Fin cfg3.N, cond3_1 (grid3.coords t) ↔ t.val % 25 = 24 :=
  (by decide +kernel : ∀ t : Fin grid3.N, cond3_1 (grid3.coords t) ↔ t.val % 25 = 24)

/-! ## Where the windows are idle -/

/-- The four input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- At the first point the output window is idle (nothing is stored into it) and is not written back. -/
theorem idleAt3_4_A : ∀ t : Fin cfg3.N, cond3_0 (grid3.coords t) → ¬cond3_1 (grid3.coords t) → cfg3.idle 4 (grid3.coords t) = true := by decide +kernel
theorem noFlush3_4_A : ∀ t : Fin cfg3.N, cond3_0 (grid3.coords t) → ¬cond3_1 (grid3.coords t) → (cfg3.win 4).flush t = false := by decide +kernel
/-- The same at the points between the first and the last. -/
theorem idleAt3_4_B : ∀ t : Fin cfg3.N, ¬cond3_0 (grid3.coords t) → ¬cond3_1 (grid3.coords t) → cfg3.idle 4 (grid3.coords t) = true := by decide +kernel
theorem noFlush3_4_B : ∀ t : Fin cfg3.N, ¬cond3_0 (grid3.coords t) → ¬cond3_1 (grid3.coords t) → (cfg3.win 4).flush t = false := by decide +kernel
/-- At the last point the output window is live: the body stores into it. -/
theorem liveAt3_4_C : ∀ t : Fin cfg3.N, ¬cond3_0 (grid3.coords t) → cond3_1 (grid3.coords t) → cfg3.idle 4 (grid3.coords t) = false := by decide +kernel

/-! ## The staging and scratch memrefs -/

/-- The scratch operands: whole scoped buffers of the kernel's own, passed beside the windows. -/
abbrev scM3_0 : Memref sig .tc .vmem S64x128 .f32 := Memref.whole cc3_scratch0
abbrev scM3_1 : Memref sig .tc .vmem S64x1 .f32 := Memref.whole cc3_scratch1

/-- The class's invariant with the two scratch operands as memrefs owned at some contents, the other scoped buffers
    riding along unopened: what the body obligation hands the run at the first point and gives back at the end. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM3_0, scM3_1, owns_whole]; try rfl

/-- The zero offsets of a rank-2 access, as the library's whole-buffer lemmas spell them. -/
theorem hz2 : (![0, 0] : Fin 2 → Nat) = fun _ => 0 := funext fun a => by fin_cases a <;> rfl

/-- A buffer whose LAST store went through the whole-shape rectangle at zero offsets reads that store's payload,
    whatever it held and whatever the earlier stores were: the one piece covers every index. -/
theorem read_writes_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

set_option maxHeartbeats 4000000 in
/-- The body at the FIRST point (the first conditional taken, the second not): on whole memrefs, the inputs' at
    their contents, the output's at `xi` (handed back untouched: nothing is stored into it here) and the two scratch
    buffers at anything, it runs to the continuation holding the inputs' and the output's as they were, the sums at
    the first block's accumulation over the zero fill, and the counts likewise. -/
theorem kernelRun3_A (c : Dev nD) (i : grid3.Coords) (arg1 : Memref sig .tc .vmem S2000x128 .f32) (harg1 : arg1.IsWhole) (arg2 : Memref sig .tc .vmem S2000x1 .i32) (harg2 : arg2.IsWhole) (arg3 : Memref sig .tc .vmem S4x128 .f32) (harg3 : arg3.IsWhole) (arg4 : Memref sig .tc .vmem S1x4 .f32) (harg4 : arg4.IsWhole) (arg5 : Memref sig .tc .vmem S64x4 .f32) (harg5 : arg5.IsWhole) (arg6 : Memref sig .tc .vmem S64x128 .f32) (harg6 : arg6.IsWhole) (arg7 : Memref sig .tc .vmem S64x1 .f32) (harg7 : arg7.IsWhole) (hc0 : cond3_0 i) (hc1 : ¬cond3_1 i)
    (x0 : Vec F S2000x128 .f32) (x1 : Vec F S2000x1 .i32) (x2 : Vec F S4x128 .f32) (x3 : Vec F S1x4 .f32) (xi : Vec F S64x4 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi
            ∗ owns (c : Thread nD τ) arg6 fullShare (k3_pay4 x0 x1 (k3_pay1 (F := F)))
            ∗ owns (c : Thread nD τ) arg7 fullShare (k3_pay5 x1 (k3_pay2 (F := F)))) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    rw [read_writes_unit_zero _ _ hz2]
    sl_unfold_words
    rw [View.readCov_unit_zero (S := S64x128) _ hz2]
    simp only [View.readAt_eq_ld, harg1.read_unread, harg2.read_unread, View.ld_unit_zero (S := S2000x128) hz2, View.ld_unit_zero (S := S2000x1) hz2]
  iexists _; isplitr
  swap; · iexact HS1
  ipureintro
  rw [read_writes_unit_zero _ _ hz2]
  sl_unfold_words
  rw [View.readCov_unit_zero (S := S64x1) _ hz2]
  simp only [View.readAt_eq_ld, harg2.read_unread, View.ld_unit_zero (S := S2000x1) hz2]

set_option maxHeartbeats 4000000 in
/-- The body at a point BETWEEN the first and the last (neither conditional taken): the sums held at `s` and the
    counts at `n` are left at this block's accumulation over them; the output's buffer is handed back untouched. -/
theorem kernelRun3_B (c : Dev nD) (i : grid3.Coords) (arg1 : Memref sig .tc .vmem S2000x128 .f32) (harg1 : arg1.IsWhole) (arg2 : Memref sig .tc .vmem S2000x1 .i32) (harg2 : arg2.IsWhole) (arg3 : Memref sig .tc .vmem S4x128 .f32) (harg3 : arg3.IsWhole) (arg4 : Memref sig .tc .vmem S1x4 .f32) (harg4 : arg4.IsWhole) (arg5 : Memref sig .tc .vmem S64x4 .f32) (harg5 : arg5.IsWhole) (arg6 : Memref sig .tc .vmem S64x128 .f32) (harg6 : arg6.IsWhole) (arg7 : Memref sig .tc .vmem S64x1 .f32) (harg7 : arg7.IsWhole) (hc0 : ¬cond3_0 i) (hc1 : ¬cond3_1 i)
    (x0 : Vec F S2000x128 .f32) (x1 : Vec F S2000x1 .i32) (x2 : Vec F S4x128 .f32) (x3 : Vec F S1x4 .f32) (xi : Vec F S64x4 .f32)
    (s : Vec F S64x128 .f32) (n : Vec F S64x1 .f32)
    (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi
        ∗ owns (c : Thread nD τ) arg6 fullShare s ∗ owns (c : Thread nD τ) arg7 fullShare n
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi
            ∗ owns (c : Thread nD τ) arg6 fullShare (k3_pay4 x0 x1 s)
            ∗ owns (c : Thread nD τ) arg7 fullShare (k3_pay5 x1 n)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    rw [read_writes_unit_zero _ _ hz2]
    simp only [View.readAt_eq_ld, harg1.read_unread, harg2.read_unread, harg6.read_unread, View.ld_unit_zero (S := S2000x128) hz2, View.ld_unit_zero (S := S2000x1) hz2, View.ld_unit_zero (S := S64x128) hz2]
  iexists _; isplitr
  swap; · iexact HS1
  ipureintro
  rw [read_writes_unit_zero _ _ hz2]
  simp only [View.readAt_eq_ld, harg2.read_unread, harg7.read_unread, View.ld_unit_zero (S := S2000x1) hz2, View.ld_unit_zero (S := S64x1) hz2]

set_option maxHeartbeats 4000000 in
/-- The body at the LAST point (the second conditional taken): the sums and the counts are left at this block's
    accumulation over what they held, and the output's buffer, whatever it held, at the pooled and projected block
    computed from those final sums and counts and the head's weights and bias. -/
theorem kernelRun3_C (c : Dev nD) (i : grid3.Coords) (arg1 : Memref sig .tc .vmem S2000x128 .f32) (harg1 : arg1.IsWhole) (arg2 : Memref sig .tc .vmem S2000x1 .i32) (harg2 : arg2.IsWhole) (arg3 : Memref sig .tc .vmem S4x128 .f32) (harg3 : arg3.IsWhole) (arg4 : Memref sig .tc .vmem S1x4 .f32) (harg4 : arg4.IsWhole) (arg5 : Memref sig .tc .vmem S64x4 .f32) (harg5 : arg5.IsWhole) (arg6 : Memref sig .tc .vmem S64x128 .f32) (harg6 : arg6.IsWhole) (arg7 : Memref sig .tc .vmem S64x1 .f32) (harg7 : arg7.IsWhole) (hc0 : ¬cond3_0 i) (hc1 : cond3_1 i)
    (x0 : Vec F S2000x128 .f32) (x1 : Vec F S2000x1 .i32) (x2 : Vec F S4x128 .f32) (x3 : Vec F S1x4 .f32)
    (s : Vec F S64x128 .f32) (n : Vec F S64x1 .f32)
    (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)
        ∗ owns (c : Thread nD τ) arg6 fullShare s ∗ owns (c : Thread nD τ) arg7 fullShare n
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k3_pay6 (k3_pay4 x0 x1 s) (k3_pay5 x1 n) x2 x3)
            ∗ owns (c : Thread nD τ) arg6 fullShare (k3_pay4 x0 x1 s)
            ∗ owns (c : Thread nD τ) arg7 fullShare (k3_pay5 x1 n)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    rw [read_writes_unit_zero _ _ hz2]
    sl_unfold_words
    rw [View.readCov_unit_zero (S := S64x128) _ hz2, View.readCov_unit_zero (S := S64x1) _ hz2]
    simp only [View.readAt_eq_ld, harg1.read_unread, harg2.read_unread, harg3.read_unread, harg4.read_unread, harg6.read_unread, harg7.read_unread, View.ld_unit_zero (S := S2000x128) hz2, View.ld_unit_zero (S := S2000x1) hz2, View.ld_unit_zero (S := S64x128) hz2, View.ld_unit_zero (S := S64x1) hz2, View.ld_unit_zero (S := S4x128) hz2, View.ld_unit_zero (S := S1x4) hz2]
  isplitl [HS0]
  · iexists _; isplitr
    swap; · iexact HS0
    ipureintro
    sl_unfold_words
    rw [read_writes_unit_zero _ _ hz2]
    simp only [View.readAt_eq_ld, harg1.read_unread, harg2.read_unread, harg6.read_unread, View.ld_unit_zero (S := S2000x128) hz2, View.ld_unit_zero (S := S2000x1) hz2, View.ld_unit_zero (S := S64x128) hz2]
  iexists _; isplitr
  swap; · iexact HS1
  ipureintro
  sl_unfold_words
  rw [read_writes_unit_zero _ _ hz2]
  simp only [View.readAt_eq_ld, harg2.read_unread, harg7.read_unread, View.ld_unit_zero (S := S2000x1) hz2, View.ld_unit_zero (S := S64x1) hz2]

end Cert.Kernel.Gen

end
-- ==== Proof.K.R3.lean ====
/- REGION 3 of @main (the mean-pool kernel, pipeline 3), at the entry contents `V`: the windows' blocks, the
   scratch the kernel carries from grid point to grid point in closed form (the per-graph feature sums and node
   counts after each point), the pooled-and-projected output, the pipeline's proof data, and the body obligation. -/
import proofs.«428637_j38302518345827_1_alg».proof.Proof.K.R3Runs

-- membership in a rectangle of production extents: the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved), for any proof data whose array is `V`'s and whose body leaves the block in place:
    the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The carried scratch, point by point -/

/-- The per-graph feature sums the kernel carries (scratch 0) after point `n`: zero-filled at the first point,
    then each point's node block accumulated through its one-hot graph assignment. -/
def sumAt3 (c : Dev nD) : (n : ℕ) → n < cfg3.N → Vec F S64x128 .f32
  | 0, h => k3_pay4 (iblk3 V c 0 ⟨0, h⟩) (iblk3 V c 1 ⟨0, h⟩) (k3_pay1 (F := F))
  | n + 1, h => k3_pay4 (iblk3 V c 0 ⟨n + 1, h⟩) (iblk3 V c 1 ⟨n + 1, h⟩) (sumAt3 c n (Nat.lt_of_succ_lt h))

/-- The per-graph node counts the kernel carries (scratch 1) after point `n`. -/
def cntAt3 (c : Dev nD) : (n : ℕ) → n < cfg3.N → Vec F S64x1 .f32
  | 0, h => k3_pay5 (iblk3 V c 1 ⟨0, h⟩) (k3_pay2 (F := F))
  | n + 1, h => k3_pay5 (iblk3 V c 1 ⟨n + 1, h⟩) (cntAt3 c n (Nat.lt_of_succ_lt h))

theorem sumAt3_zero (c : Dev nD) (h : 0 < cfg3.N) :
    sumAt3 V c 0 h = k3_pay4 (iblk3 V c 0 ⟨0, h⟩) (iblk3 V c 1 ⟨0, h⟩) (k3_pay1 (F := F)) := rfl
theorem sumAt3_succ (c : Dev nD) (n : ℕ) (h : n + 1 < cfg3.N) :
    sumAt3 V c (n + 1) h = k3_pay4 (iblk3 V c 0 ⟨n + 1, h⟩) (iblk3 V c 1 ⟨n + 1, h⟩) (sumAt3 V c n (Nat.lt_of_succ_lt h)) := rfl
theorem cntAt3_zero (c : Dev nD) (h : 0 < cfg3.N) :
    cntAt3 V c 0 h = k3_pay5 (iblk3 V c 1 ⟨0, h⟩) (k3_pay2 (F := F)) := rfl
theorem cntAt3_succ (c : Dev nD) (n : ℕ) (h : n + 1 < cfg3.N) :
    cntAt3 V c (n + 1) h = k3_pay5 (iblk3 V c 1 ⟨n + 1, h⟩) (cntAt3 V c n (Nat.lt_of_succ_lt h)) := rfl

/-- The sums after the first point, at the point itself. -/
theorem sumAt3_first (c : Dev nD) (t : Fin cfg3.N) (hz : t.val = 0) :
    sumAt3 V c t.val t.isLt = k3_pay4 (iblk3 V c 0 t) (iblk3 V c 1 t) (k3_pay1 (F := F)) := by
  obtain ⟨n, hn⟩ := t
  cases n with
  | zero => rfl
  | succ n => exact absurd hz (Nat.succ_ne_zero n)
/-- The sums after a later point: this point's block accumulated over what the point before left. -/
theorem sumAt3_pos (c : Dev nD) (t : Fin cfg3.N) (hz : t.val ≠ 0) :
    sumAt3 V c t.val t.isLt = k3_pay4 (iblk3 V c 0 t) (iblk3 V c 1 t) (sumAt3 V c (t.val - 1) (Nat.lt_of_le_of_lt (Nat.sub_le _ _) t.isLt)) := by
  obtain ⟨n, hn⟩ := t
  cases n with
  | zero => exact absurd rfl hz
  | succ n => rfl
/-- The counts likewise. -/
theorem cntAt3_first (c : Dev nD) (t : Fin cfg3.N) (hz : t.val = 0) :
    cntAt3 V c t.val t.isLt = k3_pay5 (iblk3 V c 1 t) (k3_pay2 (F := F)) := by
  obtain ⟨n, hn⟩ := t
  cases n with
  | zero => rfl
  | succ n => exact absurd hz (Nat.succ_ne_zero n)
theorem cntAt3_pos (c : Dev nD) (t : Fin cfg3.N) (hz : t.val ≠ 0) :
    cntAt3 V c t.val t.isLt = k3_pay5 (iblk3 V c 1 t) (cntAt3 V c (t.val - 1) (Nat.lt_of_le_of_lt (Nat.sub_le _ _) t.isLt)) := by
  obtain ⟨n, hn⟩ := t
  cases n with
  | zero => exact absurd rfl hz
  | succ n => rfl

/-- What the body stores into the output window at point `n` (it does so at the last point only): the sums
    divided by the clamped counts, projected by the head's weights and shifted by its bias. -/
def outAt3 (c : Dev nD) (n : ℕ) (h : n < cfg3.N) : Vec F S64x4 .f32 :=
  k3_pay6 (sumAt3 V c n h) (cntAt3 V c n h) (iblk3 V c 2 ⟨n, h⟩) (iblk3 V c 3 ⟨n, h⟩)

/-! ## The invariant -/

/-- The region invariant before position `n`: before the first point every scoped buffer that is no staging buffer
    at anything; afterwards the two carried scratch buffers at what the point before left in them, the other scoped
    buffers unopened, and the generator register at some state. -/
def PhiS3 (c : Dev nD) : (n : ℕ) → n ≤ cfg3.N → sProp 𝕄
  | 0, _ => Pipeline.ΦA spec3 c
  | n + 1, hn => iprop(iprop(owns (c : Thread nD τ) scM3_0 fullShare (sumAt3 V c n hn) ∗ owns (c : Thread nD τ) scM3_1 fullShare (cntAt3 V c n hn))
      ∗ Pipeline.scopedRestBut (Ix := Unit) (Name := ℕ) (U := UR sig nD τ) (Lvl := ℕ) (Val := Elt F) spec3 c [cc3_scratch0, cc3_scratch1]
      ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop(owns (c : Thread nD τ) scM3_0 fullShare (sumAt3 V c n hn) ∗ owns (c : Thread nD τ) scM3_1 fullShare (cntAt3 V c n hn))
      ∗ Pipeline.scopedRestBut (Ix := Unit) (Name := ℕ) (U := UR sig nD τ) (Lvl := ℕ) (Val := Elt F) spec3 c [cc3_scratch0, cc3_scratch1]
      ∗ (∃ r, prngReg c r)) := rfl

/-- Before a point that is not the first: the carried scratch at what the point before left. -/
theorem PhiS3_pos (c : Dev nD) (n : ℕ) (h : n ≤ cfg3.N) (hz : n ≠ 0) :
    PhiS3 V c n h = iprop(iprop(owns (c : Thread nD τ) scM3_0 fullShare (sumAt3 V c (n - 1) (by omega)) ∗ owns (c : Thread nD τ) scM3_1 fullShare (cntAt3 V c (n - 1) (by omega)))
      ∗ Pipeline.scopedRestBut (Ix := Unit) (Name := ℕ) (U := UR sig nD τ) (Lvl := ℕ) (Val := Elt F) spec3 c [cc3_scratch0, cc3_scratch1]
      ∗ (∃ r, prngReg c r)) := by
  cases n with
  | zero => exact absurd rfl hz
  | succ n => rfl

/-! ## The pipeline's proof data -/

/-- The proof data of pipeline 3 on core `c`: the arrays as the region finds them; after the body at point `t`
    each input's buffer at its block and the output's at `outAt3` (consulted at the last point only: elsewhere the
    window is idle and not written back); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outAt3 V c t.val t.isLt
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = outAt3 V c t.val t.isLt := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the closed forms say which of the three cases the
    point is in, so that case's run applies; the invariant hands the body the carried scratch at what the point
    before left (at anything at the first point) and takes it back at this point's contents, the other scoped
    buffers and the generator register riding along; the core owes nothing throughout. Where the output window is
    idle its buffer goes through the run untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (st3_0 t) fullShare ((dat3 V c).after 0 t) from by
        unfold Dat.leavesExact; rw [liveAt3_0 t], after3_0]
  rw [show (dat3 V c).leavesExact 1 t = owns (c : Thread nD τ) (st3_1 t) fullShare ((dat3 V c).after 1 t) from by
        unfold Dat.leavesExact; rw [liveAt3_1 t], after3_1]
  rw [show (dat3 V c).leavesExact 2 t = owns (c : Thread nD τ) (st3_2 t) fullShare ((dat3 V c).after 2 t) from by
        unfold Dat.leavesExact; rw [liveAt3_2 t], after3_2]
  rw [show (dat3 V c).leavesExact 3 t = owns (c : Thread nD τ) (st3_3 t) fullShare ((dat3 V c).after 3 t) from by
        unfold Dat.leavesExact; rw [liveAt3_3 t], after3_3]
  by_cases h0 : t.val % 25 = 0
  · by_cases h1 : t.val % 25 = 24
    · exfalso; omega
    · have hz : t.val = 0 := by omega
      rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
      rw [sumAt3_first V c t hz, cntAt3_first V c t hz]
      rw [PhiS3_castSucc V c t, PhiS3_zero V c _ _ hz, PhiA3_eq]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t) ((dat3 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 25 = 24
    · rw [show (dat3 V c).leavesExact 4 t = owns (c : Thread nD τ) (st3_4 t) fullShare ((dat3 V c).after 4 t) from by
        unfold Dat.leavesExact; rw [liveAt3_4_C t (fun h => h0 ((hcond3_0 t).mp h)) ((hcond3_1 t).mpr h1)], after3_4]
      unfold outAt3
      rw [sumAt3_pos V c t hz, cntAt3_pos V c t hz]
      rw [PhiS3_castSucc V c t, PhiS3_pos V c _ _ hz]
      iintro ⟨⟨⟨HS0, HS1⟩, Hrest, Hg⟩, Ho, ⟨%d0, H0⟩, ⟨%d1, H1⟩, ⟨%d2, H2⟩, ⟨%d3, H3⟩, ⟨%d4, H4⟩⟩
      iapply (kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
      rw [sumAt3_pos V c t hz, cntAt3_pos V c t hz]
      rw [PhiS3_castSucc V c t, PhiS3_pos V c _ _ hz]
      iintro ⟨⟨⟨HS0, HS1⟩, Hrest, Hg⟩, Ho, ⟨%d0, H0⟩, ⟨%d1, H1⟩, ⟨%d2, H2⟩, ⟨%d3, H3⟩, ⟨%d4, H4⟩⟩
      iapply (kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) ((dat3 V c).before 4 t d4) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HS1⟩, Hrest, Hg⟩
  isplitl [HS0 HS1 Hrest]
  · isplitl [HS0 HS1]
    · isplitl [HS0]
      · iexists _; iexact HS0
      iexists _; iexact HS1
    iexact Hrest
  iexact Hg

/-- The same after the last point. -/
theorem hout3 (c : Dev nD) : (dat3 V c).Φ (Fin.last cfg3.N) ⊢ Pipeline.ΦA spec3 c :=
  Phi_out3 V c _ (by rw [Fin.val_last]; have : cfg3.N = 25 := N_3; omega)

end Region3

end Cert.Kernel.Gen

end
-- ==== Proof.K.Chain.lean ====
/- THE BUFFER CONTENTS AT EVERY SEGMENT BOUNDARY of @main — four host stretches and four pipelined kernel regions,
   alternating —, as a fold from the launch memory (`W0` … `W8`): a host stretch leaves `StableHlo.after` of its
   operations; a region leaves its arrays at what its write-backs fold to (`Dat.arrAt … N`) and every other buffer as
   entered (`Pipeline.withArrays`). Read at the TensorCore's references these are the regions' entry and exit contents
   (`V1'` … `V8'`). A reference a stretch does not write keeps its contents across it (`WJ_of`); a reference that is
   none of a region's arrays keeps its contents across the region (`WJ_of_ne`); a region's output array ends at the
   fold of its window's write-backs (`WJ_out`). Each argument array, read back through the fold, holds its launch
   contents (`W8_main_argJ`): no host operation writes an argument, and a region either reads it through an input
   window or passes it by. -/
import proofs.«428637_j38302518345827_1_alg».proof.Proof.Gen.Kernel.Launch
import proofs.«428637_j38302518345827_1_alg».proof.Proof.Gen.Kernel.Skeleton
import proofs.«428637_j38302518345827_1_alg».proof.Proof.Gen.Kernel.Points
import proofs.«428637_j38302518345827_1_alg».proof.Proof.Gen.Kernel.Regions
import proofs.«428637_j38302518345827_1_alg».proof.Proof.K.R0
import proofs.«428637_j38302518345827_1_alg».proof.Proof.K.R1
import proofs.«428637_j38302518345827_1_alg».proof.Proof.K.R2
import proofs.«428637_j38302518345827_1_alg».proof.Proof.K.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1' : (c : Dev nD) → (b : Ref sig .tc) → Buf (Elt F) ((c : Thread nD τ).loc b) := fun c b => W1 m ρ c b
/-- A reference `hostOps0` does not write holds at region 0's entry what it held before the stretch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its arrays at what the pipeline leaves (the inputs as entered, the output's write-backs
    folded: `Dat.arrAt … N`), every other buffer as entered. -/
def W2 (c : Dev nD) : Valuation τ sig (Elt F) :=
  Pipeline.withArrays spec0 c (W1 m ρ c) fun w => (dat0 (V1' m ρ) c).arrAt w cfg0.N
theorem W2_arr (c : Dev nD) (w : Fin cfg0.W) :
    W2 m ρ c (Proc.devRef .tc (Pipeline.arrRef spec0 w)) = (dat0 (V1' m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2' : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1' m ρ) c).arrAt w cfg0.N = V2' m ρ c (Pipeline.arrRef spec0 w) :=
  (W2_arr m ρ c w).symm
theorem hrest0 (c : Dev nD) : ∀ b, b ∉ Finset.univ.image (Pipeline.arrRef spec0) → V2' m ρ c b = V1' m ρ c b :=
  fun b hb => W2_of_ne m ρ c b fun w e => hb (Finset.mem_image.mpr ⟨w, Finset.mem_univ _, e⟩)
/-- The output array of region 0 (`main_v25`) at its exit: the write-backs of window 5 folded over the grid. -/
theorem W2_out (c : Dev nD) : W2 m ρ c (Proc.devRef .tc main_v25) = (dat0 (V1' m ρ) c).arrAt 5 cfg0.N :=
  W2_arr m ρ c 5

/-- After `hostOps1` (region 1's entry). -/
abbrev W3 : Dev nD → Valuation τ sig (Elt F) := fun c => StableHlo.after hostOps1 (W2 m ρ c)
/-- The same read at the TensorCore's references (what region 1's proof data take). -/
abbrev V3' : (c : Dev nD) → (b : Ref sig .tc) → Buf (Elt F) ((c : Thread nD τ).loc b) := fun c b => W3 m ρ c b
/-- A reference `hostOps1` does not write holds at region 1's entry what it held before the stretch. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its arrays at what the pipeline leaves (the inputs as entered, the output's write-backs
    folded: `Dat.arrAt … N`), every other buffer as entered. -/
def W4 (c : Dev nD) : Valuation τ sig (Elt F) :=
  Pipeline.withArrays spec1 c (W3 m ρ c) fun w => (dat1 (V3' m ρ) c).arrAt w cfg1.N
theorem W4_arr (c : Dev nD) (w : Fin cfg1.W) :
    W4 m ρ c (Proc.devRef .tc (Pipeline.arrRef spec1 w)) = (dat1 (V3' m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4' : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3' m ρ) c).arrAt w cfg1.N = V4' m ρ c (Pipeline.arrRef spec1 w) :=
  (W4_arr m ρ c w).symm
theorem hrest1 (c : Dev nD) : ∀ b, b ∉ Finset.univ.image (Pipeline.arrRef spec1) → V4' m ρ c b = V3' m ρ c b :=
  fun b hb => W4_of_ne m ρ c b fun w e => hb (Finset.mem_image.mpr ⟨w, Finset.mem_univ _, e⟩)
/-- The output array of region 1 (`main_v39`) at its exit: the write-backs of window 5 folded over the grid. -/
theorem W4_out (c : Dev nD) : W4 m ρ c (Proc.devRef .tc main_v39) = (dat1 (V3' m ρ) c).arrAt 5 cfg1.N :=
  W4_arr m ρ c 5

/-- After `hostOps2` (region 2's entry). -/
abbrev W5 : Dev nD → Valuation τ sig (Elt F) := fun c => StableHlo.after hostOps2 (W4 m ρ c)
/-- The same read at the TensorCore's references (what region 2's proof data take). -/
abbrev V5' : (c : Dev nD) → (b : Ref sig .tc) → Buf (Elt F) ((c : Thread nD τ).loc b) := fun c b => W5 m ρ c b
/-- A reference `hostOps2` does not write holds at region 2's entry what it held before the stretch. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: its arrays at what the pipeline leaves (the inputs as entered, the output's write-backs
    folded: `Dat.arrAt … N`), every other buffer as entered. -/
def W6 (c : Dev nD) : Valuation τ sig (Elt F) :=
  Pipeline.withArrays spec2 c (W5 m ρ c) fun w => (dat2 (V5' m ρ) c).arrAt w cfg2.N
theorem W6_arr (c : Dev nD) (w : Fin cfg2.W) :
    W6 m ρ c (Proc.devRef .tc (Pipeline.arrRef spec2 w)) = (dat2 (V5' m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6' : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5' m ρ) c).arrAt w cfg2.N = V6' m ρ c (Pipeline.arrRef spec2 w) :=
  (W6_arr m ρ c w).symm
theorem hrest2 (c : Dev nD) : ∀ b, b ∉ Finset.univ.image (Pipeline.arrRef spec2) → V6' m ρ c b = V5' m ρ c b :=
  fun b hb => W6_of_ne m ρ c b fun w e => hb (Finset.mem_image.mpr ⟨w, Finset.mem_univ _, e⟩)
/-- The output array of region 2 (`main_v53`) at its exit: the write-backs of window 5 folded over the grid. -/
theorem W6_out (c : Dev nD) : W6 m ρ c (Proc.devRef .tc main_v53) = (dat2 (V5' m ρ) c).arrAt 5 cfg2.N :=
  W6_arr m ρ c 5

/-- After `hostOps3` (region 3's entry). -/
abbrev W7 : Dev nD → Valuation τ sig (Elt F) := fun c => StableHlo.after hostOps3 (W6 m ρ c)
/-- The same read at the TensorCore's references (what region 3's proof data take). -/
abbrev V7' : (c : Dev nD) → (b : Ref sig .tc) → Buf (Elt F) ((c : Thread nD τ).loc b) := fun c b => W7 m ρ c b
/-- A reference `hostOps3` does not write holds at region 3's entry what it held before the stretch. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: its arrays at what the pipeline leaves (the inputs as entered, the output's write-backs
    folded: `Dat.arrAt … N`), every other buffer as entered. -/
def W8 (c : Dev nD) : Valuation τ sig (Elt F) :=
  Pipeline.withArrays spec3 c (W7 m ρ c) fun w => (dat3 (V7' m ρ) c).arrAt w cfg3.N
theorem W8_arr (c : Dev nD) (w : Fin cfg3.W) :
    W8 m ρ c (Proc.devRef .tc (Pipeline.arrRef spec3 w)) = (dat3 (V7' m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8' : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7' m ρ) c).arrAt w cfg3.N = V8' m ρ c (Pipeline.arrRef spec3 w) :=
  (W8_arr m ρ c w).symm
theorem hrest3 (c : Dev nD) : ∀ b, b ∉ Finset.univ.image (Pipeline.arrRef spec3) → V8' m ρ c b = V7' m ρ c b :=
  fun b hb => W8_of_ne m ρ c b fun w e => hb (Finset.mem_image.mpr ⟨w, Finset.mem_univ _, e⟩)
/-- The output array of region 3 (`main_v56`) at its exit: the write-backs of window 4 folded over the grid. -/
theorem W8_out (c : Dev nD) : W8 m ρ c (Proc.devRef .tc main_v56) = (dat3 (V7' m ρ) c).arrAt 4 cfg3.N :=
  W8_arr m ρ c 4

/-! ## The arguments end as launched: no host operation and no region writes one (a region reads it through an input
    window or passes it by), so the fold at an argument's buffer walks back to the launch memory -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 1).trans (((dat0 (V1' m ρ) c).arrAt_in 1 rfl _).trans (A_eq0 (V1' m ρ) c 1))
    _ = W0 m ρ c (Proc.devRef .tc main_arg0) := W1_of m ρ c main_arg0 (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 2).trans (((dat0 (V1' m ρ) c).arrAt_in 2 rfl _).trans (A_eq0 (V1' m ρ) c 2))
    _ = W0 m ρ c (Proc.devRef .tc main_arg3) := W1_of m ρ c main_arg3 (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 4).trans (((dat0 (V1' m ρ) c).arrAt_in 4 rfl _).trans (A_eq0 (V1' m ρ) c 4))
    _ = W0 m ρ c (Proc.devRef .tc main_arg5) := W1_of m ρ c main_arg5 (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := (W4_arr m ρ c 2).trans (((dat1 (V3' m ρ) c).arrAt_in 2 rfl _).trans (A_eq1 (V3' m ρ) c 2))
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := (W4_arr m ρ c 4).trans (((dat1 (V3' m ρ) c).arrAt_in 4 rfl _).trans (A_eq1 (V3' m ρ) c 4))
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := (W6_arr m ρ c 2).trans (((dat2 (V5' m ρ) c).arrAt_in 2 rfl _).trans (A_eq2 (V5' m ρ) c 2))
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := W7_of m ρ c main_arg11 (by decide)
    _ = W5 m ρ c (Proc.devRef .tc main_arg11) := (W6_arr m ρ c 4).trans (((dat2 (V5' m ρ) c).arrAt_in 4 rfl _).trans (A_eq2 (V5' m ρ) c 4))
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := (W8_arr m ρ c 2).trans (((dat3 (V7' m ρ) c).arrAt_in 2 rfl _).trans (A_eq3 (V7' m ρ) c 2))
    _ = W6 m ρ c (Proc.devRef .tc main_arg12) := W7_of m ρ c main_arg12 (by decide)
    _ = W5 m ρ c (Proc.devRef .tc main_arg12) := W6_of_ne m ρ c main_arg12 (by decide)
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := W7_of m ρ c main_arg13 (by decide)
    _ = W5 m ρ c (Proc.devRef .tc main_arg13) := W6_of_ne m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl

end Cert.Kernel.Gen

end
-- ==== Proof.K.Run.lean ====
/- THE RUN of @main from the launch to the return. Every region is a segment over the thread state "every unscoped
   buffer at the boundary's contents (`W0` … `W8`, the fold of the module this one imports), the generator register
   at some state, nothing owed" (`reg0` … `reg3`); the last region, which carries two scratch buffers from grid point
   to grid point, enters and leaves its invariant through `hin3` / `hout3`. The launch theorem over the eight segments
   gives, at any `F`: every weakly fair execution terminates and every final memory holds each unscoped buffer at `W8`
   (`run_all`) — hence the frame claim (`frame`) and the output array's contents beside it (`run_val`). -/
import proofs.«428637_j38302518345827_1_alg».proof.Proof.Gen.Kernel.Launch
import proofs.«428637_j38302518345827_1_alg».proof.Proof.Gen.Kernel.Skeleton
import proofs.«428637_j38302518345827_1_alg».proof.Proof.Gen.Kernel.Points
import proofs.«428637_j38302518345827_1_alg».proof.Proof.Gen.Kernel.Regions
import proofs.«428637_j38302518345827_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- Every pipeline's proof data, each at its region's entry contents — a literal `match`, so that the launch theorem's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1' m ρ) c
  | ⟨1, _⟩ => fun c => dat1 (V3' m ρ) c
  | ⟨2, _⟩ => fun c => dat2 (V5' m ρ) c
  | ⟨3, _⟩ => fun c => dat3 (V7' m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: its operations run over the unscoped references from the contents `W`, `R` riding
    along (it leaves those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

/-! # The regions as segments -/

-- a library lemma stated over `pin pcs a p` unifies with the pinned configuration only when unification may unfold
-- plain definitions in a metavariable's type
set_option backward.isDefEq.respectTransparency.types false in
/-- REGION 0 (the first layer) over the thread state: entered from every unscoped buffer at `W1`, left at `W2`
    (what the next segment is entered from). Its arrays split out of the unscoped buffers and put back at the exit
    contents; the generator register into the region's invariant and out; nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1' m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1' m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1' m ρ c) (V2' m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 (the second layer) over the thread state: entered from every unscoped buffer at `W3`, left at `W4`
    (what the next segment is entered from). Its arrays split out of the unscoped buffers and put back at the exit
    contents; the generator register into the region's invariant and out; nothing owed; no semaphore of the
    kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3' m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3' m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3' m ρ c) (V4' m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 2 (the third layer) over the thread state: entered from every unscoped buffer at `W5`, left at `W6`
    (what the next segment is entered from). Its arrays split out of the unscoped buffers and put back at the exit
    contents; the generator register into the region's invariant and out; nothing owed; no semaphore of the
    kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5' m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5' m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5' m ρ c) (V6' m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 3 (the pooling head) over the thread state: entered from every unscoped buffer at `W7`, left at `W8`
    (what the launch reads at the end). Its arrays split out of the unscoped buffers and put back at the exit
    contents; the generator register into the region's invariant and out (the invariant at the first point is the
    scoped rest unopened, `hin3`; at the last point the carried scratch buffers fold back into it, `hout3`); nothing owed; no semaphore of the
    kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7' m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7' m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V7' m ρ) c)
    unfold Pipeline.ΦA
    iintro ⟨Hp, -, Hr⟩
    isplitl [Hr]; · iexact Hr
    iexact Hp
  hout c := by
    rw [Pipeline.ownSems0_none]
    refine (hout3 (V7' m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7' m ρ c) (V8' m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's 8 segments in order: a host segment per stretch from its boundary's contents, a region per kernel call. -/
abbrev runSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main IS the run of the segments: @main is the chain of its items (`main_chain`), and the segments' run is the
    chain of their fragments (`Seg.run_eq_chain`), the two lists of fragments equal item by item. -/
theorem main_run (c : Dev nD) : main (F := F) c = Pipeline.Seg.run (runSegs m ρ) := by
  rewrite [main_chain c, Pipeline.Seg.run_eq_chain]
  rfl

-- the launch theorem's implicit arguments are found by unifying its conclusion with this one, which takes unfolding
-- plain definitions in a metavariable's type
set_option backward.isDefEq.respectTransparency.types false in
/-- THE LAUNCH over the segments, at any post `Q` that follows from the last thread state read against the final
    memory: at the compiled mesh, from any memory with zero counters, every weakly fair execution of @main on the
    TensorCores terminates, nothing faulting, and every final memory holds each unscoped buffer at `W8`. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

/-- Every final memory holds each unscoped buffer of every TensorCore at the last boundary's contents `W8`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  run_post m ρ fun _ h => h

/-- THE FRAME, at any `F`: every weakly fair execution of @main terminates, nothing faulting, and every final memory
    has the argument arrays as launched — each argument read off `W8` by `W8_main_argJ`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_post m ρ fun s h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c)⟩

/-- The frame beside the value of the output array `main_v56`: what the last region's write-backs fold to. -/
theorem run_val : θ_run defs (onTc (τ := τ) (main (F := F))) ⟨m, fun _ => 0, ρ⟩ (fun r => ∀ c : Dev nD,
      r.2.mem ((c.tc : Thread nD τ).loc main_v56) = (dat3 (V7' m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_post m ρ fun s h c =>
    ⟨(h c _ (mem_uc main_v56 (by decide))).trans (W8_out m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c)⟩

end Cert.Kernel.Gen

end
-- ==== Proof.KI.R0.lean ====
/- REGION 0 of @main (the first SAGE layer, pipeline 0) at a PARAMETER `V` — the TensorCore's buffer contents when the
   region is entered —: each window's block at a point (`iblk0`), what the body leaves in the output window's buffer
   (`out0_5`), the body's triple (`sound_kernel0`), the pipeline's proof data (`dat0`) and the body obligation at every
   point (`body_obligation0`). -/
import proofs.«428637_j38302518345827_1_alg».proof.Proof.Gen.KernelIdeal.Launch
import proofs.«428637_j38302518345827_1_alg».proof.Proof.Gen.KernelIdeal.Skeleton
import proofs.«428637_j38302518345827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! # REGION 0 of @main: custom_call 0, `cc0__sage_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data
    whose array is `V`'s (`hA`) and whose body leaves the block in place (`hafter`): unfetched, the block index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof data
    whose array is `V`'s (`hA`) and whose body leaves the block in place (`hafter`): unfetched, the block index has not
    moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof data
    whose array is `V`'s (`hA`) and whose body leaves the block in place (`hafter`): unfetched, the block index has not
    moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof data
    whose array is `V`'s (`hA`) and whose body leaves the block in place (`hafter`): unfetched, the block index has not
    moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof data
    whose array is `V`'s (`hA`) and whose body leaves the block in place (`hafter`): unfetched, the block index has not
    moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S2000x128 := Rect.unit (s := S2000x128) ![0, 0] S2000x128.size inb_S2000x128_S2000x128_0_0
abbrev r0_b : Rect S128x128 := Rect.unit (s := S128x128) ![0, 0] S128x128.size inb_S128x128_S128x128_0_0
abbrev r0_c : Rect S1x128 := Rect.unit (s := S1x128) ![0, 0] S1x128.size inb_S1x128_S1x128_0_0

/-! ## What the body leaves in the output window's buffer -/

/-- Window 5's staging buffer after the body, from the input windows' blocks: its one store as a piece, the payload
    the skeleton's (its arguments are the loads of windows 0, 1, 2, 4, 3 in that order). -/
def out0_5 (xa xb : Vec F S2000x128 .f32) (xc : Vec F S128x128 .f32) (xd : Vec F S1x128 .f32) (xe : Vec F S128x128 .f32) : Vec F S2000x128 .f32 :=
  View.canon [⟨r0_a, k0_pay1 (View.ld xa r0_a) (View.ld xb r0_a) (View.ld xc r0_b) (View.ld xe r0_b) (View.ld xd r0_c)⟩]

/-- Its store tiles the buffer, so it covers it. -/
theorem cover0_5 (pa : Vec F S2000x128 .f32) (y : S2000x128.Idx) :
    ∃ pc ∈ ([⟨r0_a, pa⟩] : List (View.Piece (Elt F) S2000x128 .f32)), y ∈ pc.1.set :=
  View.cover_of_tiled [⟨r0_a, pa⟩] S2000x128.size (by rfl) y

/-! ## The body's triple -/

set_option maxHeartbeats 4000000 in
/-- The kernel body on whole staging memrefs, the inputs' at read contents and the output's at anything, runs to the
    continuation holding the inputs' as they were and the output's at `out0_5` of the inputs'. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S2000x128 .f32) (harg6 : arg6.IsWhole)
    (xa xb : Vec F S2000x128 .f32) (xc : Vec F S128x128 .f32) (xd : Vec F S1x128 .f32) (xe : Vec F S128x128 .f32) (K : PUnit → sProp 𝕄) :
    iprop(owns (c : Thread nD τ) arg1 fullShare xa ∗ owns (c : Thread nD τ) arg2 fullShare xb ∗ owns (c : Thread nD τ) arg3 fullShare xc
        ∗ owns (c : Thread nD τ) arg4 fullShare xd ∗ owns (c : Thread nD τ) arg5 fullShare xe ∗ (∃ d, owns (c : Thread nD τ) arg6 fullShare d)
        ∗ (iprop(owns (c : Thread nD τ) arg1 fullShare xa ∗ owns (c : Thread nD τ) arg2 fullShare xb ∗ owns (c : Thread nD τ) arg3 fullShare xc
            ∗ owns (c : Thread nD τ) arg4 fullShare xd ∗ owns (c : Thread nD τ) arg5 fullShare xe
            ∗ owns (c : Thread nD τ) arg6 fullShare (out0_5 xa xb xc xd xe)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dd, %ff, -, Hf⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover0_5 _)

/-! ## The pipeline's proof data -/

/-- The proof data of pipeline 0 on core `c`: the arrays as the region finds them (`V`); after the body at point `t`
    each input's buffer at its block and the output's at `out0_5` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' memrefs hold their blocks (`before0_W`), so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%da, Ha⟩, ⟨%db, Hb⟩, ⟨%dc, Hc⟩, ⟨%dd, Hd⟩, ⟨%de, He⟩, ⟨%df, Hf⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KI.R1.lean ====
/- REGION 1 of @main (the second SAGE layer, pipeline 1) at a PARAMETER `V` — the TensorCore's buffer contents when the
   region is entered —: each window's block at a point (`iblk1`), what the body leaves in the output window's buffer
   (`out1_5`), the body's triple (`sound_kernel1`), the pipeline's proof data (`dat1`) and the body obligation at every
   point (`body_obligation1`). -/
import proofs.«428637_j38302518345827_1_alg».proof.Proof.Gen.KernelIdeal.Launch
import proofs.«428637_j38302518345827_1_alg».proof.Proof.Gen.KernelIdeal.Skeleton
import proofs.«428637_j38302518345827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! # REGION 1 of @main: custom_call 1, `cc1__sage_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data
    whose array is `V`'s (`hA`) and whose body leaves the block in place (`hafter`): unfetched, the block index has not
    moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof data
    whose array is `V`'s (`hA`) and whose body leaves the block in place (`hafter`): unfetched, the block index has not
    moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof data
    whose array is `V`'s (`hA`) and whose body leaves the block in place (`hafter`): unfetched, the block index has not
    moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof data
    whose array is `V`'s (`hA`) and whose body leaves the block in place (`hafter`): unfetched, the block index has not
    moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof data
    whose array is `V`'s (`hA`) and whose body leaves the block in place (`hafter`): unfetched, the block index has not
    moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_a : Rect S2000x128 := Rect.unit (s := S2000x128) ![0, 0] S2000x128.size inb_S2000x128_S2000x128_0_0
abbrev r1_b : Rect S128x128 := Rect.unit (s := S128x128) ![0, 0] S128x128.size inb_S128x128_S128x128_0_0
abbrev r1_c : Rect S1x128 := Rect.unit (s := S1x128) ![0, 0] S1x128.size inb_S1x128_S1x128_0_0

/-! ## What the body leaves in the output window's buffer -/

/-- Window 5's staging buffer after the body, from the input windows' blocks: its one store as a piece, the payload
    the skeleton's (its arguments are the loads of windows 0, 1, 2, 4, 3 in that order). -/
def out1_5 (xa xb : Vec F S2000x128 .f32) (xc : Vec F S128x128 .f32) (xd : Vec F S1x128 .f32) (xe : Vec F S128x128 .f32) : Vec F S2000x128 .f32 :=
  View.canon [⟨r1_a, k1_pay1 (View.ld xa r1_a) (View.ld xb r1_a) (View.ld xc r1_b) (View.ld xe r1_b) (View.ld xd r1_c)⟩]

/-- Its store tiles the buffer, so it covers it. -/
theorem cover1_5 (pa : Vec F S2000x128 .f32) (y : S2000x128.Idx) :
    ∃ pc ∈ ([⟨r1_a, pa⟩] : List (View.Piece (Elt F) S2000x128 .f32)), y ∈ pc.1.set :=
  View.cover_of_tiled [⟨r1_a, pa⟩] S2000x128.size (by rfl) y

/-! ## The body's triple -/

set_option maxHeartbeats 4000000 in
/-- The kernel body on whole staging memrefs, the inputs' at read contents and the output's at anything, runs to the
    continuation holding the inputs' as they were and the output's at `out1_5` of the inputs'. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S2000x128 .f32) (harg6 : arg6.IsWhole)
    (xa xb : Vec F S2000x128 .f32) (xc : Vec F S128x128 .f32) (xd : Vec F S1x128 .f32) (xe : Vec F S128x128 .f32) (K : PUnit → sProp 𝕄) :
    iprop(owns (c : Thread nD τ) arg1 fullShare xa ∗ owns (c : Thread nD τ) arg2 fullShare xb ∗ owns (c : Thread nD τ) arg3 fullShare xc
        ∗ owns (c : Thread nD τ) arg4 fullShare xd ∗ owns (c : Thread nD τ) arg5 fullShare xe ∗ (∃ d, owns (c : Thread nD τ) arg6 fullShare d)
        ∗ (iprop(owns (c : Thread nD τ) arg1 fullShare xa ∗ owns (c : Thread nD τ) arg2 fullShare xb ∗ owns (c : Thread nD τ) arg3 fullShare xc
            ∗ owns (c : Thread nD τ) arg4 fullShare xd ∗ owns (c : Thread nD τ) arg5 fullShare xe
            ∗ owns (c : Thread nD τ) arg6 fullShare (out1_5 xa xb xc xd xe)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dd, %ff, -, Hf⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover1_5 _)

/-! ## The pipeline's proof data -/

/-- The proof data of pipeline 1 on core `c`: the arrays as the region finds them (`V`); after the body at point `t`
    each input's buffer at its block and the output's at `out1_5` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%da, Ha⟩, ⟨%db, Hb⟩, ⟨%dc, Hc⟩, ⟨%dd, Hd⟩, ⟨%de, He⟩, ⟨%df, Hf⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KI.R2.lean ====
/- REGION 2 of @main (the third SAGE layer (no rectifier), pipeline 2) at a PARAMETER `V` — the TensorCore's buffer contents when the
   region is entered —: each window's block at a point (`iblk2`), what the body leaves in the output window's buffer
   (`out2_5`), the body's triple (`sound_kernel2`), the pipeline's proof data (`dat2`) and the body obligation at every
   point (`body_obligation2`). -/
import proofs.«428637_j38302518345827_1_alg».proof.Proof.Gen.KernelIdeal.Launch
import proofs.«428637_j38302518345827_1_alg».proof.Proof.Gen.KernelIdeal.Skeleton
import proofs.«428637_j38302518345827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered: the parameter the region's half is stated at
variable (V : (c : Dev nD) → (b : Ref sig .tc) → Buf (Elt F) ((c : Thread nD τ).loc b))

/-! # REGION 2 of @main: custom_call 2, `cc2__sage_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof data
    whose array is `V`'s (`hA`) and whose body leaves the block in place (`hafter`): unfetched, the block index has not
    moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof data
    whose array is `V`'s (`hA`) and whose body leaves the block in place (`hafter`): unfetched, the block index has not
    moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof data
    whose array is `V`'s (`hA`) and whose body leaves the block in place (`hafter`): unfetched, the block index has not
    moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof data
    whose array is `V`'s (`hA`) and whose body leaves the block in place (`hafter`): unfetched, the block index has not
    moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof data
    whose array is `V`'s (`hA`) and whose body leaves the block in place (`hafter`): unfetched, the block index has not
    moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S2000x128 := Rect.unit (s := S2000x128) ![0, 0] S2000x128.size inb_S2000x128_S2000x128_0_0
abbrev r2_b : Rect S128x128 := Rect.unit (s := S128x128) ![0, 0] S128x128.size inb_S128x128_S128x128_0_0
abbrev r2_c : Rect S1x128 := Rect.unit (s := S1x128) ![0, 0] S1x128.size inb_S1x128_S1x128_0_0

/-! ## What the body leaves in the output window's buffer -/

/-- Window 5's staging buffer after the body, from the input windows' blocks: its one store as a piece, the payload
    the skeleton's (its arguments are the loads of windows 0, 1, 2, 4, 3 in that order). -/
def out2_5 (xa xb : Vec F S2000x128 .f32) (xc : Vec F S128x128 .f32) (xd : Vec F S1x128 .f32) (xe : Vec F S128x128 .f32) : Vec F S2000x128 .f32 :=
  View.canon [⟨r2_a, k2_pay1 (View.ld xa r2_a) (View.ld xb r2_a) (View.ld xc r2_b) (View.ld xe r2_b) (View.ld xd r2_c)⟩]

/-- Its store tiles the buffer, so it covers it. -/
theorem cover2_5 (pa : Vec F S2000x128 .f32) (y : S2000x128.Idx) :
    ∃ pc ∈ ([⟨r2_a, pa⟩] : List (View.Piece (Elt F) S2000x128 .f32)), y ∈ pc.1.set :=
  View.cover_of_tiled [⟨r2_a, pa⟩] S2000x128.size (by rfl) y

/-! ## The body's triple -/

set_option maxHeartbeats 4000000 in
/-- The kernel body on whole staging memrefs, the inputs' at read contents and the output's at anything, runs to the
    continuation holding the inputs' as they were and the output's at `out2_5` of the inputs'. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S2000x128 .f32) (harg6 : arg6.IsWhole)
    (xa xb : Vec F S2000x128 .f32) (xc : Vec F S128x128 .f32) (xd : Vec F S1x128 .f32) (xe : Vec F S128x128 .f32) (K : PUnit → sProp 𝕄) :
    iprop(owns (c : Thread nD τ) arg1 fullShare xa ∗ owns (c : Thread nD τ) arg2 fullShare xb ∗ owns (c : Thread nD τ) arg3 fullShare xc
        ∗ owns (c : Thread nD τ) arg4 fullShare xd ∗ owns (c : Thread nD τ) arg5 fullShare xe ∗ (∃ d, owns (c : Thread nD τ) arg6 fullShare d)
        ∗ (iprop(owns (c : Thread nD τ) arg1 fullShare xa ∗ owns (c : Thread nD τ) arg2 fullShare xb ∗ owns (c : Thread nD τ) arg3 fullShare xc
            ∗ owns (c : Thread nD τ) arg4 fullShare xd ∗ owns (c : Thread nD τ) arg5 fullShare xe
            ∗ owns (c : Thread nD τ) arg6 fullShare (out2_5 xa xb xc xd xe)) -∗ K ⟨⟩))
      ⊢ wp frame (wpE (defs₀ (F := F)) Variants.none c none) E (cc2__sage_kernel i arg1 harg1 arg2 harg2 arg3 harg3 arg4 harg4 arg5 harg5 arg6 harg6) K := by
  simp only [cc2__sage_kernel_eq_skeleton]; unfold cc2__sage_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dd, %ff, -, Hf⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover2_5 _)

/-! ## The pipeline's proof data -/

/-- The proof data of pipeline 2 on core `c`: the arrays as the region finds them (`V`); after the body at point `t`
    each input's buffer at its block and the output's at `out2_5` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1000000 in
/-- The body at any point: the inputs' memrefs hold their blocks (`before2_W`), so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%da, Ha⟩, ⟨%db, Hb⟩, ⟨%dc, Hc⟩, ⟨%dd, Hd⟩, ⟨%de, He⟩, ⟨%df, Hf⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Gen

end
-- ==== Proof.KI.R3Runs.lean ====
/- REGION 3 of @main (the mean-pool kernel): what its body does at a grid point, in the three cases its two
   conditionals on the grid coordinate make — the first point (the carried sums and counts are zero-filled, then
   accumulated), a point in between (accumulated), the last point (accumulated, then the pooled means projected into
   the output block) — each as a triple with the contents every buffer ends at written out over the kernel's
   payloads; and the facts the three are stated over: the conditions in closed form over the grid, where the windows
   are idle, the scratch memrefs, and the region invariant with the two scratch buffers opened. -/
import proofs.«428637_j38302518345827_1_alg».proof.Proof.Gen.KernelIdeal.Launch
import proofs.«428637_j38302518345827_1_alg».proof.Proof.Gen.KernelIdeal.Skeleton
import proofs.«428637_j38302518345827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents: the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the scratch is zero-filled under it), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 25 = 0 :=
  (by decide +kernel : ∀ t : Fin grid3.N, cond3_0 (grid3.coords t) ↔ t.val % 25 = 0)

/-- The condition of the body's second `scf.if` (the output is stored under it), from the grid coordinates. -/
abbrev cond3_1 (i : grid3.Coords) : Prop := k3_cond2 i = 1#1
/-- It holds at the last point only. -/
theorem hcond3_1 : ∀ t : Fin cfg3.N, cond3_1 (grid3.coords t) ↔ t.val % 25 = 24 :=
  (by decide +kernel : ∀ t : Fin grid3.N, cond3_1 (grid3.coords t) ↔ t.val % 25 = 24)

/-! ## Where the windows are idle -/

/-- The four input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- At the first point the output window is idle (nothing is stored into it) and is not written back. -/
theorem idleAt3_4_A : ∀ t : Fin cfg3.N, cond3_0 (grid3.coords t) → ¬cond3_1 (grid3.coords t) → cfg3.idle 4 (grid3.coords t) = true := by decide +kernel
theorem noFlush3_4_A : ∀ t : Fin cfg3.N, cond3_0 (grid3.coords t) → ¬cond3_1 (grid3.coords t) → (cfg3.win 4).flush t = false := by decide +kernel
/-- The same at the points between the first and the last. -/
theorem idleAt3_4_B : ∀ t : Fin cfg3.N, ¬cond3_0 (grid3.coords t) → ¬cond3_1 (grid3.coords t) → cfg3.idle 4 (grid3.coords t) = true := by decide +kernel
theorem noFlush3_4_B : ∀ t : Fin cfg3.N, ¬cond3_0 (grid3.coords t) → ¬cond3_1 (grid3.coords t) → (cfg3.win 4).flush t = false := by decide +kernel
/-- At the last point the output window is live: the body stores into it. -/
theorem liveAt3_4_C : ∀ t : Fin cfg3.N, ¬cond3_0 (grid3.coords t) → cond3_1 (grid3.coords t) → cfg3.idle 4 (grid3.coords t) = false := by decide +kernel

/-! ## The staging and scratch memrefs -/

/-- The scratch operands: whole scoped buffers of the kernel's own, passed beside the windows. -/
abbrev scM3_0 : Memref sig .tc .vmem S64x128 .f32 := Memref.whole cc3_scratch0
abbrev scM3_1 : Memref sig .tc .vmem S64x1 .f32 := Memref.whole cc3_scratch1

/-- The class's invariant with the two scratch operands as memrefs owned at some contents, the other scoped buffers
    riding along unopened: what the body obligation hands the run at the first point and gives back at the end. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM3_0, scM3_1, owns_whole]; try rfl

/-- The zero offsets of a rank-2 access, as the library's whole-buffer lemmas spell them. -/
theorem hz2 : (![0, 0] : Fin 2 → Nat) = fun _ => 0 := funext fun a => by fin_cases a <;> rfl

/-- A buffer whose LAST store went through the whole-shape rectangle at zero offsets reads that store's payload,
    whatever it held and whatever the earlier stores were: the one piece covers every index. -/
theorem read_writes_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

set_option maxHeartbeats 4000000 in
/-- The body at the FIRST point (the first conditional taken, the second not): on whole memrefs, the inputs' at
    their contents, the output's at `xi` (handed back untouched: nothing is stored into it here) and the two scratch
    buffers at anything, it runs to the continuation holding the inputs' and the output's as they were, the sums at
    the first block's accumulation over the zero fill, and the counts likewise. -/
theorem kernelRun3_A (c : Dev nD) (i : grid3.Coords) (arg1 : Memref sig .tc .vmem S2000x128 .f32) (harg1 : arg1.IsWhole) (arg2 : Memref sig .tc .vmem S2000x1 .i32) (harg2 : arg2.IsWhole) (arg3 : Memref sig .tc .vmem S4x128 .f32) (harg3 : arg3.IsWhole) (arg4 : Memref sig .tc .vmem S1x4 .f32) (harg4 : arg4.IsWhole) (arg5 : Memref sig .tc .vmem S64x4 .f32) (harg5 : arg5.IsWhole) (arg6 : Memref sig .tc .vmem S64x128 .f32) (harg6 : arg6.IsWhole) (arg7 : Memref sig .tc .vmem S64x1 .f32) (harg7 : arg7.IsWhole) (hc0 : cond3_0 i) (hc1 : ¬cond3_1 i)
    (x0 : Vec F S2000x128 .f32) (x1 : Vec F S2000x1 .i32) (x2 : Vec F S4x128 .f32) (x3 : Vec F S1x4 .f32) (xi : Vec F S64x4 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi
            ∗ owns (c : Thread nD τ) arg6 fullShare (k3_pay4 x0 x1 (k3_pay1 (F := F)))
            ∗ owns (c : Thread nD τ) arg7 fullShare (k3_pay5 x1 (k3_pay2 (F := F)))) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    rw [read_writes_unit_zero _ _ hz2]
    sl_unfold_words
    rw [View.readCov_unit_zero (S := S64x128) _ hz2]
    simp only [View.readAt_eq_ld, harg1.read_unread, harg2.read_unread, View.ld_unit_zero (S := S2000x128) hz2, View.ld_unit_zero (S := S2000x1) hz2]
  iexists _; isplitr
  swap; · iexact HS1
  ipureintro
  rw [read_writes_unit_zero _ _ hz2]
  sl_unfold_words
  rw [View.readCov_unit_zero (S := S64x1) _ hz2]
  simp only [View.readAt_eq_ld, harg2.read_unread, View.ld_unit_zero (S := S2000x1) hz2]

set_option maxHeartbeats 4000000 in
/-- The body at a point BETWEEN the first and the last (neither conditional taken): the sums held at `s` and the
    counts at `n` are left at this block's accumulation over them; the output's buffer is handed back untouched. -/
theorem kernelRun3_B (c : Dev nD) (i : grid3.Coords) (arg1 : Memref sig .tc .vmem S2000x128 .f32) (harg1 : arg1.IsWhole) (arg2 : Memref sig .tc .vmem S2000x1 .i32) (harg2 : arg2.IsWhole) (arg3 : Memref sig .tc .vmem S4x128 .f32) (harg3 : arg3.IsWhole) (arg4 : Memref sig .tc .vmem S1x4 .f32) (harg4 : arg4.IsWhole) (arg5 : Memref sig .tc .vmem S64x4 .f32) (harg5 : arg5.IsWhole) (arg6 : Memref sig .tc .vmem S64x128 .f32) (harg6 : arg6.IsWhole) (arg7 : Memref sig .tc .vmem S64x1 .f32) (harg7 : arg7.IsWhole) (hc0 : ¬cond3_0 i) (hc1 : ¬cond3_1 i)
    (x0 : Vec F S2000x128 .f32) (x1 : Vec F S2000x1 .i32) (x2 : Vec F S4x128 .f32) (x3 : Vec F S1x4 .f32) (xi : Vec F S64x4 .f32)
    (s : Vec F S64x128 .f32) (n : Vec F S64x1 .f32)
    (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi
        ∗ owns (c : Thread nD τ) arg6 fullShare s ∗ owns (c : Thread nD τ) arg7 fullShare n
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi
            ∗ owns (c : Thread nD τ) arg6 fullShare (k3_pay4 x0 x1 s)
            ∗ owns (c : Thread nD τ) arg7 fullShare (k3_pay5 x1 n)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    rw [read_writes_unit_zero _ _ hz2]
    simp only [View.readAt_eq_ld, harg1.read_unread, harg2.read_unread, harg6.read_unread, View.ld_unit_zero (S := S2000x128) hz2, View.ld_unit_zero (S := S2000x1) hz2, View.ld_unit_zero (S := S64x128) hz2]
  iexists _; isplitr
  swap; · iexact HS1
  ipureintro
  rw [read_writes_unit_zero _ _ hz2]
  simp only [View.readAt_eq_ld, harg2.read_unread, harg7.read_unread, View.ld_unit_zero (S := S2000x1) hz2, View.ld_unit_zero (S := S64x1) hz2]

set_option maxHeartbeats 4000000 in
/-- The body at the LAST point (the second conditional taken): the sums and the counts are left at this block's
    accumulation over what they held, and the output's buffer, whatever it held, at the pooled and projected block
    computed from those final sums and counts and the head's weights and bias. -/
theorem kernelRun3_C (c : Dev nD) (i : grid3.Coords) (arg1 : Memref sig .tc .vmem S2000x128 .f32) (harg1 : arg1.IsWhole) (arg2 : Memref sig .tc .vmem S2000x1 .i32) (harg2 : arg2.IsWhole) (arg3 : Memref sig .tc .vmem S4x128 .f32) (harg3 : arg3.IsWhole) (arg4 : Memref sig .tc .vmem S1x4 .f32) (harg4 : arg4.IsWhole) (arg5 : Memref sig .tc .vmem S64x4 .f32) (harg5 : arg5.IsWhole) (arg6 : Memref sig .tc .vmem S64x128 .f32) (harg6 : arg6.IsWhole) (arg7 : Memref sig .tc .vmem S64x1 .f32) (harg7 : arg7.IsWhole) (hc0 : ¬cond3_0 i) (hc1 : cond3_1 i)
    (x0 : Vec F S2000x128 .f32) (x1 : Vec F S2000x1 .i32) (x2 : Vec F S4x128 .f32) (x3 : Vec F S1x4 .f32)
    (s : Vec F S64x128 .f32) (n : Vec F S64x1 .f32)
    (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)
        ∗ owns (c : Thread nD τ) arg6 fullShare s ∗ owns (c : Thread nD τ) arg7 fullShare n
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k3_pay6 (k3_pay4 x0 x1 s) (k3_pay5 x1 n) x2 x3)
            ∗ owns (c : Thread nD τ) arg6 fullShare (k3_pay4 x0 x1 s)
            ∗ owns (c : Thread nD τ) arg7 fullShare (k3_pay5 x1 n)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    rw [read_writes_unit_zero _ _ hz2]
    sl_unfold_words
    rw [View.readCov_unit_zero (S := S64x128) _ hz2, View.readCov_unit_zero (S := S64x1) _ hz2]
    simp only [View.readAt_eq_ld, harg1.read_unread, harg2.read_unread, harg3.read_unread, harg4.read_unread, harg6.read_unread, harg7.read_unread, View.ld_unit_zero (S := S2000x128) hz2, View.ld_unit_zero (S := S2000x1) hz2, View.ld_unit_zero (S := S64x128) hz2, View.ld_unit_zero (S := S64x1) hz2, View.ld_unit_zero (S := S4x128) hz2, View.ld_unit_zero (S := S1x4) hz2]
  isplitl [HS0]
  · iexists _; isplitr
    swap; · iexact HS0
    ipureintro
    sl_unfold_words
    rw [read_writes_unit_zero _ _ hz2]
    simp only [View.readAt_eq_ld, harg1.read_unread, harg2.read_unread, harg6.read_unread, View.ld_unit_zero (S := S2000x128) hz2, View.ld_unit_zero (S := S2000x1) hz2, View.ld_unit_zero (S := S64x128) hz2]
  iexists _; isplitr
  swap; · iexact HS1
  ipureintro
  sl_unfold_words
  rw [read_writes_unit_zero _ _ hz2]
  simp only [View.readAt_eq_ld, harg2.read_unread, harg7.read_unread, View.ld_unit_zero (S := S2000x1) hz2, View.ld_unit_zero (S := S64x1) hz2]

end Cert.KernelIdeal.Gen

end
-- ==== Proof.KI.R3.lean ====
/- REGION 3 of @main (the mean-pool kernel, pipeline 3), at the entry contents `V`: the windows' blocks, the
   scratch the kernel carries from grid point to grid point in closed form (the per-graph feature sums and node
   counts after each point), the pooled-and-projected output, the pipeline's proof data, and the body obligation. -/
import proofs.«428637_j38302518345827_1_alg».proof.Proof.KI.R3Runs

-- membership in a rectangle of production extents: the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved), for any proof data whose array is `V`'s and whose body leaves the block in place:
    the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The carried scratch, point by point -/

/-- The per-graph feature sums the kernel carries (scratch 0) after point `n`: zero-filled at the first point,
    then each point's node block accumulated through its one-hot graph assignment. -/
def sumAt3 (c : Dev nD) : (n : ℕ) → n < cfg3.N → Vec F S64x128 .f32
  | 0, h => k3_pay4 (iblk3 V c 0 ⟨0, h⟩) (iblk3 V c 1 ⟨0, h⟩) (k3_pay1 (F := F))
  | n + 1, h => k3_pay4 (iblk3 V c 0 ⟨n + 1, h⟩) (iblk3 V c 1 ⟨n + 1, h⟩) (sumAt3 c n (Nat.lt_of_succ_lt h))

/-- The per-graph node counts the kernel carries (scratch 1) after point `n`. -/
def cntAt3 (c : Dev nD) : (n : ℕ) → n < cfg3.N → Vec F S64x1 .f32
  | 0, h => k3_pay5 (iblk3 V c 1 ⟨0, h⟩) (k3_pay2 (F := F))
  | n + 1, h => k3_pay5 (iblk3 V c 1 ⟨n + 1, h⟩) (cntAt3 c n (Nat.lt_of_succ_lt h))

theorem sumAt3_zero (c : Dev nD) (h : 0 < cfg3.N) :
    sumAt3 V c 0 h = k3_pay4 (iblk3 V c 0 ⟨0, h⟩) (iblk3 V c 1 ⟨0, h⟩) (k3_pay1 (F := F)) := rfl
theorem sumAt3_succ (c : Dev nD) (n : ℕ) (h : n + 1 < cfg3.N) :
    sumAt3 V c (n + 1) h = k3_pay4 (iblk3 V c 0 ⟨n + 1, h⟩) (iblk3 V c 1 ⟨n + 1, h⟩) (sumAt3 V c n (Nat.lt_of_succ_lt h)) := rfl
theorem cntAt3_zero (c : Dev nD) (h : 0 < cfg3.N) :
    cntAt3 V c 0 h = k3_pay5 (iblk3 V c 1 ⟨0, h⟩) (k3_pay2 (F := F)) := rfl
theorem cntAt3_succ (c : Dev nD) (n : ℕ) (h : n + 1 < cfg3.N) :
    cntAt3 V c (n + 1) h = k3_pay5 (iblk3 V c 1 ⟨n + 1, h⟩) (cntAt3 V c n (Nat.lt_of_succ_lt h)) := rfl

/-- The sums after the first point, at the point itself. -/
theorem sumAt3_first (c : Dev nD) (t : Fin cfg3.N) (hz : t.val = 0) :
    sumAt3 V c t.val t.isLt = k3_pay4 (iblk3 V c 0 t) (iblk3 V c 1 t) (k3_pay1 (F := F)) := by
  obtain ⟨n, hn⟩ := t
  cases n with
  | zero => rfl
  | succ n => exact absurd hz (Nat.succ_ne_zero n)
/-- The sums after a later point: this point's block accumulated over what the point before left. -/
theorem sumAt3_pos (c : Dev nD) (t : Fin cfg3.N) (hz : t.val ≠ 0) :
    sumAt3 V c t.val t.isLt = k3_pay4 (iblk3 V c 0 t) (iblk3 V c 1 t) (sumAt3 V c (t.val - 1) (Nat.lt_of_le_of_lt (Nat.sub_le _ _) t.isLt)) := by
  obtain ⟨n, hn⟩ := t
  cases n with
  | zero => exact absurd rfl hz
  | succ n => rfl
/-- The counts likewise. -/
theorem cntAt3_first (c : Dev nD) (t : Fin cfg3.N) (hz : t.val = 0) :
    cntAt3 V c t.val t.isLt = k3_pay5 (iblk3 V c 1 t) (k3_pay2 (F := F)) := by
  obtain ⟨n, hn⟩ := t
  cases n with
  | zero => rfl
  | succ n => exact absurd hz (Nat.succ_ne_zero n)
theorem cntAt3_pos (c : Dev nD) (t : Fin cfg3.N) (hz : t.val ≠ 0) :
    cntAt3 V c t.val t.isLt = k3_pay5 (iblk3 V c 1 t) (cntAt3 V c (t.val - 1) (Nat.lt_of_le_of_lt (Nat.sub_le _ _) t.isLt)) := by
  obtain ⟨n, hn⟩ := t
  cases n with
  | zero => exact absurd rfl hz
  | succ n => rfl

/-- What the body stores into the output window at point `n` (it does so at the last point only): the sums
    divided by the clamped counts, projected by the head's weights and shifted by its bias. -/
def outAt3 (c : Dev nD) (n : ℕ) (h : n < cfg3.N) : Vec F S64x4 .f32 :=
  k3_pay6 (sumAt3 V c n h) (cntAt3 V c n h) (iblk3 V c 2 ⟨n, h⟩) (iblk3 V c 3 ⟨n, h⟩)

/-! ## The invariant -/

/-- The region invariant before position `n`: before the first point every scoped buffer that is no staging buffer
    at anything; afterwards the two carried scratch buffers at what the point before left in them, the other scoped
    buffers unopened, and the generator register at some state. -/
def PhiS3 (c : Dev nD) : (n : ℕ) → n ≤ cfg3.N → sProp 𝕄
  | 0, _ => Pipeline.ΦA spec3 c
  | n + 1, hn => iprop(iprop(owns (c : Thread nD τ) scM3_0 fullShare (sumAt3 V c n hn) ∗ owns (c : Thread nD τ) scM3_1 fullShare (cntAt3 V c n hn))
      ∗ Pipeline.scopedRestBut (Ix := Unit) (Name := ℕ) (U := UR sig nD τ) (Lvl := ℕ) (Val := Elt F) spec3 c [cc3_scratch0, cc3_scratch1]
      ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop(owns (c : Thread nD τ) scM3_0 fullShare (sumAt3 V c n hn) ∗ owns (c : Thread nD τ) scM3_1 fullShare (cntAt3 V c n hn))
      ∗ Pipeline.scopedRestBut (Ix := Unit) (Name := ℕ) (U := UR sig nD τ) (Lvl := ℕ) (Val := Elt F) spec3 c [cc3_scratch0, cc3_scratch1]
      ∗ (∃ r, prngReg c r)) := rfl

/-- Before a point that is not the first: the carried scratch at what the point before left. -/
theorem PhiS3_pos (c : Dev nD) (n : ℕ) (h : n ≤ cfg3.N) (hz : n ≠ 0) :
    PhiS3 V c n h = iprop(iprop(owns (c : Thread nD τ) scM3_0 fullShare (sumAt3 V c (n - 1) (by omega)) ∗ owns (c : Thread nD τ) scM3_1 fullShare (cntAt3 V c (n - 1) (by omega)))
      ∗ Pipeline.scopedRestBut (Ix := Unit) (Name := ℕ) (U := UR sig nD τ) (Lvl := ℕ) (Val := Elt F) spec3 c [cc3_scratch0, cc3_scratch1]
      ∗ (∃ r, prngReg c r)) := by
  cases n with
  | zero => exact absurd rfl hz
  | succ n => rfl

/-! ## The pipeline's proof data -/

/-- The proof data of pipeline 3 on core `c`: the arrays as the region finds them; after the body at point `t`
    each input's buffer at its block and the output's at `outAt3` (consulted at the last point only: elsewhere the
    window is idle and not written back); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outAt3 V c t.val t.isLt
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = outAt3 V c t.val t.isLt := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the closed forms say which of the three cases the
    point is in, so that case's run applies; the invariant hands the body the carried scratch at what the point
    before left (at anything at the first point) and takes it back at this point's contents, the other scoped
    buffers and the generator register riding along; the core owes nothing throughout. Where the output window is
    idle its buffer goes through the run untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (st3_0 t) fullShare ((dat3 V c).after 0 t) from by
        unfold Dat.leavesExact; rw [liveAt3_0 t], after3_0]
  rw [show (dat3 V c).leavesExact 1 t = owns (c : Thread nD τ) (st3_1 t) fullShare ((dat3 V c).after 1 t) from by
        unfold Dat.leavesExact; rw [liveAt3_1 t], after3_1]
  rw [show (dat3 V c).leavesExact 2 t = owns (c : Thread nD τ) (st3_2 t) fullShare ((dat3 V c).after 2 t) from by
        unfold Dat.leavesExact; rw [liveAt3_2 t], after3_2]
  rw [show (dat3 V c).leavesExact 3 t = owns (c : Thread nD τ) (st3_3 t) fullShare ((dat3 V c).after 3 t) from by
        unfold Dat.leavesExact; rw [liveAt3_3 t], after3_3]
  by_cases h0 : t.val % 25 = 0
  · by_cases h1 : t.val % 25 = 24
    · exfalso; omega
    · have hz : t.val = 0 := by omega
      rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
      rw [sumAt3_first V c t hz, cntAt3_first V c t hz]
      rw [PhiS3_castSucc V c t, PhiS3_zero V c _ _ hz, PhiA3_eq]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t) ((dat3 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 25 = 24
    · rw [show (dat3 V c).leavesExact 4 t = owns (c : Thread nD τ) (st3_4 t) fullShare ((dat3 V c).after 4 t) from by
        unfold Dat.leavesExact; rw [liveAt3_4_C t (fun h => h0 ((hcond3_0 t).mp h)) ((hcond3_1 t).mpr h1)], after3_4]
      unfold outAt3
      rw [sumAt3_pos V c t hz, cntAt3_pos V c t hz]
      rw [PhiS3_castSucc V c t, PhiS3_pos V c _ _ hz]
      iintro ⟨⟨⟨HS0, HS1⟩, Hrest, Hg⟩, Ho, ⟨%d0, H0⟩, ⟨%d1, H1⟩, ⟨%d2, H2⟩, ⟨%d3, H3⟩, ⟨%d4, H4⟩⟩
      iapply (kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
      rw [sumAt3_pos V c t hz, cntAt3_pos V c t hz]
      rw [PhiS3_castSucc V c t, PhiS3_pos V c _ _ hz]
      iintro ⟨⟨⟨HS0, HS1⟩, Hrest, Hg⟩, Ho, ⟨%d0, H0⟩, ⟨%d1, H1⟩, ⟨%d2, H2⟩, ⟨%d3, H3⟩, ⟨%d4, H4⟩⟩
      iapply (kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) ((dat3 V c).before 4 t d4) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HS1⟩, Hrest, Hg⟩
  isplitl [HS0 HS1 Hrest]
  · isplitl [HS0 HS1]
    · isplitl [HS0]
      · iexists _; iexact HS0
      iexists _; iexact HS1
    iexact Hrest
  iexact Hg

/-- The same after the last point. -/
theorem hout3 (c : Dev nD) : (dat3 V c).Φ (Fin.last cfg3.N) ⊢ Pipeline.ΦA spec3 c :=
  Phi_out3 V c _ (by rw [Fin.val_last]; have : cfg3.N = 25 := N_3; omega)

end Region3

end Cert.KernelIdeal.Gen

end
-- ==== Proof.KI.Chain.lean ====
/- THE BUFFER CONTENTS AT EVERY SEGMENT BOUNDARY of @main — four host stretches and four pipelined kernel regions,
   alternating —, as a fold from the launch memory (`W0` … `W8`): a host stretch leaves `StableHlo.after` of its
   operations; a region leaves its arrays at what its write-backs fold to (`Dat.arrAt … N`) and every other buffer as
   entered (`Pipeline.withArrays`). Read at the TensorCore's references these are the regions' entry and exit contents
   (`V1'` … `V8'`). A reference a stretch does not write keeps its contents across it (`WJ_of`); a reference that is
   none of a region's arrays keeps its contents across the region (`WJ_of_ne`); a region's output array ends at the
   fold of its window's write-backs (`WJ_out`). Each argument array, read back through the fold, holds its launch
   contents (`W8_main_argJ`): no host operation writes an argument, and a region either reads it through an input
   window or passes it by. -/
import proofs.«428637_j38302518345827_1_alg».proof.Proof.Gen.KernelIdeal.Launch
import proofs.«428637_j38302518345827_1_alg».proof.Proof.Gen.KernelIdeal.Skeleton
import proofs.«428637_j38302518345827_1_alg».proof.Proof.Gen.KernelIdeal.Points
import proofs.«428637_j38302518345827_1_alg».proof.Proof.Gen.KernelIdeal.Regions
import proofs.«428637_j38302518345827_1_alg».proof.Proof.KI.R0
import proofs.«428637_j38302518345827_1_alg».proof.Proof.KI.R1
import proofs.«428637_j38302518345827_1_alg».proof.Proof.KI.R2
import proofs.«428637_j38302518345827_1_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1' : (c : Dev nD) → (b : Ref sig .tc) → Buf (Elt F) ((c : Thread nD τ).loc b) := fun c b => W1 m ρ c b
/-- A reference `hostOps0` does not write holds at region 0's entry what it held before the stretch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its arrays at what the pipeline leaves (the inputs as entered, the output's write-backs
    folded: `Dat.arrAt … N`), every other buffer as entered. -/
def W2 (c : Dev nD) : Valuation τ sig (Elt F) :=
  Pipeline.withArrays spec0 c (W1 m ρ c) fun w => (dat0 (V1' m ρ) c).arrAt w cfg0.N
theorem W2_arr (c : Dev nD) (w : Fin cfg0.W) :
    W2 m ρ c (Proc.devRef .tc (Pipeline.arrRef spec0 w)) = (dat0 (V1' m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2' : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1' m ρ) c).arrAt w cfg0.N = V2' m ρ c (Pipeline.arrRef spec0 w) :=
  (W2_arr m ρ c w).symm
theorem hrest0 (c : Dev nD) : ∀ b, b ∉ Finset.univ.image (Pipeline.arrRef spec0) → V2' m ρ c b = V1' m ρ c b :=
  fun b hb => W2_of_ne m ρ c b fun w e => hb (Finset.mem_image.mpr ⟨w, Finset.mem_univ _, e⟩)
/-- The output array of region 0 (`main_v25`) at its exit: the write-backs of window 5 folded over the grid. -/
theorem W2_out (c : Dev nD) : W2 m ρ c (Proc.devRef .tc main_v25) = (dat0 (V1' m ρ) c).arrAt 5 cfg0.N :=
  W2_arr m ρ c 5

/-- After `hostOps1` (region 1's entry). -/
abbrev W3 : Dev nD → Valuation τ sig (Elt F) := fun c => StableHlo.after hostOps1 (W2 m ρ c)
/-- The same read at the TensorCore's references (what region 1's proof data take). -/
abbrev V3' : (c : Dev nD) → (b : Ref sig .tc) → Buf (Elt F) ((c : Thread nD τ).loc b) := fun c b => W3 m ρ c b
/-- A reference `hostOps1` does not write holds at region 1's entry what it held before the stretch. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its arrays at what the pipeline leaves (the inputs as entered, the output's write-backs
    folded: `Dat.arrAt … N`), every other buffer as entered. -/
def W4 (c : Dev nD) : Valuation τ sig (Elt F) :=
  Pipeline.withArrays spec1 c (W3 m ρ c) fun w => (dat1 (V3' m ρ) c).arrAt w cfg1.N
theorem W4_arr (c : Dev nD) (w : Fin cfg1.W) :
    W4 m ρ c (Proc.devRef .tc (Pipeline.arrRef spec1 w)) = (dat1 (V3' m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4' : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3' m ρ) c).arrAt w cfg1.N = V4' m ρ c (Pipeline.arrRef spec1 w) :=
  (W4_arr m ρ c w).symm
theorem hrest1 (c : Dev nD) : ∀ b, b ∉ Finset.univ.image (Pipeline.arrRef spec1) → V4' m ρ c b = V3' m ρ c b :=
  fun b hb => W4_of_ne m ρ c b fun w e => hb (Finset.mem_image.mpr ⟨w, Finset.mem_univ _, e⟩)
/-- The output array of region 1 (`main_v39`) at its exit: the write-backs of window 5 folded over the grid. -/
theorem W4_out (c : Dev nD) : W4 m ρ c (Proc.devRef .tc main_v39) = (dat1 (V3' m ρ) c).arrAt 5 cfg1.N :=
  W4_arr m ρ c 5

/-- After `hostOps2` (region 2's entry). -/
abbrev W5 : Dev nD → Valuation τ sig (Elt F) := fun c => StableHlo.after hostOps2 (W4 m ρ c)
/-- The same read at the TensorCore's references (what region 2's proof data take). -/
abbrev V5' : (c : Dev nD) → (b : Ref sig .tc) → Buf (Elt F) ((c : Thread nD τ).loc b) := fun c b => W5 m ρ c b
/-- A reference `hostOps2` does not write holds at region 2's entry what it held before the stretch. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: its arrays at what the pipeline leaves (the inputs as entered, the output's write-backs
    folded: `Dat.arrAt … N`), every other buffer as entered. -/
def W6 (c : Dev nD) : Valuation τ sig (Elt F) :=
  Pipeline.withArrays spec2 c (W5 m ρ c) fun w => (dat2 (V5' m ρ) c).arrAt w cfg2.N
theorem W6_arr (c : Dev nD) (w : Fin cfg2.W) :
    W6 m ρ c (Proc.devRef .tc (Pipeline.arrRef spec2 w)) = (dat2 (V5' m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6' : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5' m ρ) c).arrAt w cfg2.N = V6' m ρ c (Pipeline.arrRef spec2 w) :=
  (W6_arr m ρ c w).symm
theorem hrest2 (c : Dev nD) : ∀ b, b ∉ Finset.univ.image (Pipeline.arrRef spec2) → V6' m ρ c b = V5' m ρ c b :=
  fun b hb => W6_of_ne m ρ c b fun w e => hb (Finset.mem_image.mpr ⟨w, Finset.mem_univ _, e⟩)
/-- The output array of region 2 (`main_v53`) at its exit: the write-backs of window 5 folded over the grid. -/
theorem W6_out (c : Dev nD) : W6 m ρ c (Proc.devRef .tc main_v53) = (dat2 (V5' m ρ) c).arrAt 5 cfg2.N :=
  W6_arr m ρ c 5

/-- After `hostOps3` (region 3's entry). -/
abbrev W7 : Dev nD → Valuation τ sig (Elt F) := fun c => StableHlo.after hostOps3 (W6 m ρ c)
/-- The same read at the TensorCore's references (what region 3's proof data take). -/
abbrev V7' : (c : Dev nD) → (b : Ref sig .tc) → Buf (Elt F) ((c : Thread nD τ).loc b) := fun c b => W7 m ρ c b
/-- A reference `hostOps3` does not write holds at region 3's entry what it held before the stretch. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: its arrays at what the pipeline leaves (the inputs as entered, the output's write-backs
    folded: `Dat.arrAt … N`), every other buffer as entered. -/
def W8 (c : Dev nD) : Valuation τ sig (Elt F) :=
  Pipeline.withArrays spec3 c (W7 m ρ c) fun w => (dat3 (V7' m ρ) c).arrAt w cfg3.N
theorem W8_arr (c : Dev nD) (w : Fin cfg3.W) :
    W8 m ρ c (Proc.devRef .tc (Pipeline.arrRef spec3 w)) = (dat3 (V7' m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8' : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7' m ρ) c).arrAt w cfg3.N = V8' m ρ c (Pipeline.arrRef spec3 w) :=
  (W8_arr m ρ c w).symm
theorem hrest3 (c : Dev nD) : ∀ b, b ∉ Finset.univ.image (Pipeline.arrRef spec3) → V8' m ρ c b = V7' m ρ c b :=
  fun b hb => W8_of_ne m ρ c b fun w e => hb (Finset.mem_image.mpr ⟨w, Finset.mem_univ _, e⟩)
/-- The output array of region 3 (`main_v56`) at its exit: the write-backs of window 4 folded over the grid. -/
theorem W8_out (c : Dev nD) : W8 m ρ c (Proc.devRef .tc main_v56) = (dat3 (V7' m ρ) c).arrAt 4 cfg3.N :=
  W8_arr m ρ c 4

/-! ## The arguments end as launched: no host operation and no region writes one (a region reads it through an input
    window or passes it by), so the fold at an argument's buffer walks back to the launch memory -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 1).trans (((dat0 (V1' m ρ) c).arrAt_in 1 rfl _).trans (A_eq0 (V1' m ρ) c 1))
    _ = W0 m ρ c (Proc.devRef .tc main_arg0) := W1_of m ρ c main_arg0 (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 2).trans (((dat0 (V1' m ρ) c).arrAt_in 2 rfl _).trans (A_eq0 (V1' m ρ) c 2))
    _ = W0 m ρ c (Proc.devRef .tc main_arg3) := W1_of m ρ c main_arg3 (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 4).trans (((dat0 (V1' m ρ) c).arrAt_in 4 rfl _).trans (A_eq0 (V1' m ρ) c 4))
    _ = W0 m ρ c (Proc.devRef .tc main_arg5) := W1_of m ρ c main_arg5 (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := (W4_arr m ρ c 2).trans (((dat1 (V3' m ρ) c).arrAt_in 2 rfl _).trans (A_eq1 (V3' m ρ) c 2))
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := (W4_arr m ρ c 4).trans (((dat1 (V3' m ρ) c).arrAt_in 4 rfl _).trans (A_eq1 (V3' m ρ) c 4))
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := (W6_arr m ρ c 2).trans (((dat2 (V5' m ρ) c).arrAt_in 2 rfl _).trans (A_eq2 (V5' m ρ) c 2))
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := W7_of m ρ c main_arg11 (by decide)
    _ = W5 m ρ c (Proc.devRef .tc main_arg11) := (W6_arr m ρ c 4).trans (((dat2 (V5' m ρ) c).arrAt_in 4 rfl _).trans (A_eq2 (V5' m ρ) c 4))
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := (W8_arr m ρ c 2).trans (((dat3 (V7' m ρ) c).arrAt_in 2 rfl _).trans (A_eq3 (V7' m ρ) c 2))
    _ = W6 m ρ c (Proc.devRef .tc main_arg12) := W7_of m ρ c main_arg12 (by decide)
    _ = W5 m ρ c (Proc.devRef .tc main_arg12) := W6_of_ne m ρ c main_arg12 (by decide)
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := W7_of m ρ c main_arg13 (by decide)
    _ = W5 m ρ c (Proc.devRef .tc main_arg13) := W6_of_ne m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl

end Cert.KernelIdeal.Gen

end
-- ==== Proof.KI.Run.lean ====
/- THE RUN of @main from the launch to the return. Every region is a segment over the thread state "every unscoped
   buffer at the boundary's contents (`W0` … `W8`, the fold of the module this one imports), the generator register
   at some state, nothing owed" (`reg0` … `reg3`); the last region, which carries two scratch buffers from grid point
   to grid point, enters and leaves its invariant through `hin3` / `hout3`. The launch theorem over the eight segments
   gives, at any `F`: every weakly fair execution terminates and every final memory holds each unscoped buffer at `W8`
   (`run_all`) — hence the frame claim (`frame`) and the output array's contents beside it (`run_val`). -/
import proofs.«428637_j38302518345827_1_alg».proof.Proof.Gen.KernelIdeal.Launch
import proofs.«428637_j38302518345827_1_alg».proof.Proof.Gen.KernelIdeal.Skeleton
import proofs.«428637_j38302518345827_1_alg».proof.Proof.Gen.KernelIdeal.Points
import proofs.«428637_j38302518345827_1_alg».proof.Proof.Gen.KernelIdeal.Regions
import proofs.«428637_j38302518345827_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- Every pipeline's proof data, each at its region's entry contents — a literal `match`, so that the launch theorem's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1' m ρ) c
  | ⟨1, _⟩ => fun c => dat1 (V3' m ρ) c
  | ⟨2, _⟩ => fun c => dat2 (V5' m ρ) c
  | ⟨3, _⟩ => fun c => dat3 (V7' m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: its operations run over the unscoped references from the contents `W`, `R` riding
    along (it leaves those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

/-! # The regions as segments -/

-- a library lemma stated over `pin pcs a p` unifies with the pinned configuration only when unification may unfold
-- plain definitions in a metavariable's type
set_option backward.isDefEq.respectTransparency.types false in
/-- REGION 0 (the first layer) over the thread state: entered from every unscoped buffer at `W1`, left at `W2`
    (what the next segment is entered from). Its arrays split out of the unscoped buffers and put back at the exit
    contents; the generator register into the region's invariant and out; nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1' m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1' m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1' m ρ c) (V2' m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 (the second layer) over the thread state: entered from every unscoped buffer at `W3`, left at `W4`
    (what the next segment is entered from). Its arrays split out of the unscoped buffers and put back at the exit
    contents; the generator register into the region's invariant and out; nothing owed; no semaphore of the
    kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3' m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3' m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3' m ρ c) (V4' m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 2 (the third layer) over the thread state: entered from every unscoped buffer at `W5`, left at `W6`
    (what the next segment is entered from). Its arrays split out of the unscoped buffers and put back at the exit
    contents; the generator register into the region's invariant and out; nothing owed; no semaphore of the
    kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5' m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5' m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5' m ρ c) (V6' m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 3 (the pooling head) over the thread state: entered from every unscoped buffer at `W7`, left at `W8`
    (what the launch reads at the end). Its arrays split out of the unscoped buffers and put back at the exit
    contents; the generator register into the region's invariant and out (the invariant at the first point is the
    scoped rest unopened, `hin3`; at the last point the carried scratch buffers fold back into it, `hout3`); nothing owed; no semaphore of the
    kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7' m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7' m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V7' m ρ) c)
    unfold Pipeline.ΦA
    iintro ⟨Hp, -, Hr⟩
    isplitl [Hr]; · iexact Hr
    iexact Hp
  hout c := by
    rw [Pipeline.ownSems0_none]
    refine (hout3 (V7' m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7' m ρ c) (V8' m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's 8 segments in order: a host segment per stretch from its boundary's contents, a region per kernel call. -/
abbrev runSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main IS the run of the segments: @main is the chain of its items (`main_chain`), and the segments' run is the
    chain of their fragments (`Seg.run_eq_chain`), the two lists of fragments equal item by item. -/
theorem main_run (c : Dev nD) : main (F := F) c = Pipeline.Seg.run (runSegs m ρ) := by
  rewrite [main_chain c, Pipeline.Seg.run_eq_chain]
  rfl

-- the launch theorem's implicit arguments are found by unifying its conclusion with this one, which takes unfolding
-- plain definitions in a metavariable's type
set_option backward.isDefEq.respectTransparency.types false in
/-- THE LAUNCH over the segments, at any post `Q` that follows from the last thread state read against the final
    memory: at the compiled mesh, from any memory with zero counters, every weakly fair execution of @main on the
    TensorCores terminates, nothing faulting, and every final memory holds each unscoped buffer at `W8`. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

/-- Every final memory holds each unscoped buffer of every TensorCore at the last boundary's contents `W8`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  run_post m ρ fun _ h => h

/-- THE FRAME, at any `F`: every weakly fair execution of @main terminates, nothing faulting, and every final memory
    has the argument arrays as launched — each argument read off `W8` by `W8_main_argJ`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_post m ρ fun s h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c)⟩

/-- The frame beside the value of the output array `main_v56`: what the last region's write-backs fold to. -/
theorem run_val : θ_run defs (onTc (τ := τ) (main (F := F))) ⟨m, fun _ => 0, ρ⟩ (fun r => ∀ c : Dev nD,
      r.2.mem ((c.tc : Thread nD τ).loc main_v56) = (dat3 (V7' m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_post m ρ fun s h c =>
    ⟨(h c _ (mem_uc main_v56 (by decide))).trans (W8_out m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c)⟩

end Cert.KernelIdeal.Gen

end
-- ==== Proof.KIV.Host.lean ====
/-
  The host stretches of the kernel program, read back as functions of the arrays they read.

  Between its four regions the program's host slices the edge list into sources and destinations, counts the
  in-degree of every node by summing ones along the destinations, takes one over the larger of that count and one,
  and, before each SAGE layer, gathers the rows of the current features at the sources, sums them along the
  destinations and multiplies by the reciprocal column; it also lays each bias out as a one-row matrix and the graph
  ids as a column. Each array a region reads is stated here as one function of what the stretch reads, from any
  contents before the stretch.
-/
import proofs.«428637_j38302518345827_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.KernelIdeal.Val

open Cert.KernelIdeal Cert.KernelIdeal.Gen Idealize.ShloMosaic Idealize.ShloMosaic.ValueIdx

/-! ## The host stretches of the kernel program, as functions of the arrays they read -/

/-- Row 0 of the edge list: the source node of every edge. -/
def srcRaw (ei : IVec S2x600000 32) : IVec S600000 32 :=
  shapeCast S600000 (extractStridedSlice S1x600000 ![0, 0] ei slices_S2x600000_S1x600000_0_0) shapeCasts_S1x600000_S600000

/-- Row 1 of the edge list: the destination node of every edge. -/
def dstRaw (ei : IVec S2x600000 32) : IVec S600000 32 :=
  shapeCast S600000 (extractStridedSlice S1x600000 ![1, 0] ei slices_S2x600000_S1x600000_1_0) shapeCasts_S1x600000_S600000

/-- The in-degree of every node, as a float column: ones summed onto zeros along the destinations. -/
def degCnt (dst : IVec S600000 32) : FVec Ideal S50000x1 .f32 :=
  Host.scatterAdd (F := Ideal) scatter_S50000x1_S600000x1_S600000x1_1_0_0_1
    (broadcastInDim S50000x1 ![] bcast_S_S50000x1 (constant (F := Ideal) S_ .f32 0x00000000#32))
    (broadcastInDim S600000x1 ![0] bcast_S600000_S600000x1_0 dst)
    (broadcastInDim S600000x1 ![] bcast_S_S600000x1 (constant (F := Ideal) S_ .f32 0x3F800000#32))

/-- The in-degree clamped below by one. -/
def degClamp (dst : IVec S600000 32) : FVec Ideal S50000x1 .f32 :=
  maximumf (F := Ideal) (degCnt dst) (broadcastInDim S50000x1 ![] bcast_S_S50000x1 (constant (F := Ideal) S_ .f32 0x3F800000#32))

/-- One over the clamped in-degree, from the destinations. -/
def invDegOf (dst : IVec S600000 32) : FVec Ideal S50000x1 .f32 :=
  Host.divf (F := Ideal) (broadcastInDim S50000x1 ![] bcast_S_S50000x1 (constant (F := Ideal) S_ .f32 0x3F800000#32)) (degClamp dst)

/-- One over the clamped in-degree, from the edge list. -/
def invDeg (ei : IVec S2x600000 32) : FVec Ideal S50000x1 .f32 := invDegOf (dstRaw ei)

/-- A source index read the way the gather reads it: a negative one wraps around once. -/
def srcNorm (src : IVec S600000 32) : IVec S600000 32 :=
  select (cmpi .slt src (broadcastInDim S600000 ![] bcast_S_S600000 (constantI S_ 32 0#32)))
    (addi src (broadcastInDim S600000 ![] bcast_S_S600000 (constantI S_ 32 50000#32))) src

/-- The rows of `h` at the sources, summed onto zeros along the destinations. -/
def aggSum (h : FVec Ideal S50000x128 .f32) (src dst : IVec S600000 32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0 (srcNorm src)))

/-- The aggregation the kernel program's host performs: the scattered sum times the reciprocal column. -/
def aggKfn (h : FVec Ideal S50000x128 .f32) (src dst : IVec S600000 32) (inv : FVec Ideal S50000x1 .f32) :
    FVec Ideal S50000x128 .f32 :=
  mulf (F := Ideal) (aggSum h src dst) (broadcastInDim S50000x128 ![0, 1] bcast_S50000x1_S50000x128_0_1 inv)

/-- A 128-vector as a one-row matrix. -/
def rs (b : FVec Ideal S128 .f32) : FVec Ideal S1x128 .f32 := shapeCast S1x128 b shapeCasts_S128_S1x128

/-- The 4-vector of the head's bias as a one-row matrix. -/
def rs4 (b : FVec Ideal S4 .f32) : FVec Ideal S1x4 .f32 := shapeCast S1x4 b shapeCasts_S4_S1x4

/-- The graph ids as a column. -/
def rsI (bt : IVec S50000 32) : IVec S50000x1 32 := shapeCast S50000x1 bt shapeCasts_S50000_S50000x1

/-! ## What each host stretch leaves in the arrays the regions read, from any contents before it -/

section Stretches

variable (W : Valuation τ sig (Elt Ideal))

theorem host0_v1 :
    StableHlo.after (hostOps0 (F := Ideal)) W (Proc.devRef .tc main_v1) = srcRaw (W (Proc.devRef .tc main_arg1)) := by
  after_results
  rfl

theorem host0_v3 :
    StableHlo.after (hostOps0 (F := Ideal)) W (Proc.devRef .tc main_v3) = dstRaw (W (Proc.devRef .tc main_arg1)) := by
  after_results
  rfl

set_option maxHeartbeats 4000000 in
theorem host0_v11 :
    StableHlo.after (hostOps0 (F := Ideal)) W (Proc.devRef .tc main_v11) = invDeg (W (Proc.devRef .tc main_arg1)) := by
  after_results_simp
  rfl

set_option maxHeartbeats 4000000 in
theorem host0_v23 :
    StableHlo.after (hostOps0 (F := Ideal)) W (Proc.devRef .tc main_v23)
      = aggKfn (W (Proc.devRef .tc main_arg0)) (srcRaw (W (Proc.devRef .tc main_arg1))) (dstRaw (W (Proc.devRef .tc main_arg1)))
          (invDeg (W (Proc.devRef .tc main_arg1))) := by
  after_results_simp
  rfl

theorem host0_v24 :
    StableHlo.after (hostOps0 (F := Ideal)) W (Proc.devRef .tc main_v24) = rs (W (Proc.devRef .tc main_arg4)) := by
  after_results
  rfl

set_option maxHeartbeats 4000000 in
theorem host1_v37 :
    StableHlo.after (hostOps1 (F := Ideal)) W (Proc.devRef .tc main_v37)
      = aggKfn (W (Proc.devRef .tc main_v25)) (W (Proc.devRef .tc main_v1)) (W (Proc.devRef .tc main_v3))
          (W (Proc.devRef .tc main_v11)) := by
  after_results_simp
  rfl

theorem host1_v38 :
    StableHlo.after (hostOps1 (F := Ideal)) W (Proc.devRef .tc main_v38) = rs (W (Proc.devRef .tc main_arg7)) := by
  after_results
  rfl

set_option maxHeartbeats 4000000 in
theorem host2_v51 :
    StableHlo.after (hostOps2 (F := Ideal)) W (Proc.devRef .tc main_v51)
      = aggKfn (W (Proc.devRef .tc main_v39)) (W (Proc.devRef .tc main_v1)) (W (Proc.devRef .tc main_v3))
          (W (Proc.devRef .tc main_v11)) := by
  after_results_simp
  rfl

theorem host2_v52 :
    StableHlo.after (hostOps2 (F := Ideal)) W (Proc.devRef .tc main_v52) = rs (W (Proc.devRef .tc main_arg10)) := by
  after_results
  rfl

theorem host3_v54 :
    StableHlo.after (hostOps3 (F := Ideal)) W (Proc.devRef .tc main_v54) = rsI (W (Proc.devRef .tc main_arg2)) := by
  after_results
  rfl

theorem host3_v55 :
    StableHlo.after (hostOps3 (F := Ideal)) W (Proc.devRef .tc main_v55) = rs4 (W (Proc.devRef .tc main_arg13)) := by
  after_results
  rfl

end Stretches

/-! ## The reshapes read at an index -/

/-- A bias row reads, at `(0, j)`, the bias at `j`. -/
theorem rs_apply (b : FVec Ideal S128 .f32) (j : Fin 128) : rs b (ix2 (0 : Fin 1) j) = b (ix1 j) := by
  unfold rs
  exact shapeCast_a_1a_apply b shapeCasts_S128_S1x128 0 j

/-- The head's bias row reads, at `(0, j)`, the bias at `j`. -/
theorem rs4_apply (b : FVec Ideal S4 .f32) (j : Fin 4) : rs4 b (ix2 (0 : Fin 1) j) = b (ix1 j) := by
  unfold rs4
  exact shapeCast_a_1a_apply b shapeCasts_S4_S1x4 0 j

/-- The graph-id column reads, at `(n, 0)`, the graph id of node `n`. -/
theorem rsI_apply (bt : IVec S50000 32) (n : Fin 50000) : rsI bt (ix2 n (0 : Fin 1)) = bt (ix1 n) := by
  unfold rsI
  refine shapeCast_apply bt shapeCasts_S50000_S50000x1 _ _ ?_
  rw [Shape.rowMajor_val_two, Shape.rowMajor_val_one]
  show n.val = n.val * 1 + 0
  omega

end Cert.KernelIdeal.Val

end
-- ==== Proof.Spec.lean ====
/-
  What the two programs compute, as functions of the argument arrays read index by index on the extended reals.

  One SAGE layer sends the mean-aggregated features `a` and the node features `h` to
  `a · Wlᵀ + h · Wrᵀ + b` (then `max · 0` for the first two layers); the pooling stage sums the rows of each graph
  (a row belongs to graph `g` when its graph id is the word `g`), divides by the number of such rows (at least
  one), and applies the linear head.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float words the programs spell: `0.0` and `1.0` (kept as words; `zero32 = 0` and `one32 = 1` are lemmas). -/
abbrev zero32 : EReal := Ideal.ofBits .f32 0x00000000#32
abbrev one32 : EReal := Ideal.ofBits .f32 0x3F800000#32

abbrev SNxD : Shape := ⟨2, ![50000, 128]⟩
abbrev SNx1 : Shape := ⟨2, ![50000, 1]⟩
abbrev SDxD : Shape := ⟨2, ![128, 128]⟩
abbrev S1xD : Shape := ⟨2, ![1, 128]⟩
abbrev SOxD : Shape := ⟨2, ![4, 128]⟩
abbrev S1xO : Shape := ⟨2, ![1, 4]⟩
abbrev SGxO : Shape := ⟨2, ![64, 4]⟩

/-- One layer's dense transform at node row `r`, output feature `j`: the two matrix products summed first, the
    bias last. -/
def sageAt (a h : SNxD.Idx → EReal) (Wl : SDxD.Idx → EReal) (b : S1xD.Idx → EReal) (Wr : SDxD.Idx → EReal)
    (r : Fin 50000) (j : Fin 128) : EReal :=
  ((∑ k : Fin 128, a (ix2 r k) * Wl (ix2 j k)) + (∑ k : Fin 128, h (ix2 r k) * Wr (ix2 j k))) + b (ix2 0 j)

/-- One layer as a whole array: with or without the rectifier. -/
def sageK (relu : Bool) (a h : SNxD.Idx → EReal) (Wl : SDxD.Idx → EReal) (b : S1xD.Idx → EReal)
    (Wr : SDxD.Idx → EReal) : SNxD.Idx → EReal :=
  fun i => if relu then max (sageAt a h Wl b Wr (i 0) (i 1)) zero32 else sageAt a h Wl b Wr (i 0) (i 1)

/-- Row `n` belongs to graph `g`: its graph id is the word `g`. As a weight, `1` or `0`. -/
def hot (bt : SNx1.Idx → BitVec 32) (n : Fin 50000) (g : Fin 64) : EReal :=
  if bt (ix2 n 0) = BitVec.ofNat 32 g.val then 1 else 0

/-- The sum of feature `d` over the rows of graph `g`. -/
def poolSum (h : SNxD.Idx → EReal) (bt : SNx1.Idx → BitVec 32) (g : Fin 64) (d : Fin 128) : EReal :=
  ∑ n : Fin 50000, hot bt n g * h (ix2 n d)

/-- The number of rows of graph `g`. -/
def poolCnt (bt : SNx1.Idx → BitVec 32) (g : Fin 64) : EReal := ∑ n : Fin 50000, hot bt n g

/-- The pooled mean through the linear head. -/
def poolK (h : SNxD.Idx → EReal) (bt : SNx1.Idx → BitVec 32) (Wlin : SOxD.Idx → EReal) (bl : S1xO.Idx → EReal) :
    SGxO.Idx → EReal :=
  fun i => (∑ d : Fin 128, Ideal.div (poolSum h bt (i 0) d) (max (poolCnt bt (i 0)) one32) * Wlin (ix2 (i 1) d))
    + bl (ix2 0 (i 1))

end Cert.Spec

end
-- ==== Proof.KIV.Out.lean ====
/- THE KERNEL PROGRAM'S RESULT AS A FUNCTION OF ITS FOURTEEN ARGUMENT ARRAYS, on the extended reals: three SAGE layers —
   each the dense transform of the mean-aggregated features and of the node features, the aggregation taken from the
   previous layer's output along the edge list with the inverse in-degrees — then the per-graph mean through the
   linear head. -/
import proofs.«428637_j38302518345827_1_alg».proof.Proof.KIV.Host
import proofs.«428637_j38302518345827_1_alg».proof.Proof.Spec

noncomputable section

namespace Cert.KernelIdeal.Val

open Idealize.ShloMosaic
open Cert.KernelIdeal Cert.KernelIdeal.Gen
open Cert.Spec (sageK poolK)

/-! # The result as a function of the arguments -/

/-- The first layer's output: the rectified dense transform of the aggregated input features and the input features. -/
def lay1 (x : FVec Ideal S50000x128 .f32) (ei : IVec S2x600000 32)
    (Wl1 : FVec Ideal S128x128 .f32) (bl1 : FVec Ideal S128 .f32) (Wr1 : FVec Ideal S128x128 .f32) : FVec Ideal S50000x128 .f32 :=
  sageK true (aggKfn x (srcRaw ei) (dstRaw ei) (invDeg ei)) x Wl1 (rs bl1) Wr1

/-- The second layer's output, from the first's. -/
def lay2 (x : FVec Ideal S50000x128 .f32) (ei : IVec S2x600000 32)
    (Wl1 : FVec Ideal S128x128 .f32) (bl1 : FVec Ideal S128 .f32) (Wr1 : FVec Ideal S128x128 .f32)
    (Wl2 : FVec Ideal S128x128 .f32) (bl2 : FVec Ideal S128 .f32) (Wr2 : FVec Ideal S128x128 .f32) : FVec Ideal S50000x128 .f32 :=
  sageK true (aggKfn (lay1 x ei Wl1 bl1 Wr1) (srcRaw ei) (dstRaw ei) (invDeg ei)) (lay1 x ei Wl1 bl1 Wr1) Wl2 (rs bl2) Wr2

/-- The third layer's output, from the second's: no rectifier. -/
def lay3 (x : FVec Ideal S50000x128 .f32) (ei : IVec S2x600000 32)
    (Wl1 : FVec Ideal S128x128 .f32) (bl1 : FVec Ideal S128 .f32) (Wr1 : FVec Ideal S128x128 .f32)
    (Wl2 : FVec Ideal S128x128 .f32) (bl2 : FVec Ideal S128 .f32) (Wr2 : FVec Ideal S128x128 .f32)
    (Wl3 : FVec Ideal S128x128 .f32) (bl3 : FVec Ideal S128 .f32) (Wr3 : FVec Ideal S128x128 .f32) : FVec Ideal S50000x128 .f32 :=
  sageK false (aggKfn (lay2 x ei Wl1 bl1 Wr1 Wl2 bl2 Wr2) (srcRaw ei) (dstRaw ei) (invDeg ei)) (lay2 x ei Wl1 bl1 Wr1 Wl2 bl2 Wr2) Wl3 (rs bl3) Wr3

/-- The kernel program's result: the per-graph mean of the third layer's output through the linear head. The arguments
    in the program's order: node features, edge list, graph ids, then per layer the neighbour weights, the bias and the
    root weights, then the head's weights and bias. -/
def kernelOut (x : FVec Ideal S50000x128 .f32) (ei : IVec S2x600000 32) (batch : IVec S50000 32)
    (Wl1 : FVec Ideal S128x128 .f32) (bl1 : FVec Ideal S128 .f32) (Wr1 : FVec Ideal S128x128 .f32)
    (Wl2 : FVec Ideal S128x128 .f32) (bl2 : FVec Ideal S128 .f32) (Wr2 : FVec Ideal S128x128 .f32)
    (Wl3 : FVec Ideal S128x128 .f32) (bl3 : FVec Ideal S128 .f32) (Wr3 : FVec Ideal S128x128 .f32)
    (Wlin : FVec Ideal S4x128 .f32) (blin : FVec Ideal S4 .f32) : S64x4.Idx → EReal :=
  poolK (lay3 x ei Wl1 bl1 Wr1 Wl2 bl2 Wr2 Wl3 bl3 Wr3) (rsI batch) Wlin (rs4 blin)

end Cert.KernelIdeal.Val

end
-- ==== Proof.KIV.SagePay.lean ====
/- THE ONE STORE OF A SAGE LAYER'S BODY, READ AT AN INDEX, on the extended reals: at row `p` of the block and output
   feature `q` the stored value is  (∑ₖ a[p,k]·Wl[q,k] + ∑ₖ h[p,k]·Wr[q,k]) + bias[0,q]  (the two weight blocks enter
   transposed, so the contraction runs along their SECOND axis; the narrowings to bf16 are the identity here), and for
   the first two layers its maximum with the word `0.0`. -/
import proofs.«428637_j38302518345827_1_alg».proof.Proof.Gen.KernelIdeal.Skeleton
import proofs.«428637_j38302518345827_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Val

open Cert.KernelIdeal Cert.KernelIdeal.Gen Idealize.ShloMosaic Idealize.ShloMosaic.ValueIdx
open Cert.Spec (zero32)

/-! ## The block product's operand indices -/

/-- The left operand is read in the output's row … -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … at the contraction's coordinate; -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the contraction's coordinate … -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … in the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] × [128,128] block product into the zero accumulator, at `(p, q)`: the sum over the 128 contraction
    positions of row `p` of the left operand against column `q` of the right one. -/
theorem mm_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The layer's dense transform of one block -/

/-- The dense transform of a block of rows: aggregated rows `xa` against `xc`, the rows themselves `xb` against
    `xe` (both weight blocks read transposed), the one bias row `xd` last. -/
def linAt (xa xb : S2000x128.Idx → EReal) (xc : S128x128.Idx → EReal) (xd : S1x128.Idx → EReal) (xe : S128x128.Idx → EReal)
    (p : Fin 2000) (q : Fin 128) : EReal :=
  ((∑ k : Fin 128, xa (ix2 p k) * xc (ix2 q k)) + (∑ k : Fin 128, xb (ix2 p k) * xe (ix2 q k))) + xd (ix2 0 q)

/-- The body's arithmetic before the rectifier, at `(p, q)`: two block products with the transposed weights, added, the
    bias row broadcast over the rows added last. -/
theorem lin_apply (xa xb : Vec Ideal S2000x128 .f32) (xc : Vec Ideal S128x128 .f32) (xd : Vec Ideal S1x128 .f32) (xe : Vec Ideal S128x128 .f32)
    (p : Fin 2000) (q : Fin 128) :
    addf (addf
        (matmul dot_S2000x128_S128x128_S2000x128_1_0_0_1_n_n none (truncf .bf16 xa bitsLt_bf16_f32)
          (transpose S128x128 [1, 0] (truncf .bf16 xc bitsLt_bf16_f32) transposes_S128x128_p1_0_S128x128) (constant (F := Ideal) S2000x128 .f32 0x00000000#32))
        (matmul dot_S2000x128_S128x128_S2000x128_1_0_0_1_n_n none (truncf .bf16 xb bitsLt_bf16_f32)
          (transpose S128x128 [1, 0] (truncf .bf16 xe bitsLt_bf16_f32) transposes_S128x128_p1_0_S128x128) (constant (F := Ideal) S2000x128 .f32 0x00000000#32)))
      (broadcastTo S2000x128 xd broadcasts_S1x128_S2000x128) (ix2 p q) = linAt xa xb xc xd xe p q := by
  rw [addf_apply, addf_apply, mm_apply, mm_apply]
  unfold linAt
  congr 1
  · congr 1
    · exact Finset.sum_congr rfl fun k _ => by rw [transpose_ix2_apply]; rfl
    · exact Finset.sum_congr rfl fun k _ => by rw [transpose_ix2_apply]; rfl
  · exact broadcastTo_1b_ab_apply xd broadcasts_S1x128_S2000x128 p q

/-! ## The three layers' payloads -/

/-- Layer 0's store: the dense transform, rectified. -/
theorem pay0_apply (xa xb : Vec Ideal S2000x128 .f32) (xc xe : Vec Ideal S128x128 .f32) (xd : Vec Ideal S1x128 .f32) (p : Fin 2000) (q : Fin 128) :
    k0_pay1 (F := Ideal) xa xb xc xe xd (ix2 p q) = max (linAt xa xb xc xd xe p q) zero32 := by
  unfold k0_pay1
  simp only [shapeCast_self]
  rw [maximumf_apply, lin_apply]
  rfl

/-- Layer 1's store: the dense transform, rectified. -/
theorem pay1_apply (xa xb : Vec Ideal S2000x128 .f32) (xc xe : Vec Ideal S128x128 .f32) (xd : Vec Ideal S1x128 .f32) (p : Fin 2000) (q : Fin 128) :
    k1_pay1 (F := Ideal) xa xb xc xe xd (ix2 p q) = max (linAt xa xb xc xd xe p q) zero32 := by
  unfold k1_pay1
  simp only [shapeCast_self]
  rw [maximumf_apply, lin_apply]
  rfl

/-- Layer 2's store: the dense transform as it is. -/
theorem pay2_apply (xa xb : Vec Ideal S2000x128 .f32) (xc xe : Vec Ideal S128x128 .f32) (xd : Vec Ideal S1x128 .f32) (p : Fin 2000) (q : Fin 128) :
    k2_pay1 (F := Ideal) xa xb xc xe xd (ix2 p q) = linAt xa xb xc xd xe p q := by
  unfold k2_pay1
  simp only [shapeCast_self]
  exact lin_apply xa xb xc xd xe p q

end Cert.KernelIdeal.Val

end
-- ==== Proof.KIV.Sage0.lean ====
/- THE VALUE OF REGION 0 (a SAGE layer over the 25 row blocks), on the extended reals, at the contents `V` the region is
   entered with: point `t` reads rows [2000t, 2000t + 2000) of the aggregated features and of the node features and the
   whole weight and bias arrays, and writes rows [2000t, 2000t + 2000) of the output, each entry the layer's dense
   transform of its row under the rectifier; the 25 blocks tile the 50000 rows, so the output array ends holding the layer of
   the whole arrays, index by index. -/
import proofs.«428637_j38302518345827_1_alg».proof.Proof.KI.R0
import proofs.«428637_j38302518345827_1_alg».proof.Proof.KIV.SagePay
import proofs.«428637_j38302518345827_1_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (zero32 sageAt sageK)

section Region0
variable (V : (c : Dev nD) → (b : Ref sig .tc) → Buf (Elt Ideal) ((c : Thread nD τ).loc b))

theorem hz0 : (![0, 0] : Fin 2 → Nat) = fun _ => 0 := funext fun a => by fin_cases a <;> rfl

/-- The windows' arrays. -/
theorem arr0_0 : Pipeline.arrRef spec0 0 = main_v23 := rfl
theorem arr0_1 : Pipeline.arrRef spec0 1 = main_arg0 := rfl
theorem arr0_2 : Pipeline.arrRef spec0 2 = main_arg3 := rfl
theorem arr0_3 : Pipeline.arrRef spec0 3 = main_v24 := rfl
theorem arr0_4 : Pipeline.arrRef spec0 4 = main_arg5 := rfl
theorem arr0_5 : Pipeline.arrRef spec0 5 = main_v25 := rfl

/-- The printed index maps, decided over the grid: the two row-blocked inputs and the output are at block row `t`,
    the weights and the bias at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks, read by coordinates -/

/-- Window 0's block at point `t` is rows `2000t …` of the aggregated features. -/
theorem iblk0_0_apply (c : Dev nD) (t : Fin cfg0.N) (p : Fin 2000) (k : Fin 128) (r : Fin 50000) (hr : r.val = 2000 * t.val + p.val) :
    (iblk0 V c 0 t : Vec Ideal S2000x128 .f32) (ix2 p k) = (V c main_v23 : S50000x128.Idx → EReal) (ix2 r k) := by
  obtain ⟨e0, e1, -⟩ := idx_facts0 t
  unfold iblk0
  rw [View.read_apply]
  show V c main_v23 _ = V c main_v23 _
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

/-- Window 1's block at point `t` is rows `2000t …` of the node features. -/
theorem iblk0_1_apply (c : Dev nD) (t : Fin cfg0.N) (p : Fin 2000) (k : Fin 128) (r : Fin 50000) (hr : r.val = 2000 * t.val + p.val) :
    (iblk0 V c 1 t : Vec Ideal S2000x128 .f32) (ix2 p k) = (V c main_arg0 : S50000x128.Idx → EReal) (ix2 r k) := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t 0 * 2000 + 1 * p.val = r.val; rw [e0, hr]; omega
  | ⟨1, _⟩ => show win0_1.index t 1 * 128 + 1 * k.val = k.val; rw [e1]; omega

/-- Window 2's block is the whole left weight array. -/
theorem iblk0_2_apply (c : Dev nD) (t : Fin cfg0.N) (q : Fin 128) (k : Fin 128) :
    (iblk0 V c 2 t : Vec Ideal S128x128 .f32) (ix2 q k) = (V c main_arg3 : S128x128.Idx → EReal) (ix2 q k) := by
  obtain ⟨-, -, -, -, e0, e1, -⟩ := idx_facts0 t
  unfold iblk0
  rw [View.read_apply]
  show V c main_arg3 _ = V c main_arg3 _
  congr 1
  funext a
  apply Fin.ext
  match a with
  | ⟨0, _⟩ => show win0_2.index t 0 * 128 + 1 * q.val = q.val; rw [e0]; omega
  | ⟨1, _⟩ => show win0_2.index t 1 * 128 + 1 * k.val = k.val; rw [e1]; omega

/-- Window 3's block is the whole bias row. -/
theorem iblk0_3_apply (c : Dev nD) (t : Fin cfg0.N) (z : Fin 1) (q : Fin 128) :
    (iblk0 V c 3 t : Vec Ideal S1x128 .f32) (ix2 z q) = (V c main_v24 : S1x128.Idx → EReal) (ix2 z q) := by
  obtain ⟨-, -, -, -, -, -, e0, e1, -⟩ := idx_facts0 t
  unfold iblk0
  rw [View.read_apply]
  show V c main_v24 _ = V c main_v24 _
  congr 1
  funext a
  apply Fin.ext
  match a with
  | ⟨0, _⟩ => show win0_3.index t 0 * 1 + 1 * z.val = z.val; rw [e0]; omega
  | ⟨1, _⟩ => show win0_3.index t 1 * 128 + 1 * q.val = q.val; rw [e1]; omega

/-- Window 4's block is the whole right weight array. -/
theorem iblk0_4_apply (c : Dev nD) (t : Fin cfg0.N) (q : Fin 128) (k : Fin 128) :
    (iblk0 V c 4 t : Vec Ideal S128x128 .f32) (ix2 q k) = (V c main_arg5 : S128x128.Idx → EReal) (ix2 q k) := by
  obtain ⟨-, -, -, -, -, -, -, -, e0, e1, -⟩ := idx_facts0 t
  unfold iblk0
  rw [View.read_apply]
  show V c main_arg5 _ = V c main_arg5 _
  congr 1
  funext a
  apply Fin.ext
  match a with
  | ⟨0, _⟩ => show win0_4.index t 0 * 128 + 1 * q.val = q.val; rw [e0]; omega
  | ⟨1, _⟩ => show win0_4.index t 1 * 128 + 1 * k.val = k.val; rw [e1]; omega

/-- The blocks' dense transform at row `p` of point `t` is the arrays' at row `2000t + p`. -/
theorem lin0_blocks (c : Dev nD) (t : Fin cfg0.N) (p : Fin 2000) (q : Fin 128) (r : Fin 50000) (hr : r.val = 2000 * t.val + p.val) :
    linAt (iblk0 V c 0 t) (iblk0 V c 1 t) (iblk0 V c 2 t) (iblk0 V c 3 t) (iblk0 V c 4 t) p q
      = sageAt (V c main_v23) (V c main_arg0) (V c main_arg3) (V c main_v24) (V c main_arg5) r q := by
  unfold linAt sageAt
  congr 1
  · congr 1
    · exact Finset.sum_congr rfl fun k _ => by rw [iblk0_0_apply V c t p k r hr, iblk0_2_apply V c t q k]
    · exact Finset.sum_congr rfl fun k _ => by rw [iblk0_1_apply V c t p k r hr, iblk0_4_apply V c t q k]
  · exact iblk0_3_apply V c t 0 q

/-! ## What a point writes back -/

/-- WHAT POINT `t` WRITES BACK is block `t` of the layer of the whole arrays as the region finds them. -/
theorem flushed0_eq (c : Dev nD) (t : Fin cfg0.N) :
    (dat0 (F := Ideal) V c).flushed 5 t = ((cfg0.win 5).blk t).view.read (Elt Ideal) (sageK true (V c main_v23) (V c main_arg0) (V c main_arg3) (V c main_v24) (V c main_arg5)) := by
  have hN : t.val < 25 := Nat.lt_of_lt_of_eq t.isLt N_0
  obtain ⟨-, -, -, -, -, -, -, -, -, -, e0, e1⟩ := idx_facts0 t
  show (cfg0.win 5).cut (grid0.coords t) ((dat0 V c).after 5 t) = _
  rw [after0_5]
  unfold out0_5
  rw [View.canon_unit_zero hz0]
  simp only [View.ld_unit_zero (S := S2000x128) hz0, View.ld_unit_zero (S := S128x128) hz0, View.ld_unit_zero (S := S1x128) hz0]
  funext j
  have hj0 : (j 0).val < 2000 := (j 0).isLt
  have hj1 : (j 1).val < 128 := (j 1).isLt
  have hx : (cfg0.win 5).xinj (grid0.coords t) j = ix2 (⟨(j 0).val, hj0⟩ : Fin 2000) (⟨(j 1).val, hj1⟩ : Fin 128) :=
    funext fun a => match a with | ⟨0, _⟩ => rfl | ⟨1, _⟩ => rfl
  have hemb : ((cfg0.win 5).blk t).view.emb j = ix2 (⟨2000 * t.val + (j 0).val, by omega⟩ : Fin 50000) (⟨(j 1).val, hj1⟩ : Fin 128) := by
    funext a
    apply Fin.ext
    match a with
    | ⟨0, _⟩ => show win0_5.index t 0 * 2000 + 1 * (j 0).val = 2000 * t.val + (j 0).val; rw [e0]; omega
    | ⟨1, _⟩ => show win0_5.index t 1 * 128 + 1 * (j 1).val = (j 1).val; rw [e1]; omega
  rw [View.read_apply]
  show k0_pay1 (F := Ideal) (iblk0 V c 0 t) (iblk0 V c 1 t) (iblk0 V c 2 t) (iblk0 V c 4 t) (iblk0 V c 3 t) ((cfg0.win 5).xinj (grid0.coords t) j) = (sageK true (V c main_v23) (V c main_arg0) (V c main_arg3) (V c main_v24) (V c main_arg5)) (((cfg0.win 5).blk t).view.emb j)
  rw [hx]
  refine (pay0_apply _ _ _ _ _ ⟨(j 0).val, hj0⟩ ⟨(j 1).val, hj1⟩).trans ?_
  rw [lin0_blocks V c t ⟨(j 0).val, hj0⟩ ⟨(j 1).val, hj1⟩ ⟨2000 * t.val + (j 0).val, by omega⟩ rfl]
  unfold sageK
  rw [if_pos rfl, hemb]

/-! ## The blocks tile the rows -/

/-- An index of the array is in point `t`'s block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v25).slice (win0_5.rect t)).set ↔ _
  rw [View.set_slice_whole, Rect.mem_set_unit]
  exact Iff.rfl

/-- Row `r` is in the block of point `r / 2000`. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 2000 < cfg0.N := by rw [show cfg0.N = 25 from N_0]; omega
  obtain ⟨-, -, -, -, -, -, -, -, -, -, e0, e1⟩ := idx_facts0 ⟨(i 0).val / 2000, ht⟩
  refine ⟨⟨(i 0).val / 2000, ht⟩, flush0_5 _, ?_⟩
  rw [mem_blk0]
  intro a
  match a with
  | ⟨0, _⟩ => show win0_5.index ⟨(i 0).val / 2000, ht⟩ (0 : Fin 2) * 2000 ≤ (i 0).val ∧ (i 0).val < win0_5.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win0_5.index ⟨(i 0).val / 2000, ht⟩ (1 : Fin 2) * 128 ≤ (i 1).val ∧ (i 1).val < win0_5.index ⟨(i 0).val / 2000, ht⟩ (1 : Fin 2) * 128 + 128; rw [e1]; omega

/-! ## The output array after the region -/

/-- THE OUTPUT ARRAY after region 0: the layer of the arrays the region is entered with, index by index. -/
theorem sage0_val (c : Dev nD) :
    ((dat0 (F := Ideal) V c).arrAt 5 cfg0.N : S50000x128.Idx → EReal) = sageK true (V c main_v23) (V c main_arg0) (V c main_arg3) (V c main_v24) (V c main_arg5) :=
  (dat0 (F := Ideal) V c).arrAt_eq_of_cover 5 (sageK true (V c main_v23) (V c main_arg0) (V c main_arg3) (V c main_v24) (V c main_arg5)) (fun t _ => flushed0_eq V c t) (cover0)

end Region0

end Cert.KernelIdeal.Val

end
-- ==== Proof.KIV.Sage1.lean ====
/- THE VALUE OF REGION 1 (a SAGE layer over the 25 row blocks), on the extended reals, at the contents `V` the region is
   entered with: point `t` reads rows [2000t, 2000t + 2000) of the aggregated features and of the node features and the
   whole weight and bias arrays, and writes rows [2000t, 2000t + 2000) of the output, each entry the layer's dense
   transform of its row under the rectifier; the 25 blocks tile the 50000 rows, so the output array ends holding the layer of
   the whole arrays, index by index. -/
import proofs.«428637_j38302518345827_1_alg».proof.Proof.KI.R1
import proofs.«428637_j38302518345827_1_alg».proof.Proof.KIV.SagePay
import proofs.«428637_j38302518345827_1_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (zero32 sageAt sageK)

section Region1
variable (V : (c : Dev nD) → (b : Ref sig .tc) → Buf (Elt Ideal) ((c : Thread nD τ).loc b))

theorem hz1 : (![0, 0] : Fin 2 → Nat) = fun _ => 0 := funext fun a => by fin_cases a <;> rfl

/-- The windows' arrays. -/
theorem arr1_0 : Pipeline.arrRef spec1 0 = main_v37 := rfl
theorem arr1_1 : Pipeline.arrRef spec1 1 = main_v25 := rfl
theorem arr1_2 : Pipeline.arrRef spec1 2 = main_arg6 := rfl
theorem arr1_3 : Pipeline.arrRef spec1 3 = main_v38 := rfl
theorem arr1_4 : Pipeline.arrRef spec1 4 = main_arg8 := rfl
theorem arr1_5 : Pipeline.arrRef spec1 5 = main_v39 := rfl

/-- The printed index maps, decided over the grid: the two row-blocked inputs and the output are at block row `t`,
    the weights and the bias at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The input blocks, read by coordinates -/

/-- Window 0's block at point `t` is rows `2000t …` of the aggregated features. -/
theorem iblk1_0_apply (c : Dev nD) (t : Fin cfg1.N) (p : Fin 2000) (k : Fin 128) (r : Fin 50000) (hr : r.val = 2000 * t.val + p.val) :
    (iblk1 V c 0 t : Vec Ideal S2000x128 .f32) (ix2 p k) = (V c main_v37 : S50000x128.Idx → EReal) (ix2 r k) := by
  obtain ⟨e0, e1, -⟩ := idx_facts1 t
  unfold iblk1
  rw [View.read_apply]
  show V c main_v37 _ = V c main_v37 _
  congr 1
  funext a
  apply Fin.ext
  match a with
  | ⟨0, _⟩ => show win1_0.index t 0 * 2000 + 1 * p.val = r.val; rw [e0, hr]; omega
  | ⟨1, _⟩ => show win1_0.index t 1 * 128 + 1 * k.val = k.val; rw [e1]; omega

/-- Window 1's block at point `t` is rows `2000t …` of the node features. -/
theorem iblk1_1_apply (c : Dev nD) (t : Fin cfg1.N) (p : Fin 2000) (k : Fin 128) (r : Fin 50000) (hr : r.val = 2000 * t.val + p.val) :
    (iblk1 V c 1 t : Vec Ideal S2000x128 .f32) (ix2 p k) = (V c main_v25 : S50000x128.Idx → EReal) (ix2 r k) := by
  obtain ⟨-, -, e0, e1, -⟩ := idx_facts1 t
  unfold iblk1
  rw [View.read_apply]
  show V c main_v25 _ = V c main_v25 _
  congr 1
  funext a
  apply Fin.ext
  match a with
  | ⟨0, _⟩ => show win1_1.index t 0 * 2000 + 1 * p.val = r.val; rw [e0, hr]; omega
  | ⟨1, _⟩ => show win1_1.index t 1 * 128 + 1 * k.val = k.val; rw [e1]; omega

/-- Window 2's block is the whole left weight array. -/
theorem iblk1_2_apply (c : Dev nD) (t : Fin cfg1.N) (q : Fin 128) (k : Fin 128) :
    (iblk1 V c 2 t : Vec Ideal S128x128 .f32) (ix2 q k) = (V c main_arg6 : S128x128.Idx → EReal) (ix2 q k) := by
  obtain ⟨-, -, -, -, e0, e1, -⟩ := idx_facts1 t
  unfold iblk1
  rw [View.read_apply]
  show V c main_arg6 _ = V c main_arg6 _
  congr 1
  funext a
  apply Fin.ext
  match a with
  | ⟨0, _⟩ => show win1_2.index t 0 * 128 + 1 * q.val = q.val; rw [e0]; omega
  | ⟨1, _⟩ => show win1_2.index t 1 * 128 + 1 * k.val = k.val; rw [e1]; omega

/-- Window 3's block is the whole bias row. -/
theorem iblk1_3_apply (c : Dev nD) (t : Fin cfg1.N) (z : Fin 1) (q : Fin 128) :
    (iblk1 V c 3 t : Vec Ideal S1x128 .f32) (ix2 z q) = (V c main_v38 : S1x128.Idx → EReal) (ix2 z q) := by
  obtain ⟨-, -, -, -, -, -, e0, e1, -⟩ := idx_facts1 t
  unfold iblk1
  rw [View.read_apply]
  show V c main_v38 _ = V c main_v38 _
  congr 1
  funext a
  apply Fin.ext
  match a with
  | ⟨0, _⟩ => show win1_3.index t 0 * 1 + 1 * z.val = z.val; rw [e0]; omega
  | ⟨1, _⟩ => show win1_3.index t 1 * 128 + 1 * q.val = q.val; rw [e1]; omega

/-- Window 4's block is the whole right weight array. -/
theorem iblk1_4_apply (c : Dev nD) (t : Fin cfg1.N) (q : Fin 128) (k : Fin 128) :
    (iblk1 V c 4 t : Vec Ideal S128x128 .f32) (ix2 q k) = (V c main_arg8 : S128x128.Idx → EReal) (ix2 q k) := by
  obtain ⟨-, -, -, -, -, -, -, -, e0, e1, -⟩ := idx_facts1 t
  unfold iblk1
  rw [View.read_apply]
  show V c main_arg8 _ = V c main_arg8 _
  congr 1
  funext a
  apply Fin.ext
  match a with
  | ⟨0, _⟩ => show win1_4.index t 0 * 128 + 1 * q.val = q.val; rw [e0]; omega
  | ⟨1, _⟩ => show win1_4.index t 1 * 128 + 1 * k.val = k.val; rw [e1]; omega

/-- The blocks' dense transform at row `p` of point `t` is the arrays' at row `2000t + p`. -/
theorem lin1_blocks (c : Dev nD) (t : Fin cfg1.N) (p : Fin 2000) (q : Fin 128) (r : Fin 50000) (hr : r.val = 2000 * t.val + p.val) :
    linAt (iblk1 V c 0 t) (iblk1 V c 1 t) (iblk1 V c 2 t) (iblk1 V c 3 t) (iblk1 V c 4 t) p q
      = sageAt (V c main_v37) (V c main_v25) (V c main_arg6) (V c main_v38) (V c main_arg8) r q := by
  unfold linAt sageAt
  congr 1
  · congr 1
    · exact Finset.sum_congr rfl fun k _ => by rw [iblk1_0_apply V c t p k r hr, iblk1_2_apply V c t q k]
    · exact Finset.sum_congr rfl fun k _ => by rw [iblk1_1_apply V c t p k r hr, iblk1_4_apply V c t q k]
  · exact iblk1_3_apply V c t 0 q

/-! ## What a point writes back -/

/-- WHAT POINT `t` WRITES BACK is block `t` of the layer of the whole arrays as the region finds them. -/
theorem flushed1_eq (c : Dev nD) (t : Fin cfg1.N) :
    (dat1 (F := Ideal) V c).flushed 5 t = ((cfg1.win 5).blk t).view.read (Elt Ideal) (sageK true (V c main_v37) (V c main_v25) (V c main_arg6) (V c main_v38) (V c main_arg8)) := by
  have hN : t.val < 25 := Nat.lt_of_lt_of_eq t.isLt N_1
  obtain ⟨-, -, -, -, -, -, -, -, -, -, e0, e1⟩ := idx_facts1 t
  show (cfg1.win 5).cut (grid1.coords t) ((dat1 V c).after 5 t) = _
  rw [after1_5]
  unfold out1_5
  rw [View.canon_unit_zero hz1]
  simp only [View.ld_unit_zero (S := S2000x128) hz1, View.ld_unit_zero (S := S128x128) hz1, View.ld_unit_zero (S := S1x128) hz1]
  funext j
  have hj0 : (j 0).val < 2000 := (j 0).isLt
  have hj1 : (j 1).val < 128 := (j 1).isLt
  have hx : (cfg1.win 5).xinj (grid1.coords t) j = ix2 (⟨(j 0).val, hj0⟩ : Fin 2000) (⟨(j 1).val, hj1⟩ : Fin 128) :=
    funext fun a => match a with | ⟨0, _⟩ => rfl | ⟨1, _⟩ => rfl
  have hemb : ((cfg1.win 5).blk t).view.emb j = ix2 (⟨2000 * t.val + (j 0).val, by omega⟩ : Fin 50000) (⟨(j 1).val, hj1⟩ : Fin 128) := by
    funext a
    apply Fin.ext
    match a with
    | ⟨0, _⟩ => show win1_5.index t 0 * 2000 + 1 * (j 0).val = 2000 * t.val + (j 0).val; rw [e0]; omega
    | ⟨1, _⟩ => show win1_5.index t 1 * 128 + 1 * (j 1).val = (j 1).val; rw [e1]; omega
  rw [View.read_apply]
  show k1_pay1 (F := Ideal) (iblk1 V c 0 t) (iblk1 V c 1 t) (iblk1 V c 2 t) (iblk1 V c 4 t) (iblk1 V c 3 t) ((cfg1.win 5).xinj (grid1.coords t) j) = (sageK true (V c main_v37) (V c main_v25) (V c main_arg6) (V c main_v38) (V c main_arg8)) (((cfg1.win 5).blk t).view.emb j)
  rw [hx]
  refine (pay1_apply _ _ _ _ _ ⟨(j 0).val, hj0⟩ ⟨(j 1).val, hj1⟩).trans ?_
  rw [lin1_blocks V c t ⟨(j 0).val, hj0⟩ ⟨(j 1).val, hj1⟩ ⟨2000 * t.val + (j 0).val, by omega⟩ rfl]
  unfold sageK
  rw [if_pos rfl, hemb]

/-! ## The blocks tile the rows -/

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v39).slice (win1_5.rect t)).set ↔ _
  rw [View.set_slice_whole, Rect.mem_set_unit]
  exact Iff.rfl

/-- Row `r` is in the block of point `r / 2000`. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < cfg1.N := by rw [show cfg1.N = 25 from N_1]; omega
  obtain ⟨-, -, -, -, -, -, -, -, -, -, e0, e1⟩ := idx_facts1 ⟨(i 0).val / 2000, ht⟩
  refine ⟨⟨(i 0).val / 2000, ht⟩, flush1_5 _, ?_⟩
  rw [mem_blk1]
  intro a
  match a with
  | ⟨0, _⟩ => show win1_5.index ⟨(i 0).val / 2000, ht⟩ (0 : Fin 2) * 2000 ≤ (i 0).val ∧ (i 0).val < win1_5.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win1_5.index ⟨(i 0).val / 2000, ht⟩ (1 : Fin 2) * 128 ≤ (i 1).val ∧ (i 1).val < win1_5.index ⟨(i 0).val / 2000, ht⟩ (1 : Fin 2) * 128 + 128; rw [e1]; omega

/-! ## The output array after the region -/

/-- THE OUTPUT ARRAY after region 1: the layer of the arrays the region is entered with, index by index. -/
theorem sage1_val (c : Dev nD) :
    ((dat1 (F := Ideal) V c).arrAt 5 cfg1.N : S50000x128.Idx → EReal) = sageK true (V c main_v37) (V c main_v25) (V c main_arg6) (V c main_v38) (V c main_arg8) :=
  (dat1 (F := Ideal) V c).arrAt_eq_of_cover 5 (sageK true (V c main_v37) (V c main_v25) (V c main_arg6) (V c main_v38) (V c main_arg8)) (fun t _ => flushed1_eq V c t) (cover1)

end Region1

end Cert.KernelIdeal.Val

end
-- ==== Proof.KIV.Sage2.lean ====
/- THE VALUE OF REGION 2 (a SAGE layer over the 25 row blocks), on the extended reals, at the contents `V` the region is
   entered with: point `t` reads rows [2000t, 2000t + 2000) of the aggregated features and of the node features and the
   whole weight and bias arrays, and writes rows [2000t, 2000t + 2000) of the output, each entry the layer's dense
   transform of its row; the 25 blocks tile the 50000 rows, so the output array ends holding the layer of
   the whole arrays, index by index. -/
import proofs.«428637_j38302518345827_1_alg».proof.Proof.KI.R2
import proofs.«428637_j38302518345827_1_alg».proof.Proof.KIV.SagePay
import proofs.«428637_j38302518345827_1_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (zero32 sageAt sageK)

section Region2
variable (V : (c : Dev nD) → (b : Ref sig .tc) → Buf (Elt Ideal) ((c : Thread nD τ).loc b))

theorem hz2 : (![0, 0] : Fin 2 → Nat) = fun _ => 0 := funext fun a => by fin_cases a <;> rfl

/-- The windows' arrays. -/
theorem arr2_0 : Pipeline.arrRef spec2 0 = main_v51 := rfl
theorem arr2_1 : Pipeline.arrRef spec2 1 = main_v39 := rfl
theorem arr2_2 : Pipeline.arrRef spec2 2 = main_arg9 := rfl
theorem arr2_3 : Pipeline.arrRef spec2 3 = main_v52 := rfl
theorem arr2_4 : Pipeline.arrRef spec2 4 = main_arg11 := rfl
theorem arr2_5 : Pipeline.arrRef spec2 5 = main_v53 := rfl

/-- The printed index maps, decided over the grid: the two row-blocked inputs and the output are at block row `t`,
    the weights and the bias at their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## The input blocks, read by coordinates -/

/-- Window 0's block at point `t` is rows `2000t …` of the aggregated features. -/
theorem iblk2_0_apply (c : Dev nD) (t : Fin cfg2.N) (p : Fin 2000) (k : Fin 128) (r : Fin 50000) (hr : r.val = 2000 * t.val + p.val) :
    (iblk2 V c 0 t : Vec Ideal S2000x128 .f32) (ix2 p k) = (V c main_v51 : S50000x128.Idx → EReal) (ix2 r k) := by
  obtain ⟨e0, e1, -⟩ := idx_facts2 t
  unfold iblk2
  rw [View.read_apply]
  show V c main_v51 _ = V c main_v51 _
  congr 1
  funext a
  apply Fin.ext
  match a with
  | ⟨0, _⟩ => show win2_0.index t 0 * 2000 + 1 * p.val = r.val; rw [e0, hr]; omega
  | ⟨1, _⟩ => show win2_0.index t 1 * 128 + 1 * k.val = k.val; rw [e1]; omega

/-- Window 1's block at point `t` is rows `2000t …` of the node features. -/
theorem iblk2_1_apply (c : Dev nD) (t : Fin cfg2.N) (p : Fin 2000) (k : Fin 128) (r : Fin 50000) (hr : r.val = 2000 * t.val + p.val) :
    (iblk2 V c 1 t : Vec Ideal S2000x128 .f32) (ix2 p k) = (V c main_v39 : S50000x128.Idx → EReal) (ix2 r k) := by
  obtain ⟨-, -, e0, e1, -⟩ := idx_facts2 t
  unfold iblk2
  rw [View.read_apply]
  show V c main_v39 _ = V c main_v39 _
  congr 1
  funext a
  apply Fin.ext
  match a with
  | ⟨0, _⟩ => show win2_1.index t 0 * 2000 + 1 * p.val = r.val; rw [e0, hr]; omega
  | ⟨1, _⟩ => show win2_1.index t 1 * 128 + 1 * k.val = k.val; rw [e1]; omega

/-- Window 2's block is the whole left weight array. -/
theorem iblk2_2_apply (c : Dev nD) (t : Fin cfg2.N) (q : Fin 128) (k : Fin 128) :
    (iblk2 V c 2 t : Vec Ideal S128x128 .f32) (ix2 q k) = (V c main_arg9 : S128x128.Idx → EReal) (ix2 q k) := by
  obtain ⟨-, -, -, -, e0, e1, -⟩ := idx_facts2 t
  unfold iblk2
  rw [View.read_apply]
  show V c main_arg9 _ = V c main_arg9 _
  congr 1
  funext a
  apply Fin.ext
  match a with
  | ⟨0, _⟩ => show win2_2.index t 0 * 128 + 1 * q.val = q.val; rw [e0]; omega
  | ⟨1, _⟩ => show win2_2.index t 1 * 128 + 1 * k.val = k.val; rw [e1]; omega

/-- Window 3's block is the whole bias row. -/
theorem iblk2_3_apply (c : Dev nD) (t : Fin cfg2.N) (z : Fin 1) (q : Fin 128) :
    (iblk2 V c 3 t : Vec Ideal S1x128 .f32) (ix2 z q) = (V c main_v52 : S1x128.Idx → EReal) (ix2 z q) := by
  obtain ⟨-, -, -, -, -, -, e0, e1, -⟩ := idx_facts2 t
  unfold iblk2
  rw [View.read_apply]
  show V c main_v52 _ = V c main_v52 _
  congr 1
  funext a
  apply Fin.ext
  match a with
  | ⟨0, _⟩ => show win2_3.index t 0 * 1 + 1 * z.val = z.val; rw [e0]; omega
  | ⟨1, _⟩ => show win2_3.index t 1 * 128 + 1 * q.val = q.val; rw [e1]; omega

/-- Window 4's block is the whole right weight array. -/
theorem iblk2_4_apply (c : Dev nD) (t : Fin cfg2.N) (q : Fin 128) (k : Fin 128) :
    (iblk2 V c 4 t : Vec Ideal S128x128 .f32) (ix2 q k) = (V c main_arg11 : S128x128.Idx → EReal) (ix2 q k) := by
  obtain ⟨-, -, -, -, -, -, -, -, e0, e1, -⟩ := idx_facts2 t
  unfold iblk2
  rw [View.read_apply]
  show V c main_arg11 _ = V c main_arg11 _
  congr 1
  funext a
  apply Fin.ext
  match a with
  | ⟨0, _⟩ => show win2_4.index t 0 * 128 + 1 * q.val = q.val; rw [e0]; omega
  | ⟨1, _⟩ => show win2_4.index t 1 * 128 + 1 * k.val = k.val; rw [e1]; omega

/-- The blocks' dense transform at row `p` of point `t` is the arrays' at row `2000t + p`. -/
theorem lin2_blocks (c : Dev nD) (t : Fin cfg2.N) (p : Fin 2000) (q : Fin 128) (r : Fin 50000) (hr : r.val = 2000 * t.val + p.val) :
    linAt (iblk2 V c 0 t) (iblk2 V c 1 t) (iblk2 V c 2 t) (iblk2 V c 3 t) (iblk2 V c 4 t) p q
      = sageAt (V c main_v51) (V c main_v39) (V c main_arg9) (V c main_v52) (V c main_arg11) r q := by
  unfold linAt sageAt
  congr 1
  · congr 1
    · exact Finset.sum_congr rfl fun k _ => by rw [iblk2_0_apply V c t p k r hr, iblk2_2_apply V c t q k]
    · exact Finset.sum_congr rfl fun k _ => by rw [iblk2_1_apply V c t p k r hr, iblk2_4_apply V c t q k]
  · exact iblk2_3_apply V c t 0 q

/-! ## What a point writes back -/

/-- WHAT POINT `t` WRITES BACK is block `t` of the layer of the whole arrays as the region finds them. -/
theorem flushed2_eq (c : Dev nD) (t : Fin cfg2.N) :
    (dat2 (F := Ideal) V c).flushed 5 t = ((cfg2.win 5).blk t).view.read (Elt Ideal) (sageK false (V c main_v51) (V c main_v39) (V c main_arg9) (V c main_v52) (V c main_arg11)) := by
  have hN : t.val < 25 := Nat.lt_of_lt_of_eq t.isLt N_2
  obtain ⟨-, -, -, -, -, -, -, -, -, -, e0, e1⟩ := idx_facts2 t
  show (cfg2.win 5).cut (grid2.coords t) ((dat2 V c).after 5 t) = _
  rw [after2_5]
  unfold out2_5
  rw [View.canon_unit_zero hz2]
  simp only [View.ld_unit_zero (S := S2000x128) hz2, View.ld_unit_zero (S := S128x128) hz2, View.ld_unit_zero (S := S1x128) hz2]
  funext j
  have hj0 : (j 0).val < 2000 := (j 0).isLt
  have hj1 : (j 1).val < 128 := (j 1).isLt
  have hx : (cfg2.win 5).xinj (grid2.coords t) j = ix2 (⟨(j 0).val, hj0⟩ : Fin 2000) (⟨(j 1).val, hj1⟩ : Fin 128) :=
    funext fun a => match a with | ⟨0, _⟩ => rfl | ⟨1, _⟩ => rfl
  have hemb : ((cfg2.win 5).blk t).view.emb j = ix2 (⟨2000 * t.val + (j 0).val, by omega⟩ : Fin 50000) (⟨(j 1).val, hj1⟩ : Fin 128) := by
    funext a
    apply Fin.ext
    match a with
    | ⟨0, _⟩ => show win2_5.index t 0 * 2000 + 1 * (j 0).val = 2000 * t.val + (j 0).val; rw [e0]; omega
    | ⟨1, _⟩ => show win2_5.index t 1 * 128 + 1 * (j 1).val = (j 1).val; rw [e1]; omega
  rw [View.read_apply]
  show k2_pay1 (F := Ideal) (iblk2 V c 0 t) (iblk2 V c 1 t) (iblk2 V c 2 t) (iblk2 V c 4 t) (iblk2 V c 3 t) ((cfg2.win 5).xinj (grid2.coords t) j) = (sageK false (V c main_v51) (V c main_v39) (V c main_arg9) (V c main_v52) (V c main_arg11)) (((cfg2.win 5).blk t).view.emb j)
  rw [hx]
  refine (pay2_apply _ _ _ _ _ ⟨(j 0).val, hj0⟩ ⟨(j 1).val, hj1⟩).trans ?_
  rw [lin2_blocks V c t ⟨(j 0).val, hj0⟩ ⟨(j 1).val, hj1⟩ ⟨2000 * t.val + (j 0).val, by omega⟩ rfl]
  unfold sageK
  rw [if_neg Bool.false_ne_true, hemb]

/-! ## The blocks tile the rows -/

/-- An index of the array is in point `t`'s block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v53).slice (win2_5.rect t)).set ↔ _
  rw [View.set_slice_whole, Rect.mem_set_unit]
  exact Iff.rfl

/-- Row `r` is in the block of point `r / 2000`. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have ht : (i 0).val / 2000 < cfg2.N := by rw [show cfg2.N = 25 from N_2]; omega
  obtain ⟨-, -, -, -, -, -, -, -, -, -, e0, e1⟩ := idx_facts2 ⟨(i 0).val / 2000, ht⟩
  refine ⟨⟨(i 0).val / 2000, ht⟩, flush2_5 _, ?_⟩
  rw [mem_blk2]
  intro a
  match a with
  | ⟨0, _⟩ => show win2_5.index ⟨(i 0).val / 2000, ht⟩ (0 : Fin 2) * 2000 ≤ (i 0).val ∧ (i 0).val < win2_5.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win2_5.index ⟨(i 0).val / 2000, ht⟩ (1 : Fin 2) * 128 ≤ (i 1).val ∧ (i 1).val < win2_5.index ⟨(i 0).val / 2000, ht⟩ (1 : Fin 2) * 128 + 128; rw [e1]; omega

/-! ## The output array after the region -/

/-- THE OUTPUT ARRAY after region 2: the layer of the arrays the region is entered with, index by index. -/
theorem sage2_val (c : Dev nD) :
    ((dat2 (F := Ideal) V c).arrAt 5 cfg2.N : S50000x128.Idx → EReal) = sageK false (V c main_v51) (V c main_v39) (V c main_arg9) (V c main_v52) (V c main_arg11) :=
  (dat2 (F := Ideal) V c).arrAt_eq_of_cover 5 (sageK false (V c main_v51) (V c main_v39) (V c main_arg9) (V c main_v52) (V c main_arg11)) (fun t _ => flushed2_eq V c t) (cover2)

end Region2

end Cert.KernelIdeal.Val

end
-- ==== Proof.KIV.Pool.lean ====
/- The pooling region's result array: what the kernel stores at its last grid point (the per-graph feature sums
   divided by the clamped node counts, projected by the head's weights and shifted by its bias) read index by
   index, and the 64x4 result array after its one write-back. -/
import proofs.«428637_j38302518345827_1_alg».proof.Proof.KI.R3
import proofs.«428637_j38302518345827_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! ## The head's matrix product at an index -/

/-- Output row g reads the left operand's row g; -/
theorem lhs_head_0 (i : S64x4.Idx) (q : dot_S64x128_S128x4_S64x4_1_0_0_1_n_n.contr.Idx) :
    (dot_S64x128_S128x4_S64x4_1_0_0_1_n_n.lhsIdx i q 0).val = (i 0).val := by
  unfold DotDims.lhsIdx
  rw [dif_neg (show ¬(0 : Fin S64x128.rank) ∈ dot_S64x128_S128x4_S64x4_1_0_0_1_n_n.lhsBatch by decide), dif_pos (show (0 : Fin S64x128.rank) ∈ dot_S64x128_S128x4_S64x4_1_0_0_1_n_n.lhsNonContracting by decide)]
  rfl
/-- the left operand's column is the contraction coordinate; -/
theorem lhs_head_1 (i : S64x4.Idx) (q : dot_S64x128_S128x4_S64x4_1_0_0_1_n_n.contr.Idx) :
    (dot_S64x128_S128x4_S64x4_1_0_0_1_n_n.lhsIdx i q 1).val = (q ⟨0, by decide⟩).val :=
  dot_S64x128_S128x4_S64x4_1_0_0_1_n_n.lhsIdx_val_of_single rfl i q
/-- so is the right operand's row; -/
theorem rhs_head_0 (i : S64x4.Idx) (q : dot_S64x128_S128x4_S64x4_1_0_0_1_n_n.contr.Idx) :
    (dot_S64x128_S128x4_S64x4_1_0_0_1_n_n.rhsIdx i q 0).val = (q ⟨0, by decide⟩).val :=
  dot_S64x128_S128x4_S64x4_1_0_0_1_n_n.rhsIdx_val_of_single rfl i q
/-- and output column o reads the right operand's column o. -/
theorem rhs_head_1 (i : S64x4.Idx) (q : dot_S64x128_S128x4_S64x4_1_0_0_1_n_n.contr.Idx) :
    (dot_S64x128_S128x4_S64x4_1_0_0_1_n_n.rhsIdx i q 1).val = (i 1).val := by
  unfold DotDims.rhsIdx
  rw [dif_neg (show ¬(1 : Fin S128x4.rank) ∈ dot_S64x128_S128x4_S64x4_1_0_0_1_n_n.rhsBatch by decide), dif_pos (show (1 : Fin S128x4.rank) ∈ dot_S64x128_S128x4_S64x4_1_0_0_1_n_n.rhsNonContracting by decide)]
  rfl

/-- The 64x128 by 128x4 product into the zero accumulator, at (g, o): the sum over the 128 features. -/
theorem head_matmul_apply (x : FVec Ideal S64x128 .f32) (y : FVec Ideal S128x4 .f32) (g : Fin 64) (o : Fin 4) :
    matmul dot_S64x128_S128x4_S64x4_1_0_0_1_n_n none x y (constant (F := Ideal) S64x4 .f32 0x00000000#32) (ix2 g o)
      = ∑ d : Fin 128, x (ix2 g d) * y (ix2 d o) := by
  simp only [matmul]
  rw [Ideal.matmul_constant_zero_apply, ← Equiv.sum_comp (ValueIdx.contrEquiv1 dot_S64x128_S128x4_S64x4_1_0_0_1_n_n 128 rfl rfl).symm]
  refine Finset.sum_congr rfl fun k _ => ?_
  have hk := ValueIdx.contrEquiv1_symm_val dot_S64x128_S128x4_S64x4_1_0_0_1_n_n 128 rfl rfl k
  have el : dot_S64x128_S128x4_S64x4_1_0_0_1_n_n.lhsIdx (ix2 g o) ((ValueIdx.contrEquiv1 dot_S64x128_S128x4_S64x4_1_0_0_1_n_n 128 rfl rfl).symm k) = ix2 g k := funext fun a => Fin.ext (by
    match a with
    | ⟨0, _⟩ => exact lhs_head_0 _ _
    | ⟨1, _⟩ => exact (lhs_head_1 _ _).trans hk)
  have er : dot_S64x128_S128x4_S64x4_1_0_0_1_n_n.rhsIdx (ix2 g o) ((ValueIdx.contrEquiv1 dot_S64x128_S128x4_S64x4_1_0_0_1_n_n 128 rfl rfl).symm k) = ix2 k o := funext fun a => Fin.ext (by
    match a with
    | ⟨0, _⟩ => exact (rhs_head_0 _ _).trans hk
    | ⟨1, _⟩ => exact rhs_head_1 _ _)
  rw [el, er]

/-! ## What the last point stores, at an index -/

/-- A 64x1 column broadcast along the features reads, at (g, d), the column at (g, 0). -/
theorem bcast_col_apply (v : Vec Ideal S64x1 .f32) (g : Fin 64) (d : Fin 128) :
    broadcastTo S64x128 v broadcasts_S64x1_S64x128 (ix2 g d) = v (ix2 g (0 : Fin 1)) := by
  refine broadcastTo_apply v broadcasts_S64x1_S64x128 (ix2 g d) (ix2 g (0 : Fin 1)) fun ax => ?_
  match ax with
  | ⟨0, _⟩ => rfl
  | ⟨1, _⟩ => rfl

/-- The stored block at (g, o): the mean features of graph g (sums over the clamped count) against row o of the
    head's weights, plus the bias at o. -/
theorem pay6_apply (S : Vec Ideal S64x128 .f32) (C : Vec Ideal S64x1 .f32) (Wl : Vec Ideal S4x128 .f32)
    (bl : Vec Ideal S1x4 .f32) (g : Fin 64) (o : Fin 4) :
    k3_pay6 S C Wl bl (ix2 g o)
      = (∑ d : Fin 128, Ideal.div (S (ix2 g d)) (max (C (ix2 g (0 : Fin 1))) Cert.Spec.one32) * Wl (ix2 o d))
        + bl (ix2 (0 : Fin 1) o) := by
  unfold k3_pay6
  rw [addf_apply, head_matmul_apply, broadcastTo_1b_ab_apply, shapeCast_self]
  refine congrArg (· + bl (ix2 (0 : Fin 1) o)) (Finset.sum_congr rfl fun d _ => ?_)
  rw [divf_apply, bcast_col_apply, maximumf_apply, broadcast_apply, transpose_ix2_apply]
  rfl

/-! ## The result array after the region -/

section Array
-- the TensorCore's buffer contents when the region is entered
variable (V : (c : Dev nD) → (b : Ref sig .tc) → Buf (Elt Ideal) ((c : Thread nD τ).loc b))

/-- The last grid point, the only one whose output block is written back. -/
abbrev tLast : Fin cfg3.N := ⟨24, by rw [show cfg3.N = 25 from N_3]; decide⟩

/-- The head's weights are one block, the whole 4x128 array, at every point. -/
theorem iblk3_2_eq (c : Dev nD) (t : Fin cfg3.N) :
    (iblk3 (F := Ideal) V c 2 t : Vec Ideal S4x128 .f32) = V c main_arg12 := by
  unfold iblk3
  have hz' : (fun a => win3_2.index t a * main_arg12.ty.shape.size a) = fun _ => 0 := funext fun a => by fin_cases a <;> rfl
  exact Memref.read_access_unit_zero (Elt Ideal) main_arg12 hz' (fun a => by rw [congrFun hz' a]; simp) (V c main_arg12)

/-- So is the head's bias, the whole 1x4 array. -/
theorem iblk3_3_eq (c : Dev nD) (t : Fin cfg3.N) :
    (iblk3 (F := Ideal) V c 3 t : Vec Ideal S1x4 .f32) = V c main_v55 := by
  unfold iblk3
  have hz' : (fun a => win3_3.index t a * main_v55.ty.shape.size a) = fun _ => 0 := funext fun a => by fin_cases a <;> rfl
  exact Memref.read_access_unit_zero (Elt Ideal) main_v55 hz' (fun a => by rw [congrFun hz' a]; simp) (V c main_v55)

/-- What the last point stores is the pooled mean through the head: the carried sums and counts are by then the whole
    sums and counts of each graph. -/
theorem outAt3_last (c : Dev nD)
    (hS : ∀ h24 g d, (sumAt3 (F := Ideal) V c 24 h24) (ix2 g d) = Cert.Spec.poolSum (V c main_v53) (V c main_v54) g d)
    (hC : ∀ h24 g, (cntAt3 (F := Ideal) V c 24 h24) (ix2 g 0) = Cert.Spec.poolCnt (V c main_v54) g)
    (h : 24 < cfg3.N) :
    outAt3 (F := Ideal) V c 24 h = Cert.Spec.poolK (V c main_v53) (V c main_v54) (V c main_arg12) (V c main_v55) := by
  funext j
  obtain ⟨g, o, rfl⟩ : ∃ (g : Fin 64) (o : Fin 4), j = ix2 g o := ⟨j 0, j 1, eq_ix2 j⟩
  unfold outAt3
  refine (pay6_apply (sumAt3 (F := Ideal) V c 24 h) (cntAt3 (F := Ideal) V c 24 h) (iblk3 (F := Ideal) V c 2 ⟨24, h⟩) (iblk3 (F := Ideal) V c 3 ⟨24, h⟩) g o).trans ?_
  rw [iblk3_2_eq V c ⟨24, h⟩, iblk3_3_eq V c ⟨24, h⟩, hC h g]
  show _ = (∑ d : Fin 128, Ideal.div (Cert.Spec.poolSum (V c main_v53) (V c main_v54) g d) (max (Cert.Spec.poolCnt (V c main_v54) g) Cert.Spec.one32) * V c main_arg12 (ix2 o d)) + V c main_v55 (ix2 0 o)
  refine congrArg (· + V c main_v55 (ix2 (0 : Fin 1) o)) (Finset.sum_congr rfl fun d _ => ?_)
  rw [hS h g d]

/-- The one write-back, at the last point, writes that array: block (0, 0) of the 64x4 array is the array. -/
theorem flushed_last (c : Dev nD)
    (hS : ∀ h24 g d, (sumAt3 (F := Ideal) V c 24 h24) (ix2 g d) = Cert.Spec.poolSum (V c main_v53) (V c main_v54) g d)
    (hC : ∀ h24 g, (cntAt3 (F := Ideal) V c 24 h24) (ix2 g 0) = Cert.Spec.poolCnt (V c main_v54) g)
    (t : Fin cfg3.N) (hf : (cfg3.win 4).flush t = true) :
    (dat3 (F := Ideal) V c).flushed 4 t = ((cfg3.win 4).blk t).view.read (Elt Ideal)
      (Cert.Spec.poolK (V c main_v53) (V c main_v54) (V c main_arg12) (V c main_v55)) := by
  have hN : cfg3.N = 25 := N_3
  have h24 : t.val = 24 := by have := (flush3_4 t).mp hf; have := t.isLt; omega
  obtain rfl : t = tLast := Fin.ext h24
  show (cfg3.win 4).cut (grid3.coords tLast) ((dat3 (F := Ideal) V c).after 4 tLast) = _
  rw [after3_4, outAt3_last V c hS hC]
  have hz' : (fun a => win3_4.index tLast a * main_v56.ty.shape.size a) = fun _ => 0 := funext fun a => by fin_cases a <;> rfl
  exact (Memref.read_access_unit_zero (Elt Ideal) main_v56 hz' (fun a => by rw [congrFun hz' a]; simp)
    (Cert.Spec.poolK (V c main_v53) (V c main_v54) (V c main_arg12) (V c main_v55))).symm

/-- So the result array ends holding the pooled mean through the head: the last point's block covers it. -/
theorem pool_val (c : Dev nD)
    (hS : ∀ h24 g d, (sumAt3 (F := Ideal) V c 24 h24) (ix2 g d) = Cert.Spec.poolSum (V c main_v53) (V c main_v54) g d)
    (hC : ∀ h24 g, (cntAt3 (F := Ideal) V c 24 h24) (ix2 g 0) = Cert.Spec.poolCnt (V c main_v54) g) :
    (dat3 (F := Ideal) V c).arrAt 4 cfg3.N = Cert.Spec.poolK (V c main_v53) (V c main_v54) (V c main_arg12) (V c main_v55) :=
  (dat3 (F := Ideal) V c).arrAt_eq_of_cover 4 _ (flushed_last V c hS hC) fun i =>
    ⟨tLast, (flush3_4 tLast).mpr rfl, by
      show i ∈ ((View.whole main_v56).slice (win3_4.rect tLast)).set
      rw [View.set_slice_whole, Rect.mem_set_unit]
      intro a
      have h0 : (i 0 : Nat) < 64 := (i 0).isLt
      have h1 : (i 1 : Nat) < 4 := (i 1).isLt
      match a with
      | ⟨0, _⟩ =>
        show win3_4.index tLast 0 * win3_4.size 0 ≤ (i 0 : Nat) ∧ (i 0 : Nat) < win3_4.index tLast 0 * win3_4.size 0 + win3_4.xsize (grid3.coords tLast) 0
        rw [show win3_4.index tLast 0 * win3_4.size 0 = 0 from by decide +kernel, show win3_4.xsize (grid3.coords tLast) 0 = 64 from by decide +kernel]; omega
      | ⟨1, _⟩ =>
        show win3_4.index tLast 1 * win3_4.size 1 ≤ (i 1 : Nat) ∧ (i 1 : Nat) < win3_4.index tLast 1 * win3_4.size 1 + win3_4.xsize (grid3.coords tLast) 1
        rw [show win3_4.index tLast 1 * win3_4.size 1 = 0 from by decide +kernel, show win3_4.xsize (grid3.coords tLast) 1 = 4 from by decide +kernel]; omega⟩

end Array

end Cert.KernelIdeal.Val

end
-- ==== Proof.KIV.PoolAcc.lean ====
/-
  The pooling kernel's two accumulators in closed form, on the extended reals.

  At each grid point the kernel forms the one-hot matrix of its block of graph ids against the graph numbers 0..63,
  adds (one-hot)ᵀ · (feature block) to the carried per-graph feature sums and the column sums of the one-hot matrix
  to the carried per-graph node counts. After the last of the 25 points the sums are the per-graph feature sums over
  all 50000 rows and the counts the per-graph row counts.
-/
import proofs.«428637_j38302518345827_1_alg».proof.Proof.KI.R3
import proofs.«428637_j38302518345827_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Data.EReal.Basic

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx

/-! ## The one-hot weight of a block -/

/-- Row `r` of a block of graph ids belongs to graph `g`: as a weight, `1` or `0`. -/
def hotB (bb : S2000x1.Idx → BitVec 32) (r : Fin 2000) (g : Fin 64) : EReal :=
  if bb (ix2 r (0 : Fin 1)) = BitVec.ofNat 32 g.val then 1 else 0

/-- The comparison's bit, widened and read as a signed integer, is `1` or `0`. -/
theorem pool_sitofp_eq_bit (x y : BitVec 32) :
    (FloatOps.sitofp (F := Ideal) .f32 ((IntOp.cmpi .eq x y).setWidth 32) : EReal) = if x = y then 1 else 0 := by
  by_cases h : x = y
  · subst h
    rw [if_pos rfl]
    have e : (IntOp.cmpi .eq x x).setWidth 32 = 1#32 := by simp [IntOp.cmpi]
    rw [e]
    show (((1#32 : BitVec 32).toInt : ℝ) : EReal) = 1
    have : (1#32 : BitVec 32).toInt = 1 := by decide
    rw [this]; norm_num
  · rw [if_neg h]
    have hb : (x == y) = false := by simpa using h
    have e : (IntOp.cmpi .eq x y).setWidth 32 = 0#32 := by simp [IntOp.cmpi, hb]
    rw [e]
    show (((0#32 : BitVec 32).toInt : ℝ) : EReal) = 0
    have : (0#32 : BitVec 32).toInt = 0 := by decide
    rw [this]; norm_num

/-- The one-hot matrix of a block of ids, read at row `r` and graph `g`. -/
theorem pool_pay3_apply (bb : Vec Ideal S2000x1 .i32) (r : Fin 2000) (g : Fin 64) :
    k3_pay3 (F := Ideal) bb (ix2 r g) = hotB bb r g := by
  unfold k3_pay3 hotB
  rw [shapeCast_self]
  rw [sitofp_apply, extui_apply]
  show FloatOps.sitofp (F := Ideal) .f32 ((IntOp.cmpi .eq (broadcastTo S2000x64 bb broadcasts_S2000x1_S2000x64 (ix2 r g))
      (broadcastTo S2000x64 (iota .tc S1x64 32 [1] iota_S1x64_d1_w32) broadcasts_S1x64_S2000x64 (ix2 r g))).setWidth 32) = _
  rw [broadcastTo_apply bb broadcasts_S2000x1_S2000x64 (ix2 r g) (ix2 r (0 : Fin 1)) (fun a => match a with
      | ⟨0, _⟩ => rfl
      | ⟨1, _⟩ => rfl),
    broadcastTo_apply (iota .tc S1x64 32 [1] iota_S1x64_d1_w32) broadcasts_S1x64_S2000x64 (ix2 r g) (ix2 (0 : Fin 1) g) (fun a => match a with
      | ⟨0, _⟩ => rfl
      | ⟨1, _⟩ => rfl),
    iota_single_apply]
  exact pool_sitofp_eq_bit _ _

/-! ## The two accumulating payloads at an index -/

theorem lhs_pool_0 (i : S64x128.Idx) (q : dot_S2000x64_S2000x128_S64x128_0_0_1_1_n_n.contr.Idx) :
    (dot_S2000x64_S2000x128_S64x128_0_0_1_1_n_n.lhsIdx i q 0).val = (q ⟨0, by decide⟩).val :=
  dot_S2000x64_S2000x128_S64x128_0_0_1_1_n_n.lhsIdx_val_of_single rfl i q
theorem lhs_pool_1 (i : S64x128.Idx) (q : dot_S2000x64_S2000x128_S64x128_0_0_1_1_n_n.contr.Idx) :
    (dot_S2000x64_S2000x128_S64x128_0_0_1_1_n_n.lhsIdx i q 1).val = (i 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
theorem rhs_pool_0 (i : S64x128.Idx) (q : dot_S2000x64_S2000x128_S64x128_0_0_1_1_n_n.contr.Idx) :
    (dot_S2000x64_S2000x128_S64x128_0_0_1_1_n_n.rhsIdx i q 0).val = (q ⟨0, by decide⟩).val :=
  dot_S2000x64_S2000x128_S64x128_0_0_1_1_n_n.rhsIdx_val_of_single rfl i q
theorem rhs_pool_1 (i : S64x128.Idx) (q : dot_S2000x64_S2000x128_S64x128_0_0_1_1_n_n.contr.Idx) :
    (dot_S2000x64_S2000x128_S64x128_0_0_1_1_n_n.rhsIdx i q 1).val = (i 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

/-- The product (one-hot)ᵀ · (feature block) into a zero accumulator, at graph `g` and feature `d`: the sum over the
    block's rows. -/
theorem pool_matmul_apply (oh : FVec Ideal S2000x64 .bf16) (hb : FVec Ideal S2000x128 .bf16) (g : Fin 64) (d : Fin 128) :
    FloatOps.matmul dot_S2000x64_S2000x128_S64x128_0_0_1_1_n_n none oh hb (constant (F := Ideal) S64x128 .f32 0x00000000#32) (ix2 g d)
      = ∑ r : Fin 2000, oh (ix2 r g) * hb (ix2 r d) := by
  rw [Ideal.matmul_constant_zero_apply, ← Equiv.sum_comp (ValueIdx.contrEquiv1 dot_S2000x64_S2000x128_S64x128_0_0_1_1_n_n 2000 rfl rfl).symm]
  refine Finset.sum_congr rfl fun k _ => ?_
  have hk := ValueIdx.contrEquiv1_symm_val dot_S2000x64_S2000x128_S64x128_0_0_1_1_n_n 2000 rfl rfl k
  have el : dot_S2000x64_S2000x128_S64x128_0_0_1_1_n_n.lhsIdx (ix2 g d) ((ValueIdx.contrEquiv1 dot_S2000x64_S2000x128_S64x128_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x64_S2000x128_S64x128_0_0_1_1_n_n.rhsIdx (ix2 g d) ((ValueIdx.contrEquiv1 dot_S2000x64_S2000x128_S64x128_0_0_1_1_n_n 2000 rfl rfl).symm k) = ix2 k d := funext fun a => Fin.ext (by
    match a with
    | ⟨0, _⟩ => exact (rhs_pool_0 _ _).trans hk
    | ⟨1, _⟩ => exact rhs_pool_1 _ _)
  rw [el, er]

/-- The feature sums after a point: what was carried plus, per graph and feature, the block's rows weighted by the
    one-hot. -/
theorem pool_pay4_apply (hb : Vec Ideal S2000x128 .f32) (bb : Vec Ideal S2000x1 .i32) (acc : Vec Ideal S64x128 .f32)
    (g : Fin 64) (d : Fin 128) :
    (k3_pay4 (F := Ideal) hb bb acc (ix2 g d) : EReal) = acc (ix2 g d) + ∑ r : Fin 2000, hotB bb r g * hb (ix2 r d) := by
  unfold k3_pay4
  rw [shapeCast_self, shapeCast_self]
  rw [addf_apply]
  show acc (ix2 g d) + FloatOps.matmul dot_S2000x64_S2000x128_S64x128_0_0_1_1_n_n none
      (truncf .bf16 (k3_pay3 (F := Ideal) bb) bitsLt_bf16_f32) (truncf .bf16 hb bitsLt_bf16_f32)
      (constant (F := Ideal) S64x128 .f32 0x00000000#32) (ix2 g d) = _
  rw [pool_matmul_apply]
  refine congrArg (acc (ix2 g d) + ·) (Finset.sum_congr rfl fun r _ => ?_)
  rw [truncf_apply, truncf_apply, pool_pay3_apply]

/-- The node counts after a point: what was carried plus, per graph, the number of the block's rows in it. -/
theorem pool_pay5_apply (bb : Vec Ideal S2000x1 .i32) (acc : Vec Ideal S64x1 .f32) (g : Fin 64) :
    (k3_pay5 (F := Ideal) bb acc (ix2 g (0 : Fin 1)) : EReal) = acc (ix2 g (0 : Fin 1)) + ∑ r : Fin 2000, hotB bb r g := by
  unfold k3_pay5
  rw [shapeCast_self, addf_apply]
  refine congrArg (acc (ix2 g (0 : Fin 1)) + ·) ?_
  refine (transpose_ix2_apply _ transposes_S1x64_p1_0_S64x1 g (0 : Fin 1)).trans ?_
  refine (shapeCast_a_1a_apply _ shapeCasts_S64_S1x64 (0 : Fin 1) g).trans ?_
  refine (Ideal.multiReduction_add_single (k3_pay3 (F := Ideal) bb) 0x00000000#32 reduces_S2000x64_S64 (.inl rfl) rfl (ix1 g)).trans ?_
  show ∑ r : Fin 2000, k3_pay3 (F := Ideal) bb (reduces_S2000x64_S64.lift (ix1 g) r) = ∑ r : Fin 2000, hotB bb r g
  refine Finset.sum_congr rfl fun r _ => ?_
  have e : reduces_S2000x64_S64.lift (ix1 g) r = ix2 r g := funext fun a => Fin.ext (by
    match a with
    | ⟨0, _⟩ => rfl
    | ⟨1, _⟩ => rfl)
  rw [e, pool_pay3_apply]

/-- The zero fills. -/
theorem pool_pay1_apply (i : S64x128.Idx) : (k3_pay1 (F := Ideal) i : EReal) = 0 := by
  unfold k3_pay1
  rw [shapeCast_self, broadcast_apply]
  exact Ideal.ofBits_zero_f32
theorem pool_pay2_apply (i : S64x1.Idx) : (k3_pay2 (F := Ideal) i : EReal) = 0 := by
  unfold k3_pay2
  rw [shapeCast_self, broadcast_apply]
  exact Ideal.ofBits_zero_f32

/-! ## The blocks of the two windows, read off the arrays -/

section Blocks
variable (V : (c : Dev nD) → (b : Ref sig .tc) → Buf (Elt Ideal) ((c : Thread nD τ).loc b))

/-- The two windows' printed index maps, decided over the 25 points: block `t` along the rows, block `0` along the
    columns. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, win3_0.index t (0 : Fin 2) = t.val ∧ win3_0.index t (1 : Fin 2) = 0
    ∧ win3_1.index t (0 : Fin 2) = t.val ∧ win3_1.index t (1 : Fin 2) = 0)

/-- Row `r` of the feature block at point `t` is row `2000 t + r` of the feature array. -/
theorem iblk3_0_apply (c : Dev nD) (t : Fin cfg3.N) (r : Fin 2000) (d : Fin 128) (hr : 2000 * t.val + r.val < 50000) :
    (iblk3 (F := Ideal) V c 0 t (ix2 r d) : EReal)
      = (V c main_v53 : S50000x128.Idx → EReal) (ix2 (⟨2000 * t.val + r.val, hr⟩ : Fin 50000) d) := by
  obtain ⟨e0, e1, e2, e3⟩ := idx_facts3 t
  show (V c main_v53 : S50000x128.Idx → EReal) (((cfg3.win 0).blk t).view.emb (ix2 r d)) = _
  refine congrArg (V c main_v53 : S50000x128.Idx → EReal) (funext fun a => Fin.ext ?_)
  match a with
  | ⟨0, _⟩ => show win3_0.index t (0 : Fin 2) * 2000 + 1 * r.val = 2000 * t.val + r.val; omega
  | ⟨1, _⟩ => show win3_0.index t (1 : Fin 2) * 128 + 1 * d.val = d.val; omega

/-- Row `r` of the id block at point `t` is row `2000 t + r` of the id array. -/
theorem iblk3_1_apply (c : Dev nD) (t : Fin cfg3.N) (r : Fin 2000) (hr : 2000 * t.val + r.val < 50000) :
    (iblk3 (F := Ideal) V c 1 t (ix2 r (0 : Fin 1)) : BitVec 32)
      = (V c main_v54 : S50000x1.Idx → BitVec 32) (ix2 (⟨2000 * t.val + r.val, hr⟩ : Fin 50000) (0 : Fin 1)) := by
  obtain ⟨e0, e1, e2, e3⟩ := idx_facts3 t
  show (V c main_v54 : S50000x1.Idx → BitVec 32) (((cfg3.win 1).blk t).view.emb (ix2 r (0 : Fin 1))) = _
  refine congrArg (V c main_v54 : S50000x1.Idx → BitVec 32) (funext fun a => Fin.ext ?_)
  match a with
  | ⟨0, _⟩ => show win3_1.index t (0 : Fin 2) * 2000 + 1 * r.val = 2000 * t.val + r.val; omega
  | ⟨1, _⟩ => show win3_1.index t (1 : Fin 2) * 1 + 1 * (0 : Fin 1).val = (0 : Fin 1).val; omega

/-- So the one-hot weight of the id block at point `t` is the weight of the array's row. -/
theorem hotB_iblk3 (c : Dev nD) (t : Fin cfg3.N) (r : Fin 2000) (g : Fin 64) (hr : 2000 * t.val + r.val < 50000) :
    hotB (iblk3 (F := Ideal) V c 1 t) r g = Cert.Spec.hot (V c main_v54) (⟨2000 * t.val + r.val, hr⟩ : Fin 50000) g := by
  unfold hotB Cert.Spec.hot
  rw [iblk3_1_apply V c t r hr]

end Blocks

/-! ## Twenty-five blocks of two thousand rows are the fifty thousand rows -/

/-- The total of a function of the row over block `s`. -/
def blkTot (f : Fin 50000 → EReal) (s : ℕ) (hs : s < 25) : EReal :=
  ∑ r : Fin 2000, f ⟨2000 * s + r.val, by have := r.isLt; omega⟩

/-- The blocks' totals add up to the total over all rows. -/
theorem blkTot_total (f : Fin 50000 → EReal) : ∑ s : Fin 25, blkTot f s.val s.isLt = ∑ n : Fin 50000, f n := by
  unfold blkTot
  rw [← Equiv.sum_comp (finProdFinEquiv (m := 25) (n := 2000)) f, Fintype.sum_prod_type]
  refine Finset.sum_congr rfl fun s _ => Finset.sum_congr rfl fun r _ => congrArg f (Fin.ext ?_)
  show 2000 * s.val + r.val = r.val + 2000 * s.val
  omega

/-- Peeling the last block off a run of blocks. -/
theorem sum_blkTot_succ (f : Fin 50000 → EReal) (n : ℕ) (hn : n + 1 < 25) :
    ∑ s : Fin (n + 2), blkTot f s.val (by have := s.isLt; omega)
      = (∑ s : Fin (n + 1), blkTot f s.val (by have := s.isLt; omega)) + blkTot f (n + 1) hn := by
  rw [Fin.sum_univ_castSucc]
  rfl

/-! ## The accumulators after each point, and after the last -/

section Acc
variable (V : (c : Dev nD) → (b : Ref sig .tc) → Buf (Elt Ideal) ((c : Thread nD τ).loc b))

/-- One point's addend to the feature sums is its block's total of the weighted rows. -/
theorem pool_sum_addend (c : Dev nD) (t : Fin cfg3.N) (ht : t.val < 25) (g : Fin 64) (d : Fin 128) :
    ∑ r : Fin 2000, hotB (iblk3 (F := Ideal) V c 1 t) r g * (iblk3 (F := Ideal) V c 0 t (ix2 r d) : EReal)
      = blkTot (fun n => Cert.Spec.hot (V c main_v54) n g * (V c main_v53 : S50000x128.Idx → EReal) (ix2 n d)) t.val ht := by
  unfold blkTot
  refine Finset.sum_congr rfl fun r _ => ?_
  have hr : 2000 * t.val + r.val < 50000 := by have := r.isLt; omega
  rw [hotB_iblk3 V c t r g hr, iblk3_0_apply V c t r d hr]

/-- One point's addend to the node counts is its block's total of the weights. -/
theorem pool_cnt_addend (c : Dev nD) (t : Fin cfg3.N) (ht : t.val < 25) (g : Fin 64) :
    ∑ r : Fin 2000, hotB (iblk3 (F := Ideal) V c 1 t) r g
      = blkTot (fun n => Cert.Spec.hot (V c main_v54) n g) t.val ht := by
  unfold blkTot
  refine Finset.sum_congr rfl fun r _ => ?_
  have hr : 2000 * t.val + r.val < 50000 := by have := r.isLt; omega
  rw [hotB_iblk3 V c t r g hr]

/-- After point `n` the carried feature sums are the weighted rows' totals over blocks `0..n`. -/
theorem sumAt3_apply (c : Dev nD) (g : Fin 64) (d : Fin 128) :
    ∀ (n : ℕ) (hn : n < cfg3.N) (hn' : n < 25), (sumAt3 (F := Ideal) V c n hn (ix2 g d) : EReal)
      = ∑ s : Fin (n + 1), blkTot (fun n => Cert.Spec.hot (V c main_v54) n g * (V c main_v53 : S50000x128.Idx → EReal) (ix2 n d))
          s.val (by have := s.isLt; omega)
  | 0, hn, hn' => by
    rw [sumAt3_zero]
    refine (pool_pay4_apply (iblk3 (F := Ideal) V c 0 ⟨0, hn⟩) (iblk3 (F := Ideal) V c 1 ⟨0, hn⟩) (k3_pay1 (F := Ideal)) g d).trans ?_
    rw [pool_pay1_apply, zero_add, pool_sum_addend V c ⟨0, hn⟩ hn' g d, Fin.sum_univ_one]
    rfl
  | n + 1, hn, hn' => by
    rw [sumAt3_succ]
    refine (pool_pay4_apply (iblk3 (F := Ideal) V c 0 ⟨n + 1, hn⟩) (iblk3 (F := Ideal) V c 1 ⟨n + 1, hn⟩)
      (sumAt3 (F := Ideal) V c n (Nat.lt_of_succ_lt hn)) g d).trans ?_
    rw [sumAt3_apply c g d n (Nat.lt_of_succ_lt hn) (Nat.lt_of_succ_lt hn'), pool_sum_addend V c ⟨n + 1, hn⟩ hn' g d,
      sum_blkTot_succ _ n hn']

/-- After point `n` the carried node counts are the weights' totals over blocks `0..n`. -/
theorem cntAt3_apply (c : Dev nD) (g : Fin 64) :
    ∀ (n : ℕ) (hn : n < cfg3.N) (hn' : n < 25), (cntAt3 (F := Ideal) V c n hn (ix2 g (0 : Fin 1)) : EReal)
      = ∑ s : Fin (n + 1), blkTot (fun n => Cert.Spec.hot (V c main_v54) n g) s.val (by have := s.isLt; omega)
  | 0, hn, hn' => by
    rw [cntAt3_zero]
    refine (pool_pay5_apply (iblk3 (F := Ideal) V c 1 ⟨0, hn⟩) (k3_pay2 (F := Ideal)) g).trans ?_
    rw [pool_pay2_apply, zero_add, pool_cnt_addend V c ⟨0, hn⟩ hn' g, Fin.sum_univ_one]
    rfl
  | n + 1, hn, hn' => by
    rw [cntAt3_succ]
    refine (pool_pay5_apply (iblk3 (F := Ideal) V c 1 ⟨n + 1, hn⟩) (cntAt3 (F := Ideal) V c n (Nat.lt_of_succ_lt hn)) g).trans ?_
    rw [cntAt3_apply c g n (Nat.lt_of_succ_lt hn) (Nat.lt_of_succ_lt hn'), pool_cnt_addend V c ⟨n + 1, hn⟩ hn' g,
      sum_blkTot_succ _ n hn']

/-- After the last point the carried feature sums are the per-graph feature sums over all rows. -/
theorem sumAt3_last (c : Dev nD) (h24 : 24 < cfg3.N) (g : Fin 64) (d : Fin 128) :
    (sumAt3 (F := Ideal) V c 24 h24 (ix2 g d) : EReal) = Cert.Spec.poolSum (V c main_v53) (V c main_v54) g d := by
  rw [sumAt3_apply V c g d 24 h24 (by decide)]
  exact blkTot_total _

/-- After the last point the carried node counts are the per-graph row counts. -/
theorem cntAt3_last (c : Dev nD) (h24 : 24 < cfg3.N) (g : Fin 64) :
    (cntAt3 (F := Ideal) V c 24 h24 (ix2 g (0 : Fin 1)) : EReal) = Cert.Spec.poolCnt (V c main_v54) g := by
  rw [cntAt3_apply V c g 24 h24 (by decide)]
  exact blkTot_total _

end Acc

end Cert.KernelIdeal.Val

end
-- ==== Proof.KIV.Value.lean ====
/- THE VALUE OF THE KERNEL PROGRAM'S RESULT, on the extended reals, as a function of the fourteen argument arrays as
   launched: three SAGE layers — each the dense transform of the mean-aggregated features and of the node features, the
   aggregation computed by the host stretch before it from the previous layer's output, the edge lists and the inverse
   in-degrees computed once by the first stretch — then the per-graph mean through the linear head. The chain runs
   through the buffer contents at the segment boundaries: a region's output array holds its layer of the contents the
   region is entered with; a host stretch's results are functions of what it reads; and a buffer that no item in
   between writes is read as it was left. -/
import proofs.«428637_j38302518345827_1_alg».proof.Proof.KI.Chain
import proofs.«428637_j38302518345827_1_alg».proof.Proof.KIV.Host
import proofs.«428637_j38302518345827_1_alg».proof.Proof.KIV.Out
import proofs.«428637_j38302518345827_1_alg».proof.Proof.KIV.Sage0
import proofs.«428637_j38302518345827_1_alg».proof.Proof.KIV.Sage1
import proofs.«428637_j38302518345827_1_alg».proof.Proof.KIV.Sage2
import proofs.«428637_j38302518345827_1_alg».proof.Proof.KIV.Pool
import proofs.«428637_j38302518345827_1_alg».proof.Proof.KIV.PoolAcc
import proofs.«428637_j38302518345827_1_alg».proof.Proof.Spec

set_option maxRecDepth 16384

noncomputable section

namespace Cert.KernelIdeal.Val

open Idealize.ShloMosaic Idealize.ShloMosaic.TcCoe
open Idealize.SL Idealize.SL.Sem
open Cert.KernelIdeal Cert.KernelIdeal.Gen
open Cert.Spec (sageK poolK)

section Persist
variable {F : FTy → Type} [FloatOps F]
variable (m : (ℓ : Loc nD τ sig) → Buf (Elt F) ℓ) (ρ : Dev nD → PrngReg) (c : Dev nD)

/-! ## Buffers no earlier item writes hold their launch contents

A reference that no host stretch so far writes and that is no array of a region so far holds, at a boundary, what the
launch memory holds (`hK`: stretch `K` does not write it; `aK`: it is none of region `K`'s arrays). -/

theorem W1_launch (r : Ref sig .tc) (h0 : r ∉ hostOps0_W) :
    W1 m ρ c (Proc.devRef .tc r) = m ((c : Thread nD τ).loc r) :=
  (W1_of m ρ c r h0).trans rfl
theorem W2_launch (r : Ref sig .tc) (h0 : r ∉ hostOps0_W) (a0 : ∀ w, Pipeline.arrRef spec0 w ≠ r) :
    W2 m ρ c (Proc.devRef .tc r) = m ((c : Thread nD τ).loc r) :=
  (W2_of_ne m ρ c r a0).trans (W1_launch m ρ c r h0)
theorem W3_launch (r : Ref sig .tc) (h0 : r ∉ hostOps0_W) (a0 : ∀ w, Pipeline.arrRef spec0 w ≠ r) (h1 : r ∉ hostOps1_W) :
    W3 m ρ c (Proc.devRef .tc r) = m ((c : Thread nD τ).loc r) :=
  (W3_of m ρ c r h1).trans (W2_launch m ρ c r h0 a0)
theorem W4_launch (r : Ref sig .tc) (h0 : r ∉ hostOps0_W) (a0 : ∀ w, Pipeline.arrRef spec0 w ≠ r) (h1 : r ∉ hostOps1_W)
    (a1 : ∀ w, Pipeline.arrRef spec1 w ≠ r) :
    W4 m ρ c (Proc.devRef .tc r) = m ((c : Thread nD τ).loc r) :=
  (W4_of_ne m ρ c r a1).trans (W3_launch m ρ c r h0 a0 h1)
theorem W5_launch (r : Ref sig .tc) (h0 : r ∉ hostOps0_W) (a0 : ∀ w, Pipeline.arrRef spec0 w ≠ r) (h1 : r ∉ hostOps1_W)
    (a1 : ∀ w, Pipeline.arrRef spec1 w ≠ r) (h2 : r ∉ hostOps2_W) :
    W5 m ρ c (Proc.devRef .tc r) = m ((c : Thread nD τ).loc r) :=
  (W5_of m ρ c r h2).trans (W4_launch m ρ c r h0 a0 h1 a1)
theorem W6_launch (r : Ref sig .tc) (h0 : r ∉ hostOps0_W) (a0 : ∀ w, Pipeline.arrRef spec0 w ≠ r) (h1 : r ∉ hostOps1_W)
    (a1 : ∀ w, Pipeline.arrRef spec1 w ≠ r) (h2 : r ∉ hostOps2_W) (a2 : ∀ w, Pipeline.arrRef spec2 w ≠ r) :
    W6 m ρ c (Proc.devRef .tc r) = m ((c : Thread nD τ).loc r) :=
  (W6_of_ne m ρ c r a2).trans (W5_launch m ρ c r h0 a0 h1 a1 h2)
theorem W7_launch (r : Ref sig .tc) (h0 : r ∉ hostOps0_W) (a0 : ∀ w, Pipeline.arrRef spec0 w ≠ r) (h1 : r ∉ hostOps1_W)
    (a1 : ∀ w, Pipeline.arrRef spec1 w ≠ r) (h2 : r ∉ hostOps2_W) (a2 : ∀ w, Pipeline.arrRef spec2 w ≠ r) (h3 : r ∉ hostOps3_W) :
    W7 m ρ c (Proc.devRef .tc r) = m ((c : Thread nD τ).loc r) :=
  (W7_of m ρ c r h3).trans (W6_launch m ρ c r h0 a0 h1 a1 h2 a2)

/-! ## The arguments the items read, where they read them -/

theorem W1_arg0 : W1 m ρ c (Proc.devRef .tc main_arg0) = m ((c : Thread nD τ).loc main_arg0) := W1_launch m ρ c _ (by decide)
theorem W0_arg1 : W0 m ρ c (Proc.devRef .tc main_arg1) = m ((c : Thread nD τ).loc main_arg1) := rfl
theorem W1_arg3 : W1 m ρ c (Proc.devRef .tc main_arg3) = m ((c : Thread nD τ).loc main_arg3) := W1_launch m ρ c _ (by decide)
theorem W1_arg5 : W1 m ρ c (Proc.devRef .tc main_arg5) = m ((c : Thread nD τ).loc main_arg5) := W1_launch m ρ c _ (by decide)
theorem W2_arg7 : W2 m ρ c (Proc.devRef .tc main_arg7) = m ((c : Thread nD τ).loc main_arg7) := W2_launch m ρ c _ (by decide) (by decide)
theorem W3_arg6 : W3 m ρ c (Proc.devRef .tc main_arg6) = m ((c : Thread nD τ).loc main_arg6) := W3_launch m ρ c _ (by decide) (by decide) (by decide)
theorem W3_arg8 : W3 m ρ c (Proc.devRef .tc main_arg8) = m ((c : Thread nD τ).loc main_arg8) := W3_launch m ρ c _ (by decide) (by decide) (by decide)
theorem W4_arg10 : W4 m ρ c (Proc.devRef .tc main_arg10) = m ((c : Thread nD τ).loc main_arg10) :=
  W4_launch m ρ c _ (by decide) (by decide) (by decide) (by decide)
theorem W5_arg9 : W5 m ρ c (Proc.devRef .tc main_arg9) = m ((c : Thread nD τ).loc main_arg9) :=
  W5_launch m ρ c _ (by decide) (by decide) (by decide) (by decide) (by decide)
theorem W5_arg11 : W5 m ρ c (Proc.devRef .tc main_arg11) = m ((c : Thread nD τ).loc main_arg11) :=
  W5_launch m ρ c _ (by decide) (by decide) (by decide) (by decide) (by decide)
theorem W6_arg2 : W6 m ρ c (Proc.devRef .tc main_arg2) = m ((c : Thread nD τ).loc main_arg2) :=
  W6_launch m ρ c _ (by decide) (by decide) (by decide) (by decide) (by decide) (by decide)
theorem W6_arg13 : W6 m ρ c (Proc.devRef .tc main_arg13) = m ((c : Thread nD τ).loc main_arg13) :=
  W6_launch m ρ c _ (by decide) (by decide) (by decide) (by decide) (by decide) (by decide)
theorem W7_arg12 : W7 m ρ c (Proc.devRef .tc main_arg12) = m ((c : Thread nD τ).loc main_arg12) :=
  W7_launch m ρ c _ (by decide) (by decide) (by decide) (by decide) (by decide) (by decide) (by decide)

/-! ## The edge lists and the inverse degrees, computed once by the first stretch, are what every later stretch reads -/

theorem W2_W1 (r : Ref sig .tc) (a0 : ∀ w, Pipeline.arrRef spec0 w ≠ r) :
    W2 m ρ c (Proc.devRef .tc r) = W1 m ρ c (Proc.devRef .tc r) := W2_of_ne m ρ c r a0
theorem W4_W1 (r : Ref sig .tc) (a0 : ∀ w, Pipeline.arrRef spec0 w ≠ r) (h1 : r ∉ hostOps1_W) (a1 : ∀ w, Pipeline.arrRef spec1 w ≠ r) :
    W4 m ρ c (Proc.devRef .tc r) = W1 m ρ c (Proc.devRef .tc r) :=
  (W4_of_ne m ρ c r a1).trans ((W3_of m ρ c r h1).trans (W2_of_ne m ρ c r a0))

theorem W2_v1 : W2 m ρ c (Proc.devRef .tc main_v1) = W1 m ρ c (Proc.devRef .tc main_v1) := W2_W1 m ρ c _ (by decide)
theorem W2_v3 : W2 m ρ c (Proc.devRef .tc main_v3) = W1 m ρ c (Proc.devRef .tc main_v3) := W2_W1 m ρ c _ (by decide)
theorem W2_v11 : W2 m ρ c (Proc.devRef .tc main_v11) = W1 m ρ c (Proc.devRef .tc main_v11) := W2_W1 m ρ c _ (by decide)
theorem W4_v1 : W4 m ρ c (Proc.devRef .tc main_v1) = W1 m ρ c (Proc.devRef .tc main_v1) := W4_W1 m ρ c _ (by decide) (by decide) (by decide)
theorem W4_v3 : W4 m ρ c (Proc.devRef .tc main_v3) = W1 m ρ c (Proc.devRef .tc main_v3) := W4_W1 m ρ c _ (by decide) (by decide) (by decide)
theorem W4_v11 : W4 m ρ c (Proc.devRef .tc main_v11) = W1 m ρ c (Proc.devRef .tc main_v11) := W4_W1 m ρ c _ (by decide) (by decide) (by decide)

/-! ## A layer's output, written by its region, is read unchanged by the next stretch and the next region -/

theorem W3_v25 : W3 m ρ c (Proc.devRef .tc main_v25) = W2 m ρ c (Proc.devRef .tc main_v25) := W3_of m ρ c _ (by decide)
theorem W5_v39 : W5 m ρ c (Proc.devRef .tc main_v39) = W4 m ρ c (Proc.devRef .tc main_v39) := W5_of m ρ c _ (by decide)
theorem W7_v53 : W7 m ρ c (Proc.devRef .tc main_v53) = W6 m ρ c (Proc.devRef .tc main_v53) := W7_of m ρ c _ (by decide)

end Persist

section Chain
variable (m : (ℓ : Loc nD τ sig) → Buf (Elt Ideal) ℓ) (ρ : Dev nD → PrngReg) (c : Dev nD)

/-! ## The first stretch: the edge lists, the inverse degrees, the first aggregation, the first bias row -/

theorem W1_v1 : W1 m ρ c (Proc.devRef .tc main_v1) = srcRaw (m ((c : Thread nD τ).loc main_arg1)) := host0_v1 (W0 m ρ c)
theorem W1_v3 : W1 m ρ c (Proc.devRef .tc main_v3) = dstRaw (m ((c : Thread nD τ).loc main_arg1)) := host0_v3 (W0 m ρ c)
theorem W1_v11 : W1 m ρ c (Proc.devRef .tc main_v11) = invDeg (m ((c : Thread nD τ).loc main_arg1)) := host0_v11 (W0 m ρ c)
theorem V1'_v23 : V1' m ρ c main_v23 = aggKfn (m ((c : Thread nD τ).loc main_arg0)) (srcRaw (m ((c : Thread nD τ).loc main_arg1))) (dstRaw (m ((c : Thread nD τ).loc main_arg1))) (invDeg (m ((c : Thread nD τ).loc main_arg1))) := host0_v23 (W0 m ρ c)
theorem V1'_v24 : V1' m ρ c main_v24 = rs (m ((c : Thread nD τ).loc main_arg4)) := host0_v24 (W0 m ρ c)
theorem V1'_arg0 : V1' m ρ c main_arg0 = (m ((c : Thread nD τ).loc main_arg0)) := W1_arg0 m ρ c
theorem V1'_arg3 : V1' m ρ c main_arg3 = (m ((c : Thread nD τ).loc main_arg3)) := W1_arg3 m ρ c
theorem V1'_arg5 : V1' m ρ c main_arg5 = (m ((c : Thread nD τ).loc main_arg5)) := W1_arg5 m ρ c

/-- Region 0 leaves the first layer's output in its result array. -/
theorem W2_v25 : W2 m ρ c (Proc.devRef .tc main_v25) = lay1 (m ((c : Thread nD τ).loc main_arg0)) (m ((c : Thread nD τ).loc main_arg1)) (m ((c : Thread nD τ).loc main_arg3)) (m ((c : Thread nD τ).loc main_arg4)) (m ((c : Thread nD τ).loc main_arg5)) := by
  have h := (W2_out m ρ c).trans (sage0_val (V1' m ρ) c)
  rw [V1'_v23 m ρ c, V1'_arg0 m ρ c, V1'_arg3 m ρ c, V1'_v24 m ρ c, V1'_arg5 m ρ c] at h
  exact h

/-! ## The second stretch and region 1 -/

theorem V3'_v37 : V3' m ρ c main_v37 = aggKfn (lay1 (m ((c : Thread nD τ).loc main_arg0)) (m ((c : Thread nD τ).loc main_arg1)) (m ((c : Thread nD τ).loc main_arg3)) (m ((c : Thread nD τ).loc main_arg4)) (m ((c : Thread nD τ).loc main_arg5))) (srcRaw (m ((c : Thread nD τ).loc main_arg1))) (dstRaw (m ((c : Thread nD τ).loc main_arg1))) (invDeg (m ((c : Thread nD τ).loc main_arg1))) := by
  have h := host1_v37 (W2 m ρ c)
  rw [W2_v25 m ρ c, W2_v1 m ρ c, W2_v3 m ρ c, W2_v11 m ρ c, W1_v1 m ρ c, W1_v3 m ρ c, W1_v11 m ρ c] at h
  exact h
theorem V3'_v25 : V3' m ρ c main_v25 = lay1 (m ((c : Thread nD τ).loc main_arg0)) (m ((c : Thread nD τ).loc main_arg1)) (m ((c : Thread nD τ).loc main_arg3)) (m ((c : Thread nD τ).loc main_arg4)) (m ((c : Thread nD τ).loc main_arg5)) := (W3_v25 m ρ c).trans (W2_v25 m ρ c)
theorem V3'_v38 : V3' m ρ c main_v38 = rs (m ((c : Thread nD τ).loc main_arg7)) := by
  have h := host1_v38 (W2 m ρ c)
  rw [W2_arg7 m ρ c] at h
  exact h
theorem V3'_arg6 : V3' m ρ c main_arg6 = (m ((c : Thread nD τ).loc main_arg6)) := W3_arg6 m ρ c
theorem V3'_arg8 : V3' m ρ c main_arg8 = (m ((c : Thread nD τ).loc main_arg8)) := W3_arg8 m ρ c

/-- Region 1 leaves the second layer's output in its result array. -/
theorem W4_v39 : W4 m ρ c (Proc.devRef .tc main_v39) = lay2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := (W4_out m ρ c).trans (sage1_val (V3' m ρ) c)
  rw [V3'_v37 m ρ c, V3'_v25 m ρ c, V3'_arg6 m ρ c, V3'_v38 m ρ c, V3'_arg8 m ρ c] at h
  exact h

/-! ## The third stretch and region 2 -/

theorem V5'_v51 : V5' m ρ c main_v51 = aggKfn (lay2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (srcRaw (m ((c : Thread nD τ).loc main_arg1))) (dstRaw (m ((c : Thread nD τ).loc main_arg1))) (invDeg (m ((c : Thread nD τ).loc main_arg1))) := by
  have h := host2_v51 (W4 m ρ c)
  rw [W4_v39 m ρ c, W4_v1 m ρ c, W4_v3 m ρ c, W4_v11 m ρ c, W1_v1 m ρ c, W1_v3 m ρ c, W1_v11 m ρ c] at h
  exact h
theorem V5'_v39 : V5' m ρ c main_v39 = lay2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (W5_v39 m ρ c).trans (W4_v39 m ρ c)
theorem V5'_v52 : V5' m ρ c main_v52 = rs (m ((c : Thread nD τ).loc main_arg10)) := by
  have h := host2_v52 (W4 m ρ c)
  rw [W4_arg10 m ρ c] at h
  exact h
theorem V5'_arg9 : V5' m ρ c main_arg9 = (m ((c : Thread nD τ).loc main_arg9)) := W5_arg9 m ρ c
theorem V5'_arg11 : V5' m ρ c main_arg11 = (m ((c : Thread nD τ).loc main_arg11)) := W5_arg11 m ρ c

/-- Region 2 leaves the third layer's output in its result array. -/
theorem W6_v53 : W6 m ρ c (Proc.devRef .tc main_v53) = lay3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h := (W6_out m ρ c).trans (sage2_val (V5' m ρ) c)
  rw [V5'_v51 m ρ c, V5'_v39 m ρ c, V5'_arg9 m ρ c, V5'_v52 m ρ c, V5'_arg11 m ρ c] at h
  exact h

/-! ## The last stretch and region 3 -/

theorem V7'_v53 : V7' m ρ c main_v53 = lay3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := (W7_v53 m ρ c).trans (W6_v53 m ρ c)
theorem V7'_v54 : V7' m ρ c main_v54 = rsI (m ((c : Thread nD τ).loc main_arg2)) := by
  have h := host3_v54 (W6 m ρ c)
  rw [W6_arg2 m ρ c] at h
  exact h
theorem V7'_v55 : V7' m ρ c main_v55 = rs4 (m ((c : Thread nD τ).loc main_arg13)) := by
  have h := host3_v55 (W6 m ρ c)
  rw [W6_arg13 m ρ c] at h
  exact h
theorem V7'_arg12 : V7' m ρ c main_arg12 = (m ((c : Thread nD τ).loc main_arg12)) := W7_arg12 m ρ c

/-- THE RESULT ARRAY after region 3, as a function of the argument arrays as launched. -/
theorem kernel_val : (dat3 (F := Ideal) (V7' m ρ) c).arrAt 4 cfg3.N
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h := pool_val (V7' m ρ) c (fun h g d => sumAt3_last (V7' m ρ) c h g d) (fun h g => cntAt3_last (V7' m ρ) c h g)
  rw [V7'_v53 m ρ c, V7'_v54 m ρ c, V7'_arg12 m ρ c, V7'_v55 m ρ c] at h
  exact h

end Chain

end Cert.KernelIdeal.Val

end
-- ==== Proof.PoolRef.lean ====
/-
  The reference's pooling stage as a function of the last layer's node features: scatter-add the rows by graph id,
  divide by the clamped row count, apply the linear head, add the bias.
-/
import proofs.«428637_j38302518345827_1_alg».proof.Proof.Gen.ReferenceIdeal.Read

noncomputable section

namespace Cert.RefSpec

open Cert.ReferenceIdeal Cert.ReferenceIdeal.Read Idealize.ShloMosaic

/-- The pooled mean through the linear head, as the reference spells it, from the node features `h`, the graph ids
    `x2`, the head's weights `x12` and bias `x13`. -/
def poolR (h : (⟨S50000x128, .f32⟩ : BufTy).Contents (Elt Ideal)) (x2 : (⟨S50000, .i32⟩ : BufTy).Contents (Elt Ideal))
    (x12 : (⟨S4x128, .f32⟩ : BufTy).Contents (Elt Ideal)) (x13 : (⟨S4, .f32⟩ : BufTy).Contents (Elt Ideal)) :
    (⟨S64x4, .f32⟩ : BufTy).Contents (Elt Ideal) :=
  addf (F := Ideal) (φ := .f32) (Host.dotGeneral (F := Ideal) (φ₁ := .f32) (φ₂ := .f32) dot_S64x128_S128x4_S64x4_1_0_0_1_n_n none
      (Host.divf (F := Ideal) (φ := .f32) (Host.scatterAdd (F := Ideal) (φ := .f32) scatter_S64x128_S50000x1_S50000x128_1_0_0_1 (val_main_v84 (F := Ideal))
        (val_main_v85 (F := Ideal) x2) h) (val_main_v93 (F := Ideal) x2))
      (val_main_v95 (F := Ideal) x12)) (val_main_v98 (F := Ideal) x13)

/-- The reference's result is the pooling stage applied to the third layer's output. -/
theorem v99_pool (x0 : (⟨S50000x128, .f32⟩ : BufTy).Contents (Elt Ideal)) (x1 : (⟨S2x600000, .i32⟩ : BufTy).Contents (Elt Ideal))
    (x2 : (⟨S50000, .i32⟩ : BufTy).Contents (Elt Ideal)) (x3 : (⟨S128x128, .f32⟩ : BufTy).Contents (Elt Ideal))
    (x4 : (⟨S128, .f32⟩ : BufTy).Contents (Elt Ideal)) (x5 x6 : (⟨S128x128, .f32⟩ : BufTy).Contents (Elt Ideal))
    (x7 : (⟨S128, .f32⟩ : BufTy).Contents (Elt Ideal)) (x8 x9 : (⟨S128x128, .f32⟩ : BufTy).Contents (Elt Ideal))
    (x10 : (⟨S128, .f32⟩ : BufTy).Contents (Elt Ideal)) (x11 : (⟨S128x128, .f32⟩ : BufTy).Contents (Elt Ideal))
    (x12 : (⟨S4x128, .f32⟩ : BufTy).Contents (Elt Ideal)) (x13 : (⟨S4, .f32⟩ : BufTy).Contents (Elt Ideal)) :
    val_main_v99 (F := Ideal) x0 x1 x2 x3 x4 x5 x6 x7 x8 x9 x10 x11 x12 x13
      = poolR (val_main_v83 (F := Ideal) x0 x1 x3 x4 x5 x6 x7 x8 x9 x10 x11) x2 x12 x13 := rfl

end Cert.RefSpec

end
-- ==== Proof.RefSpec.lean ====
/-
  The reference as a composition of three layers and a pooling stage, and one layer read index by index.

  A layer sends the mean-aggregated features `a` and the node features `h` to `(a · Wlᵀ + b) + h · Wrᵀ` (then
  `max · 0` for the first two layers).  The reference's three layers are this one function applied to the previous
  layer's output and its mean aggregation; read at a node row and an output feature it is the specification's
  `(a · Wlᵀ + h · Wrᵀ) + b`, by commutativity of the sum.
-/
import proofs.«428637_j38302518345827_1_alg».proof.Proof.PoolRef
import proofs.«428637_j38302518345827_1_alg».proof.Proof.Spec

noncomputable section

namespace Cert.RefSpec

open Cert.ReferenceIdeal Cert.ReferenceIdeal.Read Idealize.ShloMosaic Idealize.ShloMosaic.ValueIdx

/-! ## One layer, as the reference spells it -/

/-- A layer before the rectifier: `(a · Wlᵀ + b) + h · Wrᵀ`, the weights transposed and the bias broadcast over the
    rows as the reference does. -/
def linPre (a h : (⟨S50000x128, .f32⟩ : BufTy).Contents (Elt Ideal)) (Wl : (⟨S128x128, .f32⟩ : BufTy).Contents (Elt Ideal)) (bl : (⟨S128, .f32⟩ : BufTy).Contents (Elt Ideal)) (Wr : (⟨S128x128, .f32⟩ : BufTy).Contents (Elt Ideal)) : (⟨S50000x128, .f32⟩ : BufTy).Contents (Elt Ideal) :=
  addf (F := Ideal) (φ := .f32)
    (addf (F := Ideal) (φ := .f32)
      (Host.dotGeneral (F := Ideal) (φ₁ := .f32) (φ₂ := .f32) dot_S50000x128_S128x128_S50000x128_1_0_0_1_n_n none a (val_main_v22 (F := Ideal) Wl))
      (val_main_v25 (F := Ideal) bl))
    (Host.dotGeneral (F := Ideal) (φ₁ := .f32) (φ₂ := .f32) dot_S50000x128_S128x128_S50000x128_1_0_0_1_n_n none h (val_main_v27 (F := Ideal) Wr))

/-- A layer: with the rectifier (`max` against the broadcast zero word) or without. -/
def linR (relu : Bool) (a h : (⟨S50000x128, .f32⟩ : BufTy).Contents (Elt Ideal)) (Wl : (⟨S128x128, .f32⟩ : BufTy).Contents (Elt Ideal)) (bl : (⟨S128, .f32⟩ : BufTy).Contents (Elt Ideal)) (Wr : (⟨S128x128, .f32⟩ : BufTy).Contents (Elt Ideal)) : (⟨S50000x128, .f32⟩ : BufTy).Contents (Elt Ideal) :=
  bif relu then maximumf (F := Ideal) (φ := .f32) (linPre a h Wl bl Wr) (val_main_call0_v0 (F := Ideal)) else linPre a h Wl bl Wr

/-! ## The reference's three layers are that layer, composed -/

/-- The first layer's output. -/
theorem v30_eq (x0 : (⟨S50000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v30 (F := Ideal) x0 x1 x3 x4 x5 = linR true (val_main_v21 (F := Ideal) x0 x1) x0 x3 x4 x5 := rfl

/-- The second layer's output: the same operations on the first layer's output. -/
theorem v57_eq (x0 : (⟨S50000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v57 (F := Ideal) x0 x1 x3 x4 x5 x6 x7 x8
      = linR true (val_main_v21 (F := Ideal) (val_main_v30 (F := Ideal) x0 x1 x3 x4 x5) x1)
          (val_main_v30 (F := Ideal) x0 x1 x3 x4 x5) x6 x7 x8 := rfl

/-- The third layer's output: the same operations on the second layer's output, no rectifier. -/
theorem v83_eq (x0 : (⟨S50000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) :
    val_main_v83 (F := Ideal) x0 x1 x3 x4 x5 x6 x7 x8 x9 x10 x11
      = linR false (val_main_v21 (F := Ideal) (val_main_v57 (F := Ideal) x0 x1 x3 x4 x5 x6 x7 x8) x1)
          (val_main_v57 (F := Ideal) x0 x1 x3 x4 x5 x6 x7 x8) x9 x10 x11 := rfl

/-! ## The layer read at a node row and an output feature -/

/-- The layer's `dot_general` at an index, for any operands: the sum over the contracted axis of the left operand's row
    times the right operand's column. -/
theorem dot_apply (l : (⟨S50000x128, .f32⟩ : BufTy).Contents (Elt Ideal)) (w : (⟨S128x128, .f32⟩ : BufTy).Contents (Elt Ideal)) (i : S50000x128.Idx) :
    Host.dotGeneral (F := Ideal) (φ₁ := .f32) (φ₂ := .f32) dot_S50000x128_S128x128_S50000x128_1_0_0_1_n_n none l w i
      = ∑ k : Fin 128, l (lidx_main_v23 i k) * w (ridx_main_v23 i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v23 i k := funext fun a => Fin.ext (by
    match a with
    | ⟨0, _⟩ => exact lhs_main_v23_0 _ _
    | ⟨1, _⟩ => exact (lhs_main_v23_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v23 i k := funext fun a => Fin.ext (by
    match a with
    | ⟨0, _⟩ => exact (rhs_main_v23_0 _ _).trans hk
    | ⟨1, _⟩ => exact rhs_main_v23_1 _ _)
  rw [el, er]

/-- The left operand is read at row `r`, contraction coordinate `k`. -/
theorem lidx_ix (r : Fin 50000) (j k : Fin 128) : lidx_main_v23 (ix2 r j) k = ix2 r k :=
  funext fun a => Fin.ext (by match a with | ⟨0, _⟩ => rfl | ⟨1, _⟩ => rfl)
/-- The right operand is read at contraction coordinate `k`, column `j`. -/
theorem ridx_ix (r : Fin 50000) (j k : Fin 128) : ridx_main_v23 (ix2 r j) k = ix2 k j :=
  funext fun a => Fin.ext (by match a with | ⟨0, _⟩ => rfl | ⟨1, _⟩ => rfl)
/-- The transposed weights at `(k, j)` are the weights at `(j, k)`. -/
theorem wlT_apply (W : (⟨S128x128, .f32⟩ : BufTy).Contents (Elt Ideal)) (k j : Fin 128) : val_main_v22 (F := Ideal) W (ix2 k j) = W (ix2 j k) := by
  rw [val_main_v22_apply]
  exact congrArg W (funext fun a => Fin.ext (by match a with | ⟨0, _⟩ => rfl | ⟨1, _⟩ => rfl))
/-- The same for the second product's weights. -/
theorem wrT_apply (W : (⟨S128x128, .f32⟩ : BufTy).Contents (Elt Ideal)) (k j : Fin 128) : val_main_v27 (F := Ideal) W (ix2 k j) = W (ix2 j k) := by
  rw [val_main_v27_apply]
  exact congrArg W (funext fun a => Fin.ext (by match a with | ⟨0, _⟩ => rfl | ⟨1, _⟩ => rfl))
/-- The bias broadcast over the rows reads the bias at the column. -/
theorem bias_apply (bl : (⟨S128, .f32⟩ : BufTy).Contents (Elt Ideal)) (r : Fin 50000) (j : Fin 128) : val_main_v25 (F := Ideal) bl (ix2 r j) = bl (ix1 j) := by
  rw [val_main_v25_apply, val_main_v24_apply]
  exact congrArg bl (funext fun a => Fin.ext (by match a with | ⟨0, _⟩ => rfl))

/-- The layer before the rectifier at row `r`, feature `j`. -/
theorem linPre_apply (a h : (⟨S50000x128, .f32⟩ : BufTy).Contents (Elt Ideal)) (Wl : (⟨S128x128, .f32⟩ : BufTy).Contents (Elt Ideal)) (bl : (⟨S128, .f32⟩ : BufTy).Contents (Elt Ideal)) (Wr : (⟨S128x128, .f32⟩ : BufTy).Contents (Elt Ideal)) (r : Fin 50000) (j : Fin 128) :
    linPre a h Wl bl Wr (ix2 r j)
      = ((∑ k : Fin 128, a (ix2 r k) * Wl (ix2 j k)) + bl (ix1 j)) + ∑ k : Fin 128, h (ix2 r k) * Wr (ix2 j k) := by
  unfold linPre
  rw [addf_apply, addf_apply, dot_apply, dot_apply, bias_apply]
  simp only [lidx_ix, ridx_ix, wlT_apply, wrT_apply]

/-- The rectifier's zero array reads the zero word everywhere. -/
theorem zero_apply (i : S50000x128.Idx) : val_main_call0_v0 (F := Ideal) i = Cert.Spec.zero32 := by
  rw [val_main_call0_v0_apply, val_main_call0_cst_apply]
  rfl

/-- THE LAYER BRIDGE: the specification's layer, with the bias as a one-row array, is the reference's layer. The two
    differ by the order of the three summands only. -/
theorem sage_bridge (relu : Bool) (a h : S50000x128.Idx → EReal) (Wl Wr : S128x128.Idx → EReal) (bl : S128.Idx → EReal)
    (b2 : S1x128.Idx → EReal) (hb : ∀ j : Fin 128, b2 (ix2 0 j) = bl (ix1 j)) :
    Cert.Spec.sageK relu a h Wl b2 Wr = linR relu a h Wl bl Wr := by
  funext i
  obtain ⟨r, j, rfl⟩ : ∃ (r : Fin 50000) (j : Fin 128), i = ix2 r j := ⟨i 0, i 1, eq_ix2 i⟩
  have e : Cert.Spec.sageAt a h Wl b2 Wr r j = linPre a h Wl bl Wr (ix2 r j) := by
    rw [linPre_apply, Cert.Spec.sageAt, hb, add_right_comm]
  cases relu
  · show Cert.Spec.sageAt a h Wl b2 Wr r j = linPre a h Wl bl Wr (ix2 r j)
    exact e
  · show max (Cert.Spec.sageAt a h Wl b2 Wr r j) Cert.Spec.zero32
      = max (linPre a h Wl bl Wr (ix2 r j)) (val_main_call0_v0 (F := Ideal) (ix2 r j))
    rw [e, zero_apply]

/-! ## The whole reference -/

/-- The reference's result: three layers, each on the previous one's output and its mean aggregation, then the pooling
    stage. -/
def refOut (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S4x128, .f32⟩ : BufTy).Contents (Elt Ideal)) (x13 : (⟨S4, .f32⟩ : BufTy).Contents (Elt Ideal)) : (⟨S64x4, .f32⟩ : BufTy).Contents (Elt Ideal) :=
  poolR (linR false (val_main_v21 (F := Ideal) (linR true (val_main_v21 (F := Ideal) (linR true (val_main_v21 (F := Ideal) x0 x1) x0 x3 x4 x5) x1) (linR true (val_main_v21 (F := Ideal) x0 x1) x0 x3 x4 x5) x6 x7 x8) x1) (linR true (val_main_v21 (F := Ideal) (linR true (val_main_v21 (F := Ideal) x0 x1) x0 x3 x4 x5) x1) (linR true (val_main_v21 (F := Ideal) x0 x1) x0 x3 x4 x5) x6 x7 x8) x9 x10 x11) x2 x12 x13

/-- The reference's result, as the operations compose it, is `refOut`. -/
theorem v99_eq (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S4x128, .f32⟩ : BufTy).Contents (Elt Ideal)) (x13 : (⟨S4, .f32⟩ : BufTy).Contents (Elt Ideal)) :
    val_main_v99 (F := Ideal) x0 x1 x2 x3 x4 x5 x6 x7 x8 x9 x10 x11 x12 x13 = refOut x0 x1 x2 x3 x4 x5 x6 x7 x8 x9 x10 x11 x12 x13 := by
  rw [v99_pool, v83_eq, v57_eq, v30_eq]
  rfl

open Idealize.SL.Sem Idealize.ShloMosaic.TcCoe Idealize.ShloMosaic.StableHlo in
/-- The reference's run, its result stated as `refOut` of the arguments' launch contents. -/
theorem ref_run (m : (ℓ : Loc nD τ sig) → Buf (Elt Ideal) ℓ) (ρ : Dev nD → PrngReg) :
    θ_run Cert.ReferenceIdeal.defs (onTc (τ := Cert.ReferenceIdeal.τ) (Cert.ReferenceIdeal.main (F := Ideal))) ⟨m, fun _ => 0, ρ⟩ fun r => ∀ c : Dev nD,
      r.2.mem ((c.tc : Thread nD τ).loc main_v99) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run Cert.ReferenceIdeal.defs _ _).mono (fun _ h c => ⟨(h c).1.trans ((val_main_v99_eq m c).trans (v99_eq _ _ _ _ _ _ _ _ _ _ _ _ _ _)), (h c).2⟩)
    (Cert.ReferenceIdeal.Value.run (F := Ideal) m ρ)

end Cert.RefSpec

end
-- ==== Proof.KIV.AggBridge.lean ====
/-
  The aggregation bridge: the kernel program's host multiplies the scatter-added neighbour sum by ONE OVER the clamped
  in-degree, the reference divides the same sum BY the clamped in-degree. The sums are the same array and so are the
  counts (the two programs apply the same slices, index wrap, gather and scatter to the same arguments); the count at
  a node is a natural number (zeros plus a sum of ones), so the clamped count is a real number at least one, and for
  such a divisor `s · (1 / d) = s / d` for every extended real `s`.
-/
import proofs.«428637_j38302518345827_1_alg».proof.Proof.KIV.Host
import proofs.«428637_j38302518345827_1_alg».proof.Proof.Gen.ReferenceIdeal.Read
import Idealize.ShloMosaic.PureOps.Ideal.Laws

noncomputable section

namespace Cert.KernelIdeal.Val

open Cert.KernelIdeal Cert.KernelIdeal.Gen Idealize.ShloMosaic Idealize.ShloMosaic.ValueIdx

/-- The word `1.0` denotes the real one. -/
theorem agg_one32 : Ideal.ofBits .f32 0x3F800000#32 = (1 : EReal) := by
  simp [Ideal.ofBits, Ideal.ieee, -EReal.coe_mul]; norm_num

/-- Ones summed onto zeros: the value at every index is a natural number (how many updates land there). -/
theorem agg_scatter_count {s si su : Shape} (d : ScatterDims s si su) {w : Nat} (x : s.Idx → EReal) (idx : IVec si w)
    (upd : su.Idx → EReal) (hx : ∀ i, x i = 0) (hu : ∀ j, upd j = 1) (i : s.Idx) :
    ∃ n : ℕ, Ideal.hostScatterAdd d x idx upd i = ((n : ℝ) : EReal) := by
  unfold Ideal.hostScatterAdd
  rw [hx, zero_add, Finset.sum_congr rfl (fun j _ => hu j), Finset.sum_const, nsmul_one]
  exact ⟨_, EReal.coe_natCast.symm⟩

/-- A float word spread over a whole array reads, everywhere, what the word denotes. -/
theorem agg_bcastWord_apply {t : Shape} (h : S_.BroadcastsInDim t (![] : Fin 0 → Fin t.rank)) (b : BitVec 32) (j : t.Idx) :
    broadcastInDim t ![] h (constant (F := Ideal) S_ .f32 b) j = Ideal.ofBits .f32 b :=
  broadcastInDim_apply _ h _ j (fun a => a.elim0) (fun a => a.elim0)

/-- The host's accumulating scatter is, on the extended reals, each element plus the sum of the updates landing on it. -/
theorem agg_hostScatterAdd_eq {s si su : Shape} (d : ScatterDims s si su) {w : Nat} (x : FVec Ideal s .f32) (idx : IVec si w)
    (upd : FVec Ideal su .f32) : Host.scatterAdd (F := Ideal) d x idx upd = Ideal.hostScatterAdd d x idx upd := rfl

/-- The in-degree of a node is a natural number. -/
theorem degCnt_nat (dst : IVec S600000 32) (k : S50000x1.Idx) : ∃ n : ℕ, degCnt dst k = ((n : ℝ) : EReal) := by
  unfold degCnt
  rw [agg_hostScatterAdd_eq]
  exact agg_scatter_count _ _ _ _ (fun i => (agg_bcastWord_apply _ _ i).trans Ideal.ofBits_zero_f32)
    (fun j => (agg_bcastWord_apply _ _ j).trans agg_one32) k

/-- The host's quotient of two arrays, at an index. -/
theorem agg_hostDivf_apply {s : Shape} (a b : FVec Ideal s .f32) (k : s.Idx) :
    Host.divf (F := Ideal) a b k = Ideal.div (a k) (b k) := rfl

/-- The clamped in-degree at a node: the larger of its in-degree and one. -/
theorem degClamp_apply (dst : IVec S600000 32) (k : S50000x1.Idx) : degClamp dst k = max (degCnt dst k) 1 := by
  unfold degClamp
  rw [maximumf_apply, (agg_bcastWord_apply _ _ k).trans agg_one32]

/-- The reciprocal column at a node: one over the larger of its in-degree and one. -/
theorem invDegOf_apply (dst : IVec S600000 32) (k : S50000x1.Idx) :
    invDegOf dst k = Ideal.div 1 (max (degCnt dst k) 1) := by
  unfold invDegOf
  rw [agg_hostDivf_apply, degClamp_apply, (agg_bcastWord_apply _ _ k).trans agg_one32]

/-- A column spread along the rows reads, at `(r, q)`, the column at `(r, 0)`. -/
theorem agg_bcastCol_apply (y : FVec Ideal S50000x1 .f32) (i : S50000x128.Idx) :
    broadcastInDim S50000x128 ![0, 1] bcast_S50000x1_S50000x128_0_1 y i = y (Cert.ReferenceIdeal.Read.idx_main_v20 i) :=
  broadcastInDim_apply _ bcast_S50000x1_S50000x128_0_1 y i (Cert.ReferenceIdeal.Read.idx_main_v20 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- For a count `c` (a natural number), `s · (1 / max c 1) = s / max c 1`, whatever `s` is. -/
theorem agg_mul_inv_clamp (s c : EReal) (n : ℕ) (hc : c = ((n : ℝ) : EReal)) :
    s * Ideal.div 1 (max c 1) = Ideal.div s (max c 1) := by
  have hd : max c 1 = ((max (n : ℝ) 1 : ℝ) : EReal) := by
    rw [hc, ← EReal.coe_one]; exact (EReal.coe_strictMono.monotone.map_max).symm
  have hr : max (n : ℝ) 1 ≠ 0 := ne_of_gt (lt_of_lt_of_le one_pos (le_max_right _ _))
  rw [hd, Ideal.div_coe hr, Ideal.div_coe hr, one_mul]

/-- The neighbour sum divided by the clamped in-degree spread along the rows: what the reference computes, spelt
    over the kernel program's own sub-terms. -/
def aggDiv (h : FVec Ideal S50000x128 .f32) (src dst : IVec S600000 32) : FVec Ideal S50000x128 .f32 :=
  Host.divf (F := Ideal) (aggSum h src dst) (broadcastInDim S50000x128 ![0, 1] bcast_S50000x1_S50000x128_0_1 (degClamp dst))

/-- Sum times the reciprocal of the clamped in-degree is sum divided by the clamped in-degree, for any features and
    any edge ends: the count at a node is a natural number, so the divisor is a real number at least one. -/
theorem aggKfn_eq_aggDiv (h : FVec Ideal S50000x128 .f32) (src dst : IVec S600000 32) :
    aggKfn h src dst (invDegOf dst) = aggDiv h src dst := by
  funext i
  obtain ⟨n, hn⟩ := degCnt_nat dst (Cert.ReferenceIdeal.Read.idx_main_v20 i)
  unfold aggKfn aggDiv
  rw [mulf_apply, agg_hostDivf_apply, agg_bcastCol_apply, agg_bcastCol_apply, invDegOf_apply, degClamp_apply]
  exact agg_mul_inv_clamp _ _ n hn

/-- Layer 1: the kernel program's aggregation of the input features is the reference's. -/
theorem agg_bridge (h : FVec Ideal S50000x128 .f32) (ei : IVec S2x600000 32) :
    aggKfn h (srcRaw ei) (dstRaw ei) (invDeg ei) = Cert.ReferenceIdeal.Read.val_main_v21 (F := Ideal) h ei :=
  (aggKfn_eq_aggDiv h (srcRaw ei) (dstRaw ei)).trans rfl

/-- Layer 2: the same on the reference's first-layer output. -/
theorem agg_bridge2 (x0 : FVec Ideal S50000x128 .f32) (x1 : IVec S2x600000 32) (x3 : FVec Ideal S128x128 .f32)
    (x4 : FVec Ideal S128 .f32) (x5 : FVec Ideal S128x128 .f32) :
    aggKfn (Cert.ReferenceIdeal.Read.val_main_v30 (F := Ideal) x0 x1 x3 x4 x5) (srcRaw x1) (dstRaw x1) (invDeg x1)
      = Cert.ReferenceIdeal.Read.val_main_v48 (F := Ideal) x0 x1 x3 x4 x5 := by
  unfold Cert.ReferenceIdeal.Read.val_main_v48 Cert.ReferenceIdeal.Read.val_main_v40 Cert.ReferenceIdeal.Read.val_main_v37
  generalize Cert.ReferenceIdeal.Read.val_main_v30 (F := Ideal) x0 x1 x3 x4 x5 = h
  exact (aggKfn_eq_aggDiv h (srcRaw x1) (dstRaw x1)).trans rfl

/-- Layer 3: the same on the reference's second-layer output. -/
theorem agg_bridge3 (x0 : FVec Ideal S50000x128 .f32) (x1 : IVec S2x600000 32) (x3 : FVec Ideal S128x128 .f32)
    (x4 : FVec Ideal S128 .f32) (x5 x6 : FVec Ideal S128x128 .f32) (x7 : FVec Ideal S128 .f32)
    (x8 : FVec Ideal S128x128 .f32) :
    aggKfn (Cert.ReferenceIdeal.Read.val_main_v57 (F := Ideal) x0 x1 x3 x4 x5 x6 x7 x8) (srcRaw x1) (dstRaw x1) (invDeg x1)
      = Cert.ReferenceIdeal.Read.val_main_v75 (F := Ideal) x0 x1 x3 x4 x5 x6 x7 x8 := by
  unfold Cert.ReferenceIdeal.Read.val_main_v75 Cert.ReferenceIdeal.Read.val_main_v67 Cert.ReferenceIdeal.Read.val_main_v64
  generalize Cert.ReferenceIdeal.Read.val_main_v57 (F := Ideal) x0 x1 x3 x4 x5 x6 x7 x8 = h
  exact (aggKfn_eq_aggDiv h (srcRaw x1) (dstRaw x1)).trans rfl

end Cert.KernelIdeal.Val

end
-- ==== Proof.PoolBridge.lean ====
/-
  The pooling bridge: the specification's pooled mean through the linear head is the reference's pooling stage.

  The reference scatter-adds the node rows into the graph rows by graph id, and likewise a column of ones for the
  row counts. At the extended reals a scatter-add is, at each result entry, the operand's entry plus the sum of the
  updates that land there; an update lands where its start index, read signed, plus its window coordinate is in
  range. For these dimension numbers row `n`, feature `d` lands at graph `g`, feature `d'` exactly when row `n`'s
  graph id is the word `g` (a 32-bit word that reads signed as `g < 64` is the word `g`) and `d = d'`. So the
  scatter-added rows are the sums over the one-hot weights, the scatter-added ones are the counts, and the division,
  the product with the transposed head weights and the bias broadcast match the specification term by term.
-/
import proofs.«428637_j38302518345827_1_alg».proof.Proof.PoolRef
import proofs.«428637_j38302518345827_1_alg».proof.Proof.Spec

noncomputable section

namespace Cert.RefSpec.Pool

open Cert.ReferenceIdeal Cert.ReferenceIdeal.Read Idealize.ShloMosaic Idealize.ShloMosaic.ValueIdx

/-- An update lands at `i` exactly when, on every axis, its start plus its window coordinate is `i`'s coordinate. -/
theorem resultIdx?_eq_some_iff {s si u : Shape} (D : ScatterDims s si u) {w : Nat} (j : u.Idx) (idx : IVec si w)
    (i : s.Idx) :
    D.resultIdx? j idx = some i ↔ ∀ a, D.start j idx a + (D.window j a : Int) = ((i a).val : Int) := by
  unfold ScatterDims.resultIdx?
  split
  · rename_i h
    rw [Option.some.injEq]
    constructor
    · rintro rfl a
      have := h a
      simp only []
      omega
    · intro H
      funext a
      apply Fin.ext
      have := H a
      have := h a
      simp only []
      omega
  · rename_i h
    constructor
    · intro H; cases H
    · intro H
      exact absurd (fun a => by have := H a; have := (i a).isLt; omega) h

theorem rows_siIdx (j : S50000x128.Idx) (c : Fin scatter_S64x128_S50000x1_S50000x128_1_0_0_1.scatterDimsToOperandDims.length) :
    scatter_S64x128_S50000x1_S50000x128_1_0_0_1.siIdx j c = ix2 (j 0) 0 := by
  funext b
  apply Fin.ext
  match b with
  | ⟨0, _⟩ => rfl
  | ⟨1, _⟩ =>
    have hc : c.val < 1 := c.isLt
    show c.val = 0
    omega

theorem rows_start0 (j : S50000x128.Idx) (idx : IVec S50000x1 32) :
    scatter_S64x128_S50000x1_S50000x128_1_0_0_1.start j idx 0 = (idx (ix2 (j 0) 0)).toInt := by
  unfold ScatterDims.start
  rw [dif_pos (show (0 : Fin S64x128.rank) ∈ scatter_S64x128_S50000x1_S50000x128_1_0_0_1.scatterDimsToOperandDims by decide), rows_siIdx]
  rfl

theorem rows_start1 (j : S50000x128.Idx) (idx : IVec S50000x1 32) :
    scatter_S64x128_S50000x1_S50000x128_1_0_0_1.start j idx 1 = 0 := by
  unfold ScatterDims.start
  rw [dif_neg (show ¬ (1 : Fin S64x128.rank) ∈ scatter_S64x128_S50000x1_S50000x128_1_0_0_1.scatterDimsToOperandDims by decide)]

theorem rows_window0 (j : S50000x128.Idx) :
    scatter_S64x128_S50000x1_S50000x128_1_0_0_1.window j 0 = 0 := by
  unfold ScatterDims.window
  rw [dif_neg (show ¬ (0 : Fin S64x128.rank) ∈ scatter_S64x128_S50000x1_S50000x128_1_0_0_1.sKept by decide)]

theorem rows_window1 (j : S50000x128.Idx) :
    scatter_S64x128_S50000x1_S50000x128_1_0_0_1.window j 1 = (j 1).val := by
  unfold ScatterDims.window
  rw [dif_pos (show (1 : Fin S64x128.rank) ∈ scatter_S64x128_S50000x1_S50000x128_1_0_0_1.sKept by decide)]
  rfl

/-- A 32-bit word read signed is the number `g < 64` exactly when it is the word `g`. -/
theorem toInt_eq_iff (w : BitVec 32) (g : Fin 64) : w.toInt = (g.val : Int) ↔ w = BitVec.ofNat 32 g.val := by
  have hg := g.isLt
  constructor
  · intro H
    apply BitVec.eq_of_toNat_eq
    rw [BitVec.toNat_ofNat]
    have hw := w.isLt
    rw [BitVec.toInt_eq_toNat_cond] at H
    split at H <;> omega
  · rintro rfl
    rw [BitVec.toInt_eq_toNat_cond, BitVec.toNat_ofNat]
    split <;> omega

/-- Row `n`, feature `d` of the updates lands at graph `g`, feature `d'` exactly when row `n`'s graph id is the word
    `g` and the features agree. -/
theorem rows_lands_iff (idx : IVec S50000x1 32) (n : Fin 50000) (d : Fin 128) (g : Fin 64) (d' : Fin 128) :
    scatter_S64x128_S50000x1_S50000x128_1_0_0_1.resultIdx? (ix2 n d) idx = some (ix2 g d')
      ↔ idx (ix2 n 0) = BitVec.ofNat 32 g.val ∧ d = d' := by
  rw [resultIdx?_eq_some_iff, Fin.forall_fin_two, rows_start0, rows_start1, rows_window0, rows_window1,
    ← toInt_eq_iff]
  show (idx (ix2 n 0)).toInt + ((0 : Nat) : Int) = ((g.val : Nat) : Int) ∧ (0 : Int) + ((d.val : Nat) : Int) = ((d'.val : Nat) : Int) ↔ _
  constructor
  · rintro ⟨h0, h1⟩
    exact ⟨by omega, Fin.ext (by omega)⟩
  · rintro ⟨h0, rfl⟩
    exact ⟨by omega, by omega⟩

theorem cnt_siIdx (j : S50000x1.Idx) (c : Fin scatter_S64x1_S50000x1_S50000x1_1_0_0_1.scatterDimsToOperandDims.length) :
    scatter_S64x1_S50000x1_S50000x1_1_0_0_1.siIdx j c = ix2 (j 0) 0 := by
  funext b
  apply Fin.ext
  match b with
  | ⟨0, _⟩ => rfl
  | ⟨1, _⟩ =>
    have hc : c.val < 1 := c.isLt
    show c.val = 0
    omega

theorem cnt_start0 (j : S50000x1.Idx) (idx : IVec S50000x1 32) :
    scatter_S64x1_S50000x1_S50000x1_1_0_0_1.start j idx 0 = (idx (ix2 (j 0) 0)).toInt := by
  unfold ScatterDims.start
  rw [dif_pos (show (0 : Fin S64x1.rank) ∈ scatter_S64x1_S50000x1_S50000x1_1_0_0_1.scatterDimsToOperandDims by decide), cnt_siIdx]
  rfl

theorem cnt_start1 (j : S50000x1.Idx) (idx : IVec S50000x1 32) :
    scatter_S64x1_S50000x1_S50000x1_1_0_0_1.start j idx 1 = 0 := by
  unfold ScatterDims.start
  rw [dif_neg (show ¬ (1 : Fin S64x1.rank) ∈ scatter_S64x1_S50000x1_S50000x1_1_0_0_1.scatterDimsToOperandDims by decide)]

theorem cnt_window0 (j : S50000x1.Idx) :
    scatter_S64x1_S50000x1_S50000x1_1_0_0_1.window j 0 = 0 := by
  unfold ScatterDims.window
  rw [dif_neg (show ¬ (0 : Fin S64x1.rank) ∈ scatter_S64x1_S50000x1_S50000x1_1_0_0_1.sKept by decide)]

theorem cnt_window1 (j : S50000x1.Idx) :
    scatter_S64x1_S50000x1_S50000x1_1_0_0_1.window j 1 = (j 1).val := by
  unfold ScatterDims.window
  rw [dif_pos (show (1 : Fin S64x1.rank) ∈ scatter_S64x1_S50000x1_S50000x1_1_0_0_1.sKept by decide)]
  rfl

/-- Row `n` of the unit updates lands at graph `g` exactly when row `n`'s graph id is the word `g`. -/
theorem cnt_lands_iff (idx : IVec S50000x1 32) (n : Fin 50000) (e : Fin 1) (g : Fin 64) (e' : Fin 1) :
    scatter_S64x1_S50000x1_S50000x1_1_0_0_1.resultIdx? (ix2 n e) idx = some (ix2 g e')
      ↔ idx (ix2 n 0) = BitVec.ofNat 32 g.val := by
  rw [resultIdx?_eq_some_iff, Fin.forall_fin_two, cnt_start0, cnt_start1, cnt_window0, cnt_window1,
    ← toInt_eq_iff]
  show (idx (ix2 n 0)).toInt + ((0 : Nat) : Int) = ((g.val : Nat) : Int) ∧ (0 : Int) + ((e.val : Nat) : Int) = ((e'.val : Nat) : Int) ↔ _
  have he := e.isLt
  have he' := e'.isLt
  constructor
  · rintro ⟨h0, _⟩
    omega
  · intro h0
    exact ⟨by omega, by omega⟩

/-- The scatter-add of the rows at graph `g`, feature `d`: the operand's entry plus the sum of the rows of graph `g`. -/
theorem rows_scatter_apply (x : S64x128.Idx → EReal) (idx : IVec S50000x1 32) (upd : S50000x128.Idx → EReal)
    (g : Fin 64) (d : Fin 128) :
    Ideal.hostScatterAdd scatter_S64x128_S50000x1_S50000x128_1_0_0_1 x idx upd (ix2 g d)
      = x (ix2 g d) + ∑ n : Fin 50000, (if idx (ix2 n 0) = BitVec.ofNat 32 g.val then (1 : EReal) else 0) * upd (ix2 n d) := by
  unfold Ideal.hostScatterAdd
  refine congrArg (fun t => x (ix2 g d) + t) ?_
  rw [Finset.sum_filter, sum_idx2]
  refine Finset.sum_congr rfl fun n _ => ?_
  simp only [rows_lands_iff]
  by_cases hc : idx (ix2 n 0) = BitVec.ofNat 32 g.val
  · simp only [hc, true_and, if_true, one_mul]
    rw [Finset.sum_ite_eq' Finset.univ d (fun e => upd (ix2 n e)), if_pos (Finset.mem_univ d)]
  · simp only [hc, false_and, if_false, zero_mul, Finset.sum_const_zero]

/-- The scatter-add of unit updates at graph `g`: the operand's entry plus the weighted count of graph `g`'s rows. -/
theorem cnt_scatter_apply (x : S64x1.Idx → EReal) (idx : IVec S50000x1 32) (upd : S50000x1.Idx → EReal)
    (g : Fin 64) :
    Ideal.hostScatterAdd scatter_S64x1_S50000x1_S50000x1_1_0_0_1 x idx upd (ix2 g 0)
      = x (ix2 g 0) + ∑ n : Fin 50000, (if idx (ix2 n 0) = BitVec.ofNat 32 g.val then (1 : EReal) else 0) * upd (ix2 n 0) := by
  unfold Ideal.hostScatterAdd
  refine congrArg (fun t => x (ix2 g 0) + t) ?_
  rw [Finset.sum_filter, sum_idx2]
  refine Finset.sum_congr rfl fun n _ => ?_
  rw [Fin.sum_univ_one]
  simp only [cnt_lands_iff]
  by_cases hc : idx (ix2 n 0) = BitVec.ofNat 32 g.val
  · simp only [hc, if_true, one_mul]
  · simp only [hc, if_false, zero_mul]

/-- The float word `1.0` denotes `1`. -/
theorem one32_eq : Cert.Spec.one32 = 1 := by
  simp [Ideal.ofBits, Ideal.ieee, -EReal.coe_mul]; norm_num

/-- The head's matrix product at graph `g`, output `o`: the sum over the features. -/
theorem head_dot_apply (l : S64x128.Idx → EReal) (r : S128x4.Idx → EReal) (g : Fin 64) (o : Fin 4) :
    Host.dotGeneral (F := Ideal) (φ₁ := .f32) (φ₂ := .f32) dot_S64x128_S128x4_S64x4_1_0_0_1_n_n none l r (ix2 g o)
      = ∑ k : Fin 128, l (ix2 g k) * r (ix2 k o) := by
  simp only [Host.dotGeneral]
  rw [Ideal.dotGeneral_apply, ← Equiv.sum_comp (ValueIdx.contrEquiv1 dot_S64x128_S128x4_S64x4_1_0_0_1_n_n 128 rfl rfl).symm]
  refine Finset.sum_congr rfl fun k _ => ?_
  have hk := ValueIdx.contrEquiv1_symm_val dot_S64x128_S128x4_S64x4_1_0_0_1_n_n 128 rfl rfl k
  have el : dot_S64x128_S128x4_S64x4_1_0_0_1_n_n.lhsIdx (ix2 g o) ((ValueIdx.contrEquiv1 dot_S64x128_S128x4_S64x4_1_0_0_1_n_n 128 rfl rfl).symm k) = ix2 g k := funext fun a => Fin.ext (by
    match a with
    | ⟨0, _⟩ => exact lhs_main_v96_0 _ _
    | ⟨1, _⟩ => exact (lhs_main_v96_1 _ _).trans hk)
  have er : dot_S64x128_S128x4_S64x4_1_0_0_1_n_n.rhsIdx (ix2 g o) ((ValueIdx.contrEquiv1 dot_S64x128_S128x4_S64x4_1_0_0_1_n_n 128 rfl rfl).symm k) = ix2 k o := funext fun a => Fin.ext (by
    match a with
    | ⟨0, _⟩ => exact (rhs_main_v96_0 _ _).trans hk
    | ⟨1, _⟩ => exact rhs_main_v96_1 _ _)
  rw [el, er]

/-- The host's scatter-adds are the ideal instance's exact sums. -/
theorem rows_host_apply (x : S64x128.Idx → EReal) (idx : IVec S50000x1 32) (upd : S50000x128.Idx → EReal)
    (g : Fin 64) (d : Fin 128) :
    Host.scatterAdd (F := Ideal) (φ := .f32) scatter_S64x128_S50000x1_S50000x128_1_0_0_1 x idx upd (ix2 g d)
      = x (ix2 g d) + ∑ n : Fin 50000, (if idx (ix2 n 0) = BitVec.ofNat 32 g.val then (1 : EReal) else 0) * upd (ix2 n d) :=
  rows_scatter_apply x idx upd g d

theorem cnt_host_apply (x : S64x1.Idx → EReal) (idx : IVec S50000x1 32) (upd : S50000x1.Idx → EReal) (g : Fin 64) :
    Host.scatterAdd (F := Ideal) (φ := .f32) scatter_S64x1_S50000x1_S50000x1_1_0_0_1 x idx upd (ix2 g 0)
      = x (ix2 g 0) + ∑ n : Fin 50000, (if idx (ix2 n 0) = BitVec.ofNat 32 g.val then (1 : EReal) else 0) * upd (ix2 n 0) :=
  cnt_scatter_apply x idx upd g

/-- The reference's clamped count, broadcast along the features, is the specification's. -/
theorem den_eq (batch : S50000.Idx → BitVec 32) (bt : S50000x1.Idx → BitVec 32)
    (hbt : ∀ n : Fin 50000, bt (ix2 n 0) = batch (ix1 n)) (g : Fin 64) (k : Fin 128) :
    val_main_v93 (F := Ideal) batch (ix2 g k) = max (Cert.Spec.poolCnt bt g) Cert.Spec.one32 := by
  have ei : idx_main_v93 (ix2 g k) = ix2 g 0 := funext fun a => match a with | ⟨0, _⟩ => rfl | ⟨1, _⟩ => rfl
  rw [val_main_v93_apply, val_main_v92_apply, Ideal.maximumf_def, ei, val_main_v91_apply, val_main_cst_19_apply,
    Ideal.ofBits_def]
  refine congrArg (fun t => max t Cert.Spec.one32) ?_
  unfold val_main_v90
  refine (cnt_host_apply _ _ _ g).trans ?_
  rw [val_main_v88_apply, val_main_cst_18_apply, Ideal.ofBits_def, Ideal.ofBits_zero_f32, zero_add]
  unfold Cert.Spec.poolCnt
  refine Finset.sum_congr rfl fun n _ => ?_
  have e89 : val_main_v89 (F := Ideal) batch (ix2 n 0) = bt (ix2 n 0) := by
    rw [val_main_v89_apply, hbt]
    exact congrArg batch (funext fun a => match a with | ⟨0, _⟩ => rfl)
  rw [val_main_v87_apply, val_main_cst_17_apply, Ideal.ofBits_def, e89]
  show _ * Cert.Spec.one32 = _
  rw [one32_eq, mul_one]
  rfl

/-- The reference's scatter-added rows are the specification's per-graph sums. -/
theorem num_eq (h : S50000x128.Idx → EReal) (batch : S50000.Idx → BitVec 32) (bt : S50000x1.Idx → BitVec 32)
    (hbt : ∀ n : Fin 50000, bt (ix2 n 0) = batch (ix1 n)) (g : Fin 64) (k : Fin 128) :
    Host.scatterAdd (F := Ideal) (φ := .f32) scatter_S64x128_S50000x1_S50000x128_1_0_0_1 (val_main_v84 (F := Ideal))
        (val_main_v85 (F := Ideal) batch) h (ix2 g k) = Cert.Spec.poolSum h bt g k := by
  refine (rows_host_apply _ _ _ g k).trans ?_
  rw [val_main_v84_apply, val_main_cst_16_apply, Ideal.ofBits_def, Ideal.ofBits_zero_f32, zero_add]
  unfold Cert.Spec.poolSum
  refine Finset.sum_congr rfl fun n _ => ?_
  have e85 : val_main_v85 (F := Ideal) batch (ix2 n 0) = bt (ix2 n 0) := by
    rw [val_main_v85_apply, hbt]
    exact congrArg batch (funext fun a => match a with | ⟨0, _⟩ => rfl)
  rw [e85]
  rfl

/-- The reference's bias broadcast is the specification's bias row. -/
theorem bias_eq (blin : S4.Idx → EReal) (b2 : S1x4.Idx → EReal) (hb : ∀ o : Fin 4, b2 (ix2 0 o) = blin (ix1 o))
    (g : Fin 64) (o : Fin 4) : val_main_v98 (F := Ideal) blin (ix2 g o) = b2 (ix2 0 o) := by
  rw [val_main_v98_apply, val_main_v97_apply, hb]
  exact congrArg blin (funext fun a => match a with | ⟨0, _⟩ => rfl)

/-- The transposed head weights read the weights with the coordinates swapped. -/
theorem wT_eq (Wlin : S4x128.Idx → EReal) (k : Fin 128) (o : Fin 4) :
    val_main_v95 (F := Ideal) Wlin (ix2 k o) = Wlin (ix2 o k) := by
  rw [val_main_v95_apply]
  exact congrArg Wlin (funext fun a => match a with | ⟨0, _⟩ => rfl | ⟨1, _⟩ => rfl)

/-- The host's quotient at an index is the quotient of the entries. -/
theorem hostDivf_apply (x y : S64x128.Idx → EReal) (i : S64x128.Idx) :
    Host.divf (F := Ideal) (φ := .f32) x y i = Ideal.div (x i) (y i) := rfl

end Cert.RefSpec.Pool

namespace Cert.RefSpec

open Cert.ReferenceIdeal Cert.ReferenceIdeal.Read Idealize.ShloMosaic Idealize.ShloMosaic.ValueIdx Cert.RefSpec.Pool

/-- The pooling stage of the specification is the reference's. -/
theorem pool_bridge (h : S50000x128.Idx → EReal) (batch : S50000.Idx → BitVec 32) (bt : S50000x1.Idx → BitVec 32)
    (hbt : ∀ n : Fin 50000, bt (ix2 n 0) = batch (ix1 n)) (Wlin : S4x128.Idx → EReal) (blin : S4.Idx → EReal)
    (b2 : S1x4.Idx → EReal) (hb : ∀ o : Fin 4, b2 (ix2 0 o) = blin (ix1 o)) :
    Cert.Spec.poolK h bt Wlin b2 = poolR h batch Wlin blin := by
  funext i
  obtain ⟨g, o, rfl⟩ : ∃ (g : Fin 64) (o : Fin 4), i = ix2 g o := ⟨i 0, i 1, eq_ix2 i⟩
  unfold poolR
  rw [addf_apply, head_dot_apply, bias_eq blin b2 hb g o]
  show (∑ d : Fin 128, Ideal.div (Cert.Spec.poolSum h bt g d) (max (Cert.Spec.poolCnt bt g) Cert.Spec.one32) * Wlin (ix2 o d))
    + b2 (ix2 0 o) = _
  refine congrArg (fun t => t + b2 (ix2 0 o)) (Finset.sum_congr rfl fun k _ => ?_)
  rw [wT_eq, hostDivf_apply, num_eq h batch bt hbt g k, den_eq batch bt hbt g k]

end Cert.RefSpec

end
-- ==== Proof.Final.lean ====
/-
  The kernel's result and the reference's are one function of the arguments.

  The kernel's side is the specification's three layers and pooling stage on the kernel's own aggregation and reshaped
  biases; the reference's side is its three layers and pooling stage. Layer by layer, innermost first: the kernel's
  aggregation of a feature array is the reference's mean aggregation of it, and the specification's layer is the
  reference's; last, the specification's pooling stage is the reference's.
-/
import proofs.«428637_j38302518345827_1_alg».proof.Proof.KIV.Out
import proofs.«428637_j38302518345827_1_alg».proof.Proof.KIV.AggBridge
import proofs.«428637_j38302518345827_1_alg».proof.Proof.PoolBridge
import proofs.«428637_j38302518345827_1_alg».proof.Proof.RefSpec

noncomputable section

namespace Cert.Final

open Cert.ReferenceIdeal Cert.ReferenceIdeal.Read Idealize.ShloMosaic Idealize.ShloMosaic.ValueIdx
open Cert.KernelIdeal.Val Cert.RefSpec

/-- One layer: the kernel's aggregation is the reference's mean aggregation of the same features, and the
    specification's layer on it is the reference's layer. -/
theorem layer_eq (relu : Bool) (h : (⟨S50000x128, .f32⟩ : BufTy).Contents (Elt Ideal)) (ei : (⟨S2x600000, .i32⟩ : BufTy).Contents (Elt Ideal)) (Wl : (⟨S128x128, .f32⟩ : BufTy).Contents (Elt Ideal)) (bl : (⟨S128, .f32⟩ : BufTy).Contents (Elt Ideal)) (Wr : (⟨S128x128, .f32⟩ : BufTy).Contents (Elt Ideal)) :
    Cert.Spec.sageK relu (aggKfn h (srcRaw ei) (dstRaw ei) (invDeg ei)) h Wl (rs bl) Wr
      = linR relu (val_main_v21 (F := Ideal) h ei) h Wl bl Wr := by
  rw [agg_bridge]
  exact sage_bridge relu _ h Wl Wr bl (rs bl) (rs_apply bl)

/-- THE TWO RESULTS ARE ONE FUNCTION of the arguments: layer by layer, innermost first, then the pooling stage. -/
theorem out_eq (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S4x128, .f32⟩ : BufTy).Contents (Elt Ideal)) (x13 : (⟨S4, .f32⟩ : BufTy).Contents (Elt Ideal)) :
    kernelOut x0 x1 x2 x3 x4 x5 x6 x7 x8 x9 x10 x11 x12 x13 = refOut x0 x1 x2 x3 x4 x5 x6 x7 x8 x9 x10 x11 x12 x13 := by
  unfold kernelOut lay3 lay2 lay1 refOut
  rw [layer_eq true x0 x1 x3 x4 x5, layer_eq true _ x1 x6 x7 x8, layer_eq false _ x1 x9 x10 x11]
  exact pool_bridge _ x2 (rsI x2) (rsI_apply x2) x12 x13 (rs4 x13) (rs4_apply x13)

end Cert.Final

end
-- ==== Proof.lean ====
/- The proof of `Cert.Claim`.
   The three programs run to the end, nothing faulting, with their argument arrays as launched: the two kernel programs
   by the launch theorem over their four pipelined regions and the host operations between them, the reference as a
   list of host operations. At the ideal values the kernel's output array is what the last region writes back at its
   last grid point — the pooled mean, through the linear head, of three SAGE layers of the arguments — and the
   reference's result is the same function of arguments that agree. -/
import proofs.«428637_j38302518345827_1_alg».proof.Defs
import proofs.«428637_j38302518345827_1_alg».proof.Proof.Gen.Kernel
import proofs.«428637_j38302518345827_1_alg».proof.Proof.Gen.Kernel.Skeleton
import proofs.«428637_j38302518345827_1_alg».proof.Proof.Gen.Kernel.Launch
import proofs.«428637_j38302518345827_1_alg».proof.Proof.Gen.Kernel.Regions
import proofs.«428637_j38302518345827_1_alg».proof.Proof.Gen.Kernel.Points
import proofs.«428637_j38302518345827_1_alg».proof.Proof.Gen.KernelIdeal
import proofs.«428637_j38302518345827_1_alg».proof.Proof.Gen.KernelIdeal.Skeleton
import proofs.«428637_j38302518345827_1_alg».proof.Proof.Gen.KernelIdeal.Launch
import proofs.«428637_j38302518345827_1_alg».proof.Proof.Gen.KernelIdeal.Regions
import proofs.«428637_j38302518345827_1_alg».proof.Proof.Gen.KernelIdeal.Points
import proofs.«428637_j38302518345827_1_alg».proof.Proof.Gen.ReferenceIdeal
import proofs.«428637_j38302518345827_1_alg».proof.Proof.Gen.Pre_finite_inputs
import proofs.«428637_j38302518345827_1_alg».proof.Proof.Gen.ReferenceIdeal.Run
import proofs.«428637_j38302518345827_1_alg».proof.Proof.K.Run
import proofs.«428637_j38302518345827_1_alg».proof.Proof.KI.Run
import proofs.«428637_j38302518345827_1_alg».proof.Proof.KIV.Value
import proofs.«428637_j38302518345827_1_alg».proof.Proof.RefSpec
import proofs.«428637_j38302518345827_1_alg».proof.Proof.Final
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the kernel program at the ideal values. -/
theorem frame_ki : Cert.frame_KernelIdeal := fun m ρ _ => Cert.KernelIdeal.Gen.frame m ρ

/-- So does the reference: its run's post without the result's conjunct. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program. -/
theorem preserves : Cert.preserves_Kernel_KernelIdeal := trivial

/-- At the ideal values the kernel's output array ends at the last region's write-backs, which are the pooled mean
    through the linear head of three SAGE layers of the arguments; the reference ends at the same function of
    arguments that agree. -/
theorem algebraic : Cert.algebraic_KernelIdeal_ReferenceIdeal := by
  intro m ρ m' ρ' _ hagree
  refine ⟨fun c => (Cert.KernelIdeal.Gen.dat3 (F := Ideal) (Cert.KernelIdeal.Gen.V7' m ρ) c).arrAt 4 Cert.KernelIdeal.cfg3.N,
    Cert.KernelIdeal.Gen.run_val m ρ, ?_⟩
  refine (θ_run Cert.ReferenceIdeal.defs _ _).mono (fun _ h c => ⟨(h c).1.trans ?_, (h c).2⟩)
    (Cert.RefSpec.ref_run m' ρ')
  obtain ⟨h0, h1, h2, h3, h4, h5, h6, h7, h8, h9, h10, h11, h12, h13⟩ := hagree c
  rw [h0, h1, h2, h3, h4, h5, h6, h7, h8, h9, h10, h11, h12, h13]
  exact ((Cert.KernelIdeal.Val.kernel_val m ρ c).trans (Cert.Final.out_eq _ _ _ _ _ _ _ _ _ _ _ _ _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
